-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v134)) (v2 : (c : Dev Cert.KernelIdeal.nD) → Buf (Elt Ideal) ((c.tc : Thread Cert.KernelIdeal.nD Cert.KernelIdeal.τ).loc Cert.KernelIdeal.main_v136)) (v3 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_v136) = v2 c
          ∧ r.2.mem ((c.tc : Thread Cert.KernelIdeal.nD Cert.KernelIdeal.τ).loc Cert.KernelIdeal.main_v138) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v201) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x160x160x11 : Shape := ⟨5, ![32, 3, 160, 160, 11]⟩
abbrev S32x3x80x80x11 : Shape := ⟨5, ![32, 3, 80, 80, 11]⟩
abbrev S32x3x40x40x11 : Shape := ⟨5, ![32, 3, 40, 40, 11]⟩
abbrev S8192x6 : Shape := ⟨2, ![8192, 6]⟩
abbrev S_ : Shape := ⟨0, ![]⟩

class Facts : Prop where
  bcast_S_S32x3x160x160x11 : S_.BroadcastsInDim S32x3x160x160x11 (![] : Fin 0 → Fin S32x3x160x160x11.rank)
  reducesTo_S32x3x160x160x11_S_d0_1_2_3_4 : S32x3x160x160x11.ReducesTo [0, 1, 2, 3, 4] S_
  h_S_ : 0 < S_.numel
  bcast_S_S32x3x80x80x11 : S_.BroadcastsInDim S32x3x80x80x11 (![] : Fin 0 → Fin S32x3x80x80x11.rank)
  reducesTo_S32x3x80x80x11_S_d0_1_2_3_4 : S32x3x80x80x11.ReducesTo [0, 1, 2, 3, 4] S_
  bcast_S_S32x3x40x40x11 : S_.BroadcastsInDim S32x3x40x40x11 (![] : Fin 0 → Fin S32x3x40x40x11.rank)
  reducesTo_S32x3x40x40x11_S_d0_1_2_3_4 : S32x3x40x40x11.ReducesTo [0, 1, 2, 3, 4] S_
  bcast_S_S8192x6 : S_.BroadcastsInDim S8192x6 (![] : Fin 0 → Fin S8192x6.rank)
  reducesTo_S8192x6_S_d0_1 : S8192x6.ReducesTo [0, 1] S_

variable [Facts]

def fn_part1 {F : FTy → Type} [FloatOps F] (main_v13 : IVec S_ 1) (main_v16 : IVec S8192x6 1) : IVec S_ 1 :=
  let main_c_5 : IVec S_ 1 := constantI S_ 1 1#1
  let main_v17 : IVec S_ 1 := (fun x v => Host.reduce IntOp.andi x v reducesTo_S8192x6_S_d0_1 h_S_) main_v16 main_c_5
  let main_v18 : IVec S_ 1 := andi main_v13 main_v17
  main_v18

def fn {F : FTy → Type} [FloatOps F] (main_arg0 : FVec F S32x3x160x160x11 .f32) (main_arg1 : FVec F S32x3x80x80x11 .f32) (main_arg2 : FVec F S32x3x40x40x11 .f32) (main_arg3 : FVec F S8192x6 .f32) : IVec S_ 1 :=
  let main_v0 : FVec F S32x3x160x160x11 .f32 := Host.absf main_arg0
  let main_cst : FVec F S_ .f32 := constant S_ .f32 0x7F800000#32
  let main_v1 : FVec F S32x3x160x160x11 .f32 := broadcastInDim S32x3x160x160x11 ![] bcast_S_S32x3x160x160x11 main_cst
  let main_v2 : IVec S32x3x160x160x11 1 := cmpf .olt main_v0 main_v1
  let main_c : IVec S_ 1 := constantI S_ 1 1#1
  let main_v3 : IVec S_ 1 := (fun x v => Host.reduce IntOp.andi x v reducesTo_S32x3x160x160x11_S_d0_1_2_3_4 h_S_) main_v2 main_c
  let main_v4 : FVec F S32x3x80x80x11 .f32 := Host.absf main_arg1
  let main_cst_0 : FVec F S_ .f32 := constant S_ .f32 0x7F800000#32
  let main_v5 : FVec F S32x3x80x80x11 .f32 := broadcastInDim S32x3x80x80x11 ![] bcast_S_S32x3x80x80x11 main_cst_0
  let main_v6 : IVec S32x3x80x80x11 1 := cmpf .olt main_v4 main_v5
  let main_c_1 : IVec S_ 1 := constantI S_ 1 1#1
  let main_v7 : IVec S_ 1 := (fun x v => Host.reduce IntOp.andi x v reducesTo_S32x3x80x80x11_S_d0_1_2_3_4 h_S_) main_v6 main_c_1
  let main_v8 : IVec S_ 1 := andi main_v3 main_v7
  let main_v9 : FVec F S32x3x40x40x11 .f32 := Host.absf main_arg2
  let main_cst_2 : FVec F S_ .f32 := constant S_ .f32 0x7F800000#32
  let main_v10 : FVec F S32x3x40x40x11 .f32 := broadcastInDim S32x3x40x40x11 ![] bcast_S_S32x3x40x40x11 main_cst_2
  let main_v11 : IVec S32x3x40x40x11 1 := cmpf .olt main_v9 main_v10
  let main_c_3 : IVec S_ 1 := constantI S_ 1 1#1
  let main_v12 : IVec S_ 1 := (fun x v => Host.reduce IntOp.andi x v reducesTo_S32x3x40x40x11_S_d0_1_2_3_4 h_S_) main_v11 main_c_3
  let main_v13 : IVec S_ 1 := andi main_v8 main_v12
  let main_v14 : FVec F S8192x6 .f32 := Host.absf main_arg3
  let main_cst_4 : FVec F S_ .f32 := constant S_ .f32 0x7F800000#32
  let main_v15 : FVec F S8192x6 .f32 := broadcastInDim S8192x6 ![] bcast_S_S8192x6 main_cst_4
  let main_v16 : IVec S8192x6 1 := cmpf .olt main_v14 main_v15
  fn_part1 (F := F) main_v13 main_v16
-- ==== Kernel.lean ====
abbrev S32x3x160x160x11 : Shape := ⟨5, ![32, 3, 160, 160, 11]⟩
abbrev S32x3x80x80x11 : Shape := ⟨5, ![32, 3, 80, 80, 11]⟩
abbrev S32x3x40x40x11 : Shape := ⟨5, ![32, 3, 40, 40, 11]⟩
abbrev S8192x6 : Shape := ⟨2, ![8192, 6]⟩
abbrev S8192x1 : Shape := ⟨2, ![8192, 1]⟩
abbrev S8192 : Shape := ⟨1, ![8192]⟩
abbrev S8192x4 : Shape := ⟨2, ![8192, 4]⟩
abbrev S1x6 : Shape := ⟨2, ![1, 6]⟩
abbrev S_ : Shape := ⟨0, ![]⟩
abbrev S8192x11 : Shape := ⟨2, ![8192, 11]⟩
abbrev S24576x11 : Shape := ⟨2, ![24576, 11]⟩
abbrev S1x8192x1x4 : Shape := ⟨4, ![1, 8192, 1, 4]⟩
abbrev S3x8192x1x4 : Shape := ⟨4, ![3, 8192, 1, 4]⟩
abbrev S24576x4 : Shape := ⟨2, ![24576, 4]⟩
abbrev S1x8192x1x6 : Shape := ⟨4, ![1, 8192, 1, 6]⟩
abbrev S3x8192x1x6 : Shape := ⟨4, ![3, 8192, 1, 6]⟩
abbrev S24576x6 : Shape := ⟨2, ![24576, 6]⟩
abbrev S1x8x128 : Shape := ⟨3, ![1, 8, 128]⟩
abbrev S4096x11 : Shape := ⟨2, ![4096, 11]⟩
abbrev S4096x4 : Shape := ⟨2, ![4096, 4]⟩
abbrev S4096x6 : Shape := ⟨2, ![4096, 6]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S4096x1 : Shape := ⟨2, ![4096, 1]⟩
abbrev S1x128 : Shape := ⟨2, ![1, 128]⟩
abbrev S128 : Shape := ⟨1, ![128]⟩
abbrev S1x1x128 : Shape := ⟨3, ![1, 1, 128]⟩
abbrev S1x1x1 : Shape := ⟨3, ![1, 1, 1]⟩

abbrev nBuf : Space → Nat
  | .hbm => 225
  | .vmem => 7
  | .smem => 0
  | _ => 0

abbrev hbmTy0_0 (i : Nat) : BufTy := match i % 128 with
  | 0 => ⟨S32x3x160x160x11, .f32⟩
  | 1 => ⟨S32x3x80x80x11, .f32⟩
  | 2 => ⟨S32x3x40x40x11, .f32⟩
  | 3 => ⟨S8192x6, .f32⟩
  | 4 => ⟨S8192x1, .f32⟩
  | 5 => ⟨S8192, .f32⟩
  | 6 => ⟨S8192, .i32⟩
  | 7 => ⟨S8192x1, .f32⟩
  | 8 => ⟨S8192, .f32⟩
  | 9 => ⟨S8192, .i32⟩
  | 10 => ⟨S8192x4, .f32⟩
  | 11 => ⟨S8192x1, .i32⟩
  | 12 => ⟨S1x6, .i32⟩
  | 13 => ⟨S8192x6, .i32⟩
  | 14 => ⟨S8192x6, .i32⟩
  | 15 => ⟨S8192x6, .i1⟩
  | 16 => ⟨S8192x6, .f32⟩
  | 17 => ⟨S8192x1, .f32⟩
  | 18 => ⟨S8192, .f32⟩
  | 19 => ⟨S_, .f32⟩
  | 20 => ⟨S8192, .f32⟩
  | 21 => ⟨S8192, .f32⟩
  | 22 => ⟨S8192, .f32⟩
  | 23 => ⟨S8192, .i32⟩
  | 24 => ⟨S_, .i32⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S8192x1, .f32⟩
  | 33 => ⟨S8192, .f32⟩
  | 34 => ⟨S_, .f32⟩
  | 35 => ⟨S8192, .f32⟩
  | 36 => ⟨S8192, .f32⟩
  | 37 => ⟨S8192, .f32⟩
  | 38 => ⟨S8192, .i32⟩
  | 39 => ⟨S_, .i32⟩
  | 40 => ⟨S_, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i32⟩
  | 71 => ⟨S8192x1, .i32⟩
  | 72 => ⟨S8192x1, .i32⟩
  | 73 => ⟨S8192x1, .i32⟩
  | 74 => ⟨S8192x1, .i32⟩
  | 75 => ⟨S8192x4, .i32⟩
  | 76 => ⟨S8192x11, .f32⟩
  | 77 => ⟨S8192x1, .f32⟩
  | 78 => ⟨S8192, .f32⟩
  | 79 => ⟨S_, .f32⟩
  | 80 => ⟨S8192, .f32⟩
  | 81 => ⟨S8192, .f32⟩
  | 82 => ⟨S8192, .f32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192x1, .f32⟩
  | 93 => ⟨S8192, .f32⟩
  | 94 => ⟨S_, .f32⟩
  | 95 => ⟨S8192, .f32⟩
  | 96 => ⟨S8192, .f32⟩
  | 97 => ⟨S8192, .f32⟩
  | 98 => ⟨S8192, .i32⟩
  | 99 => ⟨S_, .i32⟩
  | 100 => ⟨S_, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S32x3x160x160x11, .f32⟩

abbrev hbmTy0_1 (i : Nat) : BufTy := match i % 128 with
  | 0 => ⟨S_, .i32⟩
  | 1 => ⟨S8192, .i32⟩
  | 2 => ⟨S8192, .i32⟩
  | 3 => ⟨S8192x1, .i32⟩
  | 4 => ⟨S8192x1, .i32⟩
  | 5 => ⟨S8192x1, .i32⟩
  | 6 => ⟨S8192x1, .i32⟩
  | 7 => ⟨S8192x4, .i32⟩
  | 8 => ⟨S8192x11, .f32⟩
  | 9 => ⟨S8192x1, .f32⟩
  | 10 => ⟨S8192, .f32⟩
  | 11 => ⟨S_, .f32⟩
  | 12 => ⟨S8192, .f32⟩
  | 13 => ⟨S8192, .f32⟩
  | 14 => ⟨S8192, .f32⟩
  | 15 => ⟨S8192, .i32⟩
  | 16 => ⟨S_, .i32⟩
  | 17 => ⟨S_, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192x1, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192, .i32⟩
  | 31 => ⟨S_, .i32⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192x1, .i32⟩
  | 64 => ⟨S8192x1, .i32⟩
  | 65 => ⟨S8192x1, .i32⟩
  | 66 => ⟨S8192x1, .i32⟩
  | 67 => ⟨S8192x4, .i32⟩
  | 68 => ⟨S8192x11, .f32⟩
  | 69 => ⟨S24576x11, .f32⟩
  | 70 => ⟨S1x8192x1x4, .f32⟩
  | 71 => ⟨S3x8192x1x4, .f32⟩
  | 72 => ⟨S24576x4, .f32⟩
  | 73 => ⟨S1x8192x1x6, .f32⟩
  | 74 => ⟨S3x8192x1x6, .f32⟩
  | 75 => ⟨S24576x6, .f32⟩
  | 76 => ⟨S1x8x128, .f32⟩
  | 77 => ⟨S1x1x1, .f32⟩
  | 78 => ⟨S_, .f32⟩
  | 79 => ⟨S1x1x1, .f32⟩
  | 80 => ⟨S_, .f32⟩
  | 81 => ⟨S1x1x1, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S32x3x160x160x11, .f32⟩

abbrev hbmTy (i : Nat) : BufTy := match i / 128 with
  | 0 => hbmTy0_0 i
  | 1 => hbmTy0_1 i
  | _ => ⟨S32x3x160x160x11, .f32⟩

abbrev bufTy : (tb : Table) → Fin (tcTables nBuf tb) → BufTy
  | .hbm, ⟨i, _⟩ => hbmTy i
  | .local _ .vmem, ⟨0, _⟩ => ⟨S4096x11, .f32⟩
  | .local _ .vmem, ⟨1, _⟩ => ⟨S4096x11, .f32⟩
  | .local _ .vmem, ⟨2, _⟩ => ⟨S4096x4, .f32⟩
  | .local _ .vmem, ⟨3, _⟩ => ⟨S4096x4, .f32⟩
  | .local _ .vmem, ⟨4, _⟩ => ⟨S4096x6, .f32⟩
  | .local _ .vmem, ⟨5, _⟩ => ⟨S4096x6, .f32⟩
  | .local _ .vmem, ⟨6, _⟩ => ⟨S1x8x128, .f32⟩
  | _, _ => ⟨S32x3x160x160x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_c_7 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_v32 : Ref sig .tc := ⟨.hbm, 62, rfl⟩
abbrev main_v33 : Ref sig .tc := ⟨.hbm, 63, rfl⟩
abbrev main_c_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_c_13 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_14 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_15 : Ref sig .tc := ⟨.hbm, 99, rfl⟩
abbrev main_c_16 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v58 : Ref sig .tc := ⟨.hbm, 106, rfl⟩
abbrev main_c_17 : Ref sig .tc := ⟨.hbm, 107, rfl⟩
abbrev main_v59 : Ref sig .tc := ⟨.hbm, 108, rfl⟩
abbrev main_v60 : Ref sig .tc := ⟨.hbm, 109, rfl⟩
abbrev main_c_18 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_19 : Ref sig .tc := ⟨.hbm, 114, rfl⟩
abbrev main_v64 : Ref sig .tc := ⟨.hbm, 115, rfl⟩
abbrev main_v65 : Ref sig .tc := ⟨.hbm, 116, rfl⟩
abbrev main_c_20 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_21 : Ref sig .tc := ⟨.hbm, 121, rfl⟩
abbrev main_v69 : Ref sig .tc := ⟨.hbm, 122, rfl⟩
abbrev main_v70 : Ref sig .tc := ⟨.hbm, 123, rfl⟩
abbrev main_c_22 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_23 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_24 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c_25 : Ref sig .tc := ⟨.hbm, 144, rfl⟩
abbrev main_c_26 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_27 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_c_28 : Ref sig .tc := ⟨.hbm, 159, rfl⟩
abbrev main_c_29 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_v95 : Ref sig .tc := ⟨.hbm, 166, rfl⟩
abbrev main_c_30 : Ref sig .tc := ⟨.hbm, 167, rfl⟩
abbrev main_v96 : Ref sig .tc := ⟨.hbm, 168, rfl⟩
abbrev main_v97 : Ref sig .tc := ⟨.hbm, 169, rfl⟩
abbrev main_c_31 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_c_32 : Ref sig .tc := ⟨.hbm, 174, rfl⟩
abbrev main_v101 : Ref sig .tc := ⟨.hbm, 175, rfl⟩
abbrev main_v102 : Ref sig .tc := ⟨.hbm, 176, rfl⟩
abbrev main_c_33 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_34 : Ref sig .tc := ⟨.hbm, 181, rfl⟩
abbrev main_v106 : Ref sig .tc := ⟨.hbm, 182, rfl⟩
abbrev main_v107 : Ref sig .tc := ⟨.hbm, 183, rfl⟩
abbrev main_c_35 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_c_36 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_37 : Ref sig .tc := ⟨.hbm, 211, rfl⟩
abbrev main_v133 : Ref sig .tc := ⟨.hbm, 212, rfl⟩
abbrev main_cst_38 : Ref sig .tc := ⟨.hbm, 213, rfl⟩
abbrev main_v134 : Ref sig .tc := ⟨.hbm, 214, rfl⟩
abbrev main_cst_39 : Ref sig .tc := ⟨.hbm, 215, rfl⟩
abbrev main_v135 : Ref sig .tc := ⟨.hbm, 216, rfl⟩
abbrev main_cst_40 : Ref sig .tc := ⟨.hbm, 217, rfl⟩
abbrev main_v136 : Ref sig .tc := ⟨.hbm, 218, rfl⟩
abbrev main_cst_41 : Ref sig .tc := ⟨.hbm, 219, rfl⟩
abbrev main_v137 : Ref sig .tc := ⟨.hbm, 220, rfl⟩
abbrev main_cst_42 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S8192x6_S8192x1_0_0 : S8192x6.Slices ![0, 0] S8192x1
  shapeCasts_S8192x1_S8192 : S8192x1.ShapeCasts S8192
  slices_S8192x6_S8192x1_0_1 : S8192x6.Slices ![0, 1] S8192x1
  slices_S8192x6_S8192x4_0_2 : S8192x6.Slices ![0, 2] S8192x4
  bcast_S8192_S8192x1_0 : S8192.BroadcastsInDim S8192x1 (![0] : Fin 1 → Fin S8192x1.rank)
  bcast_S8192x1_S8192x6_0_1 : S8192x1.BroadcastsInDim S8192x6 (![0, 1] : Fin 2 → Fin S8192x6.rank)
  bcast_S1x6_S8192x6_0_1 : S1x6.BroadcastsInDim S8192x6 (![0, 1] : Fin 2 → Fin S8192x6.rank)
  slices_S8192x4_S8192x1_0_0 : S8192x4.Slices ![0, 0] S8192x1
  bcast_S_S8192 : S_.BroadcastsInDim S8192 (![] : Fin 0 → Fin S8192.rank)
  slices_S8192x4_S8192x1_0_1 : S8192x4.Slices ![0, 1] S8192x1
  concatenates_S8192x1_S8192x1_S8192x1_S8192x1_S8192x4_d1 : Shape.Concatenates [S8192x1, S8192x1, S8192x1, S8192x1] S8192x4 1
  concatenates_S8192x11_S8192x11_S8192x11_S24576x11_d0 : Shape.Concatenates [S8192x11, S8192x11, S8192x11] S24576x11 0
  shapeCasts_S8192x4_S1x8192x1x4 : S8192x4.ShapeCasts S1x8192x1x4
  bcast_S1x8192x1x4_S3x8192x1x4_0_1_2_3 : S1x8192x1x4.BroadcastsInDim S3x8192x1x4 (![0, 1, 2, 3] : Fin 4 → Fin S3x8192x1x4.rank)
  shapeCasts_S3x8192x1x4_S24576x4 : S3x8192x1x4.ShapeCasts S24576x4
  shapeCasts_S8192x6_S1x8192x1x6 : S8192x6.ShapeCasts S1x8192x1x6
  bcast_S1x8192x1x6_S3x8192x1x6_0_1_2_3 : S1x8192x1x6.BroadcastsInDim S3x8192x1x6 (![0, 1, 2, 3] : Fin 4 → Fin S3x8192x1x6.rank)
  shapeCasts_S3x8192x1x6_S24576x6 : S3x8192x1x6.ShapeCasts S24576x6
  inb_S1x8x128_S1x8x128_0_0_0 : ∀ a, (![0, 0, 0] : Fin 3 → Nat) a + S1x8x128.size a ≤ S1x8x128.size a
  h_S1x8x128 : 0 < S1x8x128.numel
  inb_S4096x11_S4096x11_0_0 : ∀ a, (![0, 0] : Fin 2 → Nat) a + S4096x11.size a ≤ S4096x11.size a
  h_S4096x11 : 0 < S4096x11.numel
  shapeCasts_S4096x11_S4096x11 : S4096x11.ShapeCasts S4096x11
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  slices_S4096x11_o0_0_S4096x4 : S4096x11.Slices ![0, 0] S4096x4
  reduces_S4096x4_S4096 : S4096x4.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  slices_S4096x11_o0_4_S4096x1 : S4096x11.Slices ![0, 4] S4096x1
  shapeCasts_S4096x1_S4096 : S4096x1.ShapeCasts S4096
  slices_S4096x11_o0_5_S4096x6 : S4096x11.Slices ![0, 5] S4096x6
  reduces_S4096x6_S4096 : S4096x6.Reduces [1] S4096
  iota_S1x128_d1_w32 : S1x128.Iotas .tc 32 [1]
  shapeCasts_S1x128_S128 : S1x128.ShapeCasts S128
  inb_S1x8x128_S1x1x128_0_0_0 : ∀ a, (![0, 0, 0] : Fin 3 → Nat) a + S1x1x128.size a ≤ S1x8x128.size a
  h_S1x1x128 : 0 < S1x1x128.numel
  shapeCasts_S1x1x128_S128 : S1x1x128.ShapeCasts S128
  shapeCasts_S128_S1x1x128 : S128.ShapeCasts S1x1x128
  slices_S1x8x128_S1x1x1_0_0_0 : S1x8x128.Slices ![0, 0, 0] S1x1x1
  shapeCasts_S1x1x1_S_ : S1x1x1.ShapeCasts S_
  slices_S1x8x128_S1x1x1_0_0_1 : S1x8x128.Slices ![0, 0, 1] S1x1x1
  slices_S1x8x128_S1x1x1_0_0_2 : S1x8x128.Slices ![0, 0, 2] S1x1x1
  gather_S32x3x160x160x11_S8192x4_S8192x11_1_0123_n_n_0123_1_111111_wf : GatherDims.WF S32x3x160x160x11 S8192x4 S8192x11 [1] [0, 1, 2, 3] [] [0, 1, 2, 3] [] 1 ![1, 1, 1, 1, 11]
  gather_S32x3x80x80x11_S8192x4_S8192x11_1_0123_n_n_0123_1_111111_wf : GatherDims.WF S32x3x80x80x11 S8192x4 S8192x11 [1] [0, 1, 2, 3] [] [0, 1, 2, 3] [] 1 ![1, 1, 1, 1, 11]
  gather_S32x3x40x40x11_S8192x4_S8192x11_1_0123_n_n_0123_1_111111_wf : GatherDims.WF S32x3x40x40x11 S8192x4 S8192x11 [1] [0, 1, 2, 3] [] [0, 1, 2, 3] [] 1 ![1, 1, 1, 1, 11]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x11.size a ≤ S24576x11.size a
  hwx0_0 : ∀ i : grid0.Coords, EltTy.bits .f32 = 32 ∨ (Rect.block (s := S24576x11) S4096x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S24576x4.size a
  hwx0_1 : ∀ i : grid0.Coords, EltTy.bits .f32 = 32 ∨ (Rect.block (s := S24576x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x6.size a ≤ S24576x6.size a
  hwx0_2 : ∀ i : grid0.Coords, EltTy.bits .f32 = 32 ∨ (Rect.block (s := S24576x6) S4096x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S1x8x128.size a
  hwx0_3 : ∀ i : grid0.Coords, EltTy.bits .f32 = 32 ∨ (Rect.block (s := S1x8x128) S1x8x128.size (cc0_transform_3 i) (hinb0_3 i)).WholeWords (EltTy.packing .f32)

variable [Facts₀]

def gather_S32x3x160x160x11_S8192x4_S8192x11_1_0123_n_n_0123_1_111111 : GatherDims S32x3x160x160x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x160x160x11_S8192x4_S8192x11_1_0123_n_n_0123_1_111111_wf
def gather_S32x3x80x80x11_S8192x4_S8192x11_1_0123_n_n_0123_1_111111 : GatherDims S32x3x80x80x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x80x80x11_S8192x4_S8192x11_1_0123_n_n_0123_1_111111_wf
def gather_S32x3x40x40x11_S8192x4_S8192x11_1_0123_n_n_0123_1_111111 : GatherDims S32x3x40x40x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x40x40x11_S8192x4_S8192x11_1_0123_n_n_0123_1_111111_wf

abbrev win0_0 : Pipeline.Window sig grid0 :=
  Pipeline.Window.ofSpec (Memref.whole main_v119) S4096x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v122) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v125) S4096x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v126) S1x8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x160x160x11 : Shape := ⟨5, ![32, 3, 160, 160, 11]⟩
abbrev S32x3x80x80x11 : Shape := ⟨5, ![32, 3, 80, 80, 11]⟩
abbrev S32x3x40x40x11 : Shape := ⟨5, ![32, 3, 40, 40, 11]⟩
abbrev S8192x6 : Shape := ⟨2, ![8192, 6]⟩
abbrev S8192x1 : Shape := ⟨2, ![8192, 1]⟩
abbrev S8192 : Shape := ⟨1, ![8192]⟩
abbrev S8192x4 : Shape := ⟨2, ![8192, 4]⟩
abbrev S_ : Shape := ⟨0, ![]⟩
abbrev S8192x11 : Shape := ⟨2, ![8192, 11]⟩
abbrev S1x6 : Shape := ⟨2, ![1, 6]⟩

abbrev nBuf : Space → Nat
  | .hbm => 394
  | .vmem => 0
  | .smem => 0
  | _ => 0

abbrev hbmTy0_0 (i : Nat) : BufTy := match i % 128 with
  | 0 => ⟨S32x3x160x160x11, .f32⟩
  | 1 => ⟨S32x3x80x80x11, .f32⟩
  | 2 => ⟨S32x3x40x40x11, .f32⟩
  | 3 => ⟨S8192x6, .f32⟩
  | 4 => ⟨S8192x1, .f32⟩
  | 5 => ⟨S8192, .f32⟩
  | 6 => ⟨S8192, .i32⟩
  | 7 => ⟨S8192x1, .f32⟩
  | 8 => ⟨S8192, .f32⟩
  | 9 => ⟨S8192, .i32⟩
  | 10 => ⟨S8192x4, .f32⟩
  | 11 => ⟨S8192x1, .f32⟩
  | 12 => ⟨S8192, .f32⟩
  | 13 => ⟨S_, .f32⟩
  | 14 => ⟨S8192, .f32⟩
  | 15 => ⟨S8192, .f32⟩
  | 16 => ⟨S8192, .f32⟩
  | 17 => ⟨S8192, .i32⟩
  | 18 => ⟨S_, .i32⟩
  | 19 => ⟨S_, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192x1, .f32⟩
  | 27 => ⟨S8192, .f32⟩
  | 28 => ⟨S_, .f32⟩
  | 29 => ⟨S8192, .f32⟩
  | 30 => ⟨S8192, .f32⟩
  | 31 => ⟨S8192, .f32⟩
  | 32 => ⟨S8192, .i32⟩
  | 33 => ⟨S_, .i32⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192x1, .i32⟩
  | 66 => ⟨S8192x1, .i32⟩
  | 67 => ⟨S8192x1, .i32⟩
  | 68 => ⟨S8192x1, .i32⟩
  | 69 => ⟨S8192x4, .i32⟩
  | 70 => ⟨S8192x11, .f32⟩
  | 71 => ⟨S8192x4, .f32⟩
  | 72 => ⟨S8192x4, .f32⟩
  | 73 => ⟨S8192x4, .f32⟩
  | 74 => ⟨S_, .f32⟩
  | 75 => ⟨S_, .f32⟩
  | 76 => ⟨S8192x1, .f32⟩
  | 77 => ⟨S8192, .f32⟩
  | 78 => ⟨S8192, .f32⟩
  | 79 => ⟨S_, .f32⟩
  | 80 => ⟨S8192, .f32⟩
  | 81 => ⟨S8192, .f32⟩
  | 82 => ⟨S8192, .f32⟩
  | 83 => ⟨S8192, .f32⟩
  | 84 => ⟨S8192, .i1⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S_, .f32⟩
  | 94 => ⟨S_, .f32⟩
  | 95 => ⟨S8192x6, .f32⟩
  | 96 => ⟨S8192x1, .i32⟩
  | 97 => ⟨S1x6, .i32⟩
  | 98 => ⟨S8192x6, .i32⟩
  | 99 => ⟨S8192x6, .i32⟩
  | 100 => ⟨S8192x6, .i1⟩
  | 101 => ⟨S8192x6, .f32⟩
  | 102 => ⟨S_, .f32⟩
  | 103 => ⟨S8192x6, .f32⟩
  | 104 => ⟨S8192x6, .f32⟩
  | 105 => ⟨S8192x6, .f32⟩
  | 106 => ⟨S8192x6, .f32⟩
  | 107 => ⟨S8192x6, .i1⟩
  | 108 => ⟨S8192x6, .f32⟩
  | 109 => ⟨S8192x6, .f32⟩
  | 110 => ⟨S8192x6, .f32⟩
  | 111 => ⟨S8192x6, .f32⟩
  | 112 => ⟨S8192x6, .f32⟩
  | 113 => ⟨S8192x6, .f32⟩
  | 114 => ⟨S8192x6, .f32⟩
  | 115 => ⟨S8192x6, .f32⟩
  | 116 => ⟨S8192x6, .f32⟩
  | 117 => ⟨S8192x6, .f32⟩
  | 118 => ⟨S_, .f32⟩
  | 119 => ⟨S_, .f32⟩
  | 120 => ⟨S_, .i32⟩
  | 121 => ⟨S_, .i32⟩
  | 122 => ⟨S_, .i32⟩
  | 123 => ⟨S_, .f32⟩
  | 124 => ⟨S_, .f32⟩
  | 125 => ⟨S_, .f32⟩
  | 126 => ⟨S_, .f32⟩
  | 127 => ⟨S_, .f32⟩
  | _ => ⟨S32x3x160x160x11, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S8192x1, .f32⟩
  | 11 => ⟨S8192, .f32⟩
  | 12 => ⟨S_, .f32⟩
  | 13 => ⟨S8192, .f32⟩
  | 14 => ⟨S8192, .f32⟩
  | 15 => ⟨S8192, .f32⟩
  | 16 => ⟨S8192, .i32⟩
  | 17 => ⟨S_, .i32⟩
  | 18 => ⟨S_, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192x1, .f32⟩
  | 26 => ⟨S8192, .f32⟩
  | 27 => ⟨S_, .f32⟩
  | 28 => ⟨S8192, .f32⟩
  | 29 => ⟨S8192, .f32⟩
  | 30 => ⟨S8192, .f32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192x1, .i32⟩
  | 65 => ⟨S8192x1, .i32⟩
  | 66 => ⟨S8192x1, .i32⟩
  | 67 => ⟨S8192x1, .i32⟩
  | 68 => ⟨S8192x4, .i32⟩
  | 69 => ⟨S8192x11, .f32⟩
  | 70 => ⟨S8192x4, .f32⟩
  | 71 => ⟨S8192x4, .f32⟩
  | 72 => ⟨S8192x4, .f32⟩
  | 73 => ⟨S_, .f32⟩
  | 74 => ⟨S_, .f32⟩
  | 75 => ⟨S8192x1, .f32⟩
  | 76 => ⟨S8192, .f32⟩
  | 77 => ⟨S8192, .f32⟩
  | 78 => ⟨S_, .f32⟩
  | 79 => ⟨S8192, .f32⟩
  | 80 => ⟨S8192, .f32⟩
  | 81 => ⟨S8192, .f32⟩
  | 82 => ⟨S8192, .f32⟩
  | 83 => ⟨S8192, .i1⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S_, .f32⟩
  | 93 => ⟨S_, .f32⟩
  | 94 => ⟨S8192x6, .f32⟩
  | 95 => ⟨S8192x1, .i32⟩
  | 96 => ⟨S1x6, .i32⟩
  | 97 => ⟨S8192x6, .i32⟩
  | 98 => ⟨S8192x6, .i32⟩
  | 99 => ⟨S8192x6, .i1⟩
  | 100 => ⟨S8192x6, .f32⟩
  | 101 => ⟨S_, .f32⟩
  | 102 => ⟨S8192x6, .f32⟩
  | 103 => ⟨S8192x6, .f32⟩
  | 104 => ⟨S8192x6, .f32⟩
  | 105 => ⟨S8192x6, .f32⟩
  | 106 => ⟨S8192x6, .i1⟩
  | 107 => ⟨S8192x6, .f32⟩
  | 108 => ⟨S8192x6, .f32⟩
  | 109 => ⟨S8192x6, .f32⟩
  | 110 => ⟨S8192x6, .f32⟩
  | 111 => ⟨S8192x6, .f32⟩
  | 112 => ⟨S8192x6, .f32⟩
  | 113 => ⟨S8192x6, .f32⟩
  | 114 => ⟨S8192x6, .f32⟩
  | 115 => ⟨S8192x6, .f32⟩
  | 116 => ⟨S8192x6, .f32⟩
  | 117 => ⟨S_, .f32⟩
  | 118 => ⟨S_, .f32⟩
  | 119 => ⟨S_, .i32⟩
  | 120 => ⟨S_, .i32⟩
  | 121 => ⟨S_, .i32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32x3x160x160x11, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S8192x1, .f32⟩
  | 7 => ⟨S8192, .f32⟩
  | 8 => ⟨S_, .f32⟩
  | 9 => ⟨S8192, .f32⟩
  | 10 => ⟨S8192, .f32⟩
  | 11 => ⟨S8192, .f32⟩
  | 12 => ⟨S8192, .i32⟩
  | 13 => ⟨S_, .i32⟩
  | 14 => ⟨S_, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192x1, .f32⟩
  | 22 => ⟨S8192, .f32⟩
  | 23 => ⟨S_, .f32⟩
  | 24 => ⟨S8192, .f32⟩
  | 25 => ⟨S8192, .f32⟩
  | 26 => ⟨S8192, .f32⟩
  | 27 => ⟨S8192, .i32⟩
  | 28 => ⟨S_, .i32⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192x1, .i32⟩
  | 61 => ⟨S8192x1, .i32⟩
  | 62 => ⟨S8192x1, .i32⟩
  | 63 => ⟨S8192x1, .i32⟩
  | 64 => ⟨S8192x4, .i32⟩
  | 65 => ⟨S8192x11, .f32⟩
  | 66 => ⟨S8192x4, .f32⟩
  | 67 => ⟨S8192x4, .f32⟩
  | 68 => ⟨S8192x4, .f32⟩
  | 69 => ⟨S_, .f32⟩
  | 70 => ⟨S_, .f32⟩
  | 71 => ⟨S8192x1, .f32⟩
  | 72 => ⟨S8192, .f32⟩
  | 73 => ⟨S8192, .f32⟩
  | 74 => ⟨S_, .f32⟩
  | 75 => ⟨S8192, .f32⟩
  | 76 => ⟨S8192, .f32⟩
  | 77 => ⟨S8192, .f32⟩
  | 78 => ⟨S8192, .f32⟩
  | 79 => ⟨S8192, .i1⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S_, .f32⟩
  | 89 => ⟨S_, .f32⟩
  | 90 => ⟨S8192x6, .f32⟩
  | 91 => ⟨S8192x1, .i32⟩
  | 92 => ⟨S1x6, .i32⟩
  | 93 => ⟨S8192x6, .i32⟩
  | 94 => ⟨S8192x6, .i32⟩
  | 95 => ⟨S8192x6, .i1⟩
  | 96 => ⟨S8192x6, .f32⟩
  | 97 => ⟨S_, .f32⟩
  | 98 => ⟨S8192x6, .f32⟩
  | 99 => ⟨S8192x6, .f32⟩
  | 100 => ⟨S8192x6, .f32⟩
  | 101 => ⟨S8192x6, .f32⟩
  | 102 => ⟨S8192x6, .i1⟩
  | 103 => ⟨S8192x6, .f32⟩
  | 104 => ⟨S8192x6, .f32⟩
  | 105 => ⟨S8192x6, .f32⟩
  | 106 => ⟨S8192x6, .f32⟩
  | 107 => ⟨S8192x6, .f32⟩
  | 108 => ⟨S8192x6, .f32⟩
  | 109 => ⟨S8192x6, .f32⟩
  | 110 => ⟨S8192x6, .f32⟩
  | 111 => ⟨S8192x6, .f32⟩
  | 112 => ⟨S8192x6, .f32⟩
  | 113 => ⟨S_, .f32⟩
  | 114 => ⟨S_, .f32⟩
  | 115 => ⟨S_, .i32⟩
  | 116 => ⟨S_, .i32⟩
  | 117 => ⟨S_, .i32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32x3x160x160x11, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S32x3x160x160x11, .f32⟩

abbrev hbmTy (i : Nat) : BufTy := match i / 128 with
  | 0 => hbmTy0_0 i
  | 1 => hbmTy0_1 i
  | 2 => hbmTy0_2 i
  | 3 => hbmTy0_3 i
  | _ => ⟨S32x3x160x160x11, .f32⟩

abbrev bufTy : (tb : Table) → Fin (tcTables nBuf tb) → BufTy
  | .hbm, ⟨i, _⟩ => hbmTy i
  | _, _ => ⟨S32x3x160x160x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_v51 : Ref sig .tc := ⟨.hbm, 92, rfl⟩
abbrev main_cst_12 : Ref sig .tc := ⟨.hbm, 93, rfl⟩
abbrev main_v52 : Ref sig .tc := ⟨.hbm, 94, rfl⟩
abbrev main_v53 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v54 : Ref sig .tc := ⟨.hbm, 101, rfl⟩
abbrev main_call4_cst : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_13 : Ref sig .tc := ⟨.hbm, 118, rfl⟩
abbrev main_v58 : Ref sig .tc := ⟨.hbm, 119, rfl⟩
abbrev main_c_14 : Ref sig .tc := ⟨.hbm, 120, rfl⟩
abbrev main_c_15 : Ref sig .tc := ⟨.hbm, 121, rfl⟩
abbrev main_v59 : Ref sig .tc := ⟨.hbm, 122, rfl⟩
abbrev main_v60 : Ref sig .tc := ⟨.hbm, 123, rfl⟩
abbrev main_cst_16 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_17 : Ref sig .tc := ⟨.hbm, 132, rfl⟩
abbrev main_v68 : Ref sig .tc := ⟨.hbm, 133, rfl⟩
abbrev main_cst_18 : Ref sig .tc := ⟨.hbm, 134, rfl⟩
abbrev main_v69 : Ref sig .tc := ⟨.hbm, 135, rfl⟩
abbrev main_cst_19 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_20 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_c_21 : Ref sig .tc := ⟨.hbm, 145, rfl⟩
abbrev main_c_22 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_23 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_c_24 : Ref sig .tc := ⟨.hbm, 160, rfl⟩
abbrev main_c_25 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v84 : Ref sig .tc := ⟨.hbm, 167, rfl⟩
abbrev main_c_26 : Ref sig .tc := ⟨.hbm, 168, rfl⟩
abbrev main_v85 : Ref sig .tc := ⟨.hbm, 169, rfl⟩
abbrev main_v86 : Ref sig .tc := ⟨.hbm, 170, rfl⟩
abbrev main_c_27 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_c_28 : Ref sig .tc := ⟨.hbm, 175, rfl⟩
abbrev main_v90 : Ref sig .tc := ⟨.hbm, 176, rfl⟩
abbrev main_v91 : Ref sig .tc := ⟨.hbm, 177, rfl⟩
abbrev main_c_29 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_c_30 : Ref sig .tc := ⟨.hbm, 182, rfl⟩
abbrev main_v95 : Ref sig .tc := ⟨.hbm, 183, rfl⟩
abbrev main_v96 : Ref sig .tc := ⟨.hbm, 184, rfl⟩
abbrev main_c_31 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_c_32 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_33 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_call7_cst : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_call7_v5 : Ref sig .tc := ⟨.hbm, 212, rfl⟩
abbrev main_call7_v6 : Ref sig .tc := ⟨.hbm, 213, rfl⟩
abbrev main_call7_v7 : Ref sig .tc := ⟨.hbm, 214, rfl⟩
abbrev main_call7_v8 : Ref sig .tc := ⟨.hbm, 215, rfl⟩
abbrev main_call7_v9 : Ref sig .tc := ⟨.hbm, 216, rfl⟩
abbrev main_call7_v10 : Ref sig .tc := ⟨.hbm, 217, rfl⟩
abbrev main_call7_v11 : Ref sig .tc := ⟨.hbm, 218, rfl⟩
abbrev main_v115 : Ref sig .tc := ⟨.hbm, 219, rfl⟩
abbrev main_cst_34 : Ref sig .tc := ⟨.hbm, 220, rfl⟩
abbrev main_v116 : Ref sig .tc := ⟨.hbm, 221, rfl⟩
abbrev main_v117 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v118 : Ref sig .tc := ⟨.hbm, 228, rfl⟩
abbrev main_call9_cst : Ref sig .tc := ⟨.hbm, 229, rfl⟩
abbrev main_call9_v0 : Ref sig .tc := ⟨.hbm, 230, rfl⟩
abbrev main_call9_v1 : Ref sig .tc := ⟨.hbm, 231, rfl⟩
abbrev main_call9_v2 : Ref sig .tc := ⟨.hbm, 232, rfl⟩
abbrev main_call9_v3 : Ref sig .tc := ⟨.hbm, 233, rfl⟩
abbrev main_call9_v4 : Ref sig .tc := ⟨.hbm, 234, rfl⟩
abbrev main_call9_v5 : Ref sig .tc := ⟨.hbm, 235, rfl⟩
abbrev main_call9_v6 : Ref sig .tc := ⟨.hbm, 236, rfl⟩
abbrev main_call9_v7 : Ref sig .tc := ⟨.hbm, 237, rfl⟩
abbrev main_call9_v8 : Ref sig .tc := ⟨.hbm, 238, rfl⟩
abbrev main_call9_v9 : Ref sig .tc := ⟨.hbm, 239, rfl⟩
abbrev main_call9_v10 : Ref sig .tc := ⟨.hbm, 240, rfl⟩
abbrev main_call9_v11 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_cst_35 : Ref sig .tc := ⟨.hbm, 245, rfl⟩
abbrev main_v122 : Ref sig .tc := ⟨.hbm, 246, rfl⟩
abbrev main_c_36 : Ref sig .tc := ⟨.hbm, 247, rfl⟩
abbrev main_c_37 : Ref sig .tc := ⟨.hbm, 248, rfl⟩
abbrev main_v123 : Ref sig .tc := ⟨.hbm, 249, rfl⟩
abbrev main_v124 : Ref sig .tc := ⟨.hbm, 250, rfl⟩
abbrev main_cst_38 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_cst_39 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_c_40 : Ref sig .tc := ⟨.hbm, 269, rfl⟩
abbrev main_c_41 : Ref sig .tc := ⟨.hbm, 270, rfl⟩
abbrev main_call10_v0 : Ref sig .tc := ⟨.hbm, 271, rfl⟩
abbrev main_call10_v1 : Ref sig .tc := ⟨.hbm, 272, rfl⟩
abbrev main_call10_v2 : Ref sig .tc := ⟨.hbm, 273, rfl⟩
abbrev main_call10_v3 : Ref sig .tc := ⟨.hbm, 274, rfl⟩
abbrev main_call10_v4 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_cst_42 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_c_43 : Ref sig .tc := ⟨.hbm, 284, rfl⟩
abbrev main_c_44 : Ref sig .tc := ⟨.hbm, 285, rfl⟩
abbrev main_call11_v0 : Ref sig .tc := ⟨.hbm, 286, rfl⟩
abbrev main_call11_v1 : Ref sig .tc := ⟨.hbm, 287, rfl⟩
abbrev main_call11_v2 : Ref sig .tc := ⟨.hbm, 288, rfl⟩
abbrev main_call11_v3 : Ref sig .tc := ⟨.hbm, 289, rfl⟩
abbrev main_call11_v4 : Ref sig .tc := ⟨.hbm, 290, rfl⟩
abbrev main_v148 : Ref sig .tc := ⟨.hbm, 291, rfl⟩
abbrev main_c_45 : Ref sig .tc := ⟨.hbm, 292, rfl⟩
abbrev main_v149 : Ref sig .tc := ⟨.hbm, 293, rfl⟩
abbrev main_v150 : Ref sig .tc := ⟨.hbm, 294, rfl⟩
abbrev main_c_46 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_c_47 : Ref sig .tc := ⟨.hbm, 299, rfl⟩
abbrev main_v154 : Ref sig .tc := ⟨.hbm, 300, rfl⟩
abbrev main_v155 : Ref sig .tc := ⟨.hbm, 301, rfl⟩
abbrev main_c_48 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_c_49 : Ref sig .tc := ⟨.hbm, 306, rfl⟩
abbrev main_v159 : Ref sig .tc := ⟨.hbm, 307, rfl⟩
abbrev main_v160 : Ref sig .tc := ⟨.hbm, 308, rfl⟩
abbrev main_c_50 : Ref sig .tc := ⟨.hbm, 309, rfl⟩
abbrev main_v161 : Ref sig .tc := ⟨.hbm, 310, rfl⟩
abbrev main_v162 : Ref sig .tc := ⟨.hbm, 311, rfl⟩
abbrev main_v163 : Ref sig .tc := ⟨.hbm, 312, rfl⟩
abbrev main_c_51 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_v174 : Ref sig .tc := ⟨.hbm, 324, rfl⟩
abbrev main_cst_52 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_call12_cst : Ref sig .tc := ⟨.hbm, 330, rfl⟩
abbrev main_call12_v0 : Ref sig .tc := ⟨.hbm, 331, rfl⟩
abbrev main_call12_v1 : Ref sig .tc := ⟨.hbm, 332, rfl⟩
abbrev main_call12_v2 : Ref sig .tc := ⟨.hbm, 333, rfl⟩
abbrev main_call12_v3 : Ref sig .tc := ⟨.hbm, 334, rfl⟩
abbrev main_call12_v4 : Ref sig .tc := ⟨.hbm, 335, rfl⟩
abbrev main_call12_v5 : Ref sig .tc := ⟨.hbm, 336, rfl⟩
abbrev main_call12_v6 : Ref sig .tc := ⟨.hbm, 337, rfl⟩
abbrev main_call12_v7 : Ref sig .tc := ⟨.hbm, 338, rfl⟩
abbrev main_call12_v8 : Ref sig .tc := ⟨.hbm, 339, rfl⟩
abbrev main_call12_v9 : Ref sig .tc := ⟨.hbm, 340, rfl⟩
abbrev main_call12_v10 : Ref sig .tc := ⟨.hbm, 341, rfl⟩
abbrev main_call12_v11 : Ref sig .tc := ⟨.hbm, 342, rfl⟩
abbrev main_v179 : Ref sig .tc := ⟨.hbm, 343, rfl⟩
abbrev main_cst_53 : Ref sig .tc := ⟨.hbm, 344, rfl⟩
abbrev main_v180 : Ref sig .tc := ⟨.hbm, 345, rfl⟩
abbrev main_v181 : Ref sig .tc := ⟨.hbm, 346, rfl⟩
abbrev main_call13_v0 : Ref sig .tc := ⟨.hbm, 347, rfl⟩
abbrev main_call13_v1 : Ref sig .tc := ⟨.hbm, 348, rfl⟩
abbrev main_call13_v2 : Ref sig .tc := ⟨.hbm, 349, rfl⟩
abbrev main_call13_v3 : Ref sig .tc := ⟨.hbm, 350, rfl⟩
abbrev main_call13_v4 : Ref sig .tc := ⟨.hbm, 351, rfl⟩
abbrev main_v182 : Ref sig .tc := ⟨.hbm, 352, rfl⟩
abbrev main_call14_cst : Ref sig .tc := ⟨.hbm, 353, rfl⟩
abbrev main_call14_v0 : Ref sig .tc := ⟨.hbm, 354, rfl⟩
abbrev main_call14_v1 : Ref sig .tc := ⟨.hbm, 355, rfl⟩
abbrev main_call14_v2 : Ref sig .tc := ⟨.hbm, 356, rfl⟩
abbrev main_call14_v3 : Ref sig .tc := ⟨.hbm, 357, rfl⟩
abbrev main_call14_v4 : Ref sig .tc := ⟨.hbm, 358, rfl⟩
abbrev main_call14_v5 : Ref sig .tc := ⟨.hbm, 359, rfl⟩
abbrev main_call14_v6 : Ref sig .tc := ⟨.hbm, 360, rfl⟩
abbrev main_call14_v7 : Ref sig .tc := ⟨.hbm, 361, rfl⟩
abbrev main_call14_v8 : Ref sig .tc := ⟨.hbm, 362, rfl⟩
abbrev main_call14_v9 : Ref sig .tc := ⟨.hbm, 363, rfl⟩
abbrev main_call14_v10 : Ref sig .tc := ⟨.hbm, 364, rfl⟩
abbrev main_call14_v11 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_cst_54 : Ref sig .tc := ⟨.hbm, 369, rfl⟩
abbrev main_v186 : Ref sig .tc := ⟨.hbm, 370, rfl⟩
abbrev main_c_55 : Ref sig .tc := ⟨.hbm, 371, rfl⟩
abbrev main_c_56 : Ref sig .tc := ⟨.hbm, 372, rfl⟩
abbrev main_v187 : Ref sig .tc := ⟨.hbm, 373, rfl⟩
abbrev main_v188 : Ref sig .tc := ⟨.hbm, 374, rfl⟩
abbrev main_cst_57 : Ref sig .tc := ⟨.hbm, 375, rfl⟩
abbrev main_v189 : Ref sig .tc := ⟨.hbm, 376, rfl⟩
abbrev main_v190 : Ref sig .tc := ⟨.hbm, 377, rfl⟩
abbrev main_v191 : Ref sig .tc := ⟨.hbm, 378, rfl⟩
abbrev main_v192 : Ref sig .tc := ⟨.hbm, 379, rfl⟩
abbrev main_v193 : Ref sig .tc := ⟨.hbm, 380, rfl⟩
abbrev main_v194 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_cst_58 : Ref sig .tc := ⟨.hbm, 386, rfl⟩
abbrev main_v199 : Ref sig .tc := ⟨.hbm, 387, rfl⟩
abbrev main_cst_59 : Ref sig .tc := ⟨.hbm, 388, rfl⟩
abbrev main_v200 : Ref sig .tc := ⟨.hbm, 389, rfl⟩
abbrev main_cst_60 : Ref sig .tc := ⟨.hbm, 390, rfl⟩
abbrev main_v201 : Ref sig .tc := ⟨.hbm, 391, rfl⟩
abbrev main_v202 : Ref sig .tc := ⟨.hbm, 392, rfl⟩
abbrev main_v203 : Ref sig .tc := ⟨.hbm, 393, rfl⟩

abbrev nD : Nat := 1
abbrev τ : Topo := Topo.v7x

variable {F : FTy → Type} [FloatOps F]

class Facts₀ : Prop where
  slices_S8192x6_S8192x1_0_0 : S8192x6.Slices ![0, 0] S8192x1
  shapeCasts_S8192x1_S8192 : S8192x1.ShapeCasts S8192
  slices_S8192x6_S8192x1_0_1 : S8192x6.Slices ![0, 1] S8192x1
  slices_S8192x6_S8192x4_0_2 : S8192x6.Slices ![0, 2] S8192x4
  slices_S8192x4_S8192x1_0_0 : S8192x4.Slices ![0, 0] S8192x1
  bcast_S_S8192 : S_.BroadcastsInDim S8192 (![] : Fin 0 → Fin S8192.rank)
  slices_S8192x4_S8192x1_0_1 : S8192x4.Slices ![0, 1] S8192x1
  bcast_S8192_S8192x1_0 : S8192.BroadcastsInDim S8192x1 (![0] : Fin 1 → Fin S8192x1.rank)
  concatenates_S8192x1_S8192x1_S8192x1_S8192x1_S8192x4_d1 : Shape.Concatenates [S8192x1, S8192x1, S8192x1, S8192x1] S8192x4 1
  slices_S8192x11_S8192x4_0_0 : S8192x11.Slices ![0, 0] S8192x4
  reducesTo_S8192x4_S_d0_1 : S8192x4.ReducesTo [0, 1] S_
  h_S_ : 0 < S_.numel
  slices_S8192x11_S8192x1_0_4 : S8192x11.Slices ![0, 4] S8192x1
  reducesTo_S8192_S_d0 : S8192.ReducesTo [0] S_
  slices_S8192x11_S8192x6_0_5 : S8192x11.Slices ![0, 5] S8192x6
  bcast_S8192x1_S8192x6_0_1 : S8192x1.BroadcastsInDim S8192x6 (![0, 1] : Fin 2 → Fin S8192x6.rank)
  bcast_S1x6_S8192x6_0_1 : S1x6.BroadcastsInDim S8192x6 (![0, 1] : Fin 2 → Fin S8192x6.rank)
  bcast_S_S8192x6 : S_.BroadcastsInDim S8192x6 (![] : Fin 0 → Fin S8192x6.rank)
  reducesTo_S8192x6_S_d0_1 : S8192x6.ReducesTo [0, 1] S_
  gather_S32x3x160x160x11_S8192x4_S8192x11_1_0123_n_n_0123_1_111111_wf : GatherDims.WF S32x3x160x160x11 S8192x4 S8192x11 [1] [0, 1, 2, 3] [] [0, 1, 2, 3] [] 1 ![1, 1, 1, 1, 11]
  gather_S32x3x80x80x11_S8192x4_S8192x11_1_0123_n_n_0123_1_111111_wf : GatherDims.WF S32x3x80x80x11 S8192x4 S8192x11 [1] [0, 1, 2, 3] [] [0, 1, 2, 3] [] 1 ![1, 1, 1, 1, 11]
  gather_S32x3x40x40x11_S8192x4_S8192x11_1_0123_n_n_0123_1_111111_wf : GatherDims.WF S32x3x40x40x11 S8192x4 S8192x11 [1] [0, 1, 2, 3] [] [0, 1, 2, 3] [] 1 ![1, 1, 1, 1, 11]

variable [Facts₀]

def gather_S32x3x160x160x11_S8192x4_S8192x11_1_0123_n_n_0123_1_111111 : GatherDims S32x3x160x160x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x160x160x11_S8192x4_S8192x11_1_0123_n_n_0123_1_111111_wf
def gather_S32x3x80x80x11_S8192x4_S8192x11_1_0123_n_n_0123_1_111111 : GatherDims S32x3x80x80x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x80x80x11_S8192x4_S8192x11_1_0123_n_n_0123_1_111111_wf
def gather_S32x3x40x40x11_S8192x4_S8192x11_1_0123_n_n_0123_1_111111 : GatherDims S32x3x40x40x11 S8192x4 S8192x11 where
  offsetDims := [1]
  collapsedSliceDims := [0, 1, 2, 3]
  operandBatchingDims := []
  startIndicesBatchingDims := []
  startIndexMap := [0, 1, 2, 3]
  indexVectorDim := 1
  sliceSizes := ![1, 1, 1, 1, 11]
  wf := gather_S32x3x40x40x11_S8192x4_S8192x11_1_0123_n_n_0123_1_111111_wf

class Facts : Prop extends Facts₀ where

variable [Facts]
-- ==== Proof.Kernel.Around.lean ====
/-
  The program around its one kernel region, read at any float instance.

  Before the region the host computes, from the target table, the three index tables (batch, row and
  column cells of each prediction map), gathers one 11-entry row per target from each map, stacks the
  three gathered tables into one array of 24576 rows, and repeats the box columns and the one-hot class
  rows three times to the same height.  None of these lines writes an argument array.  The region then
  walks the stacked rows in six blocks of 4096.  After the region the host reads lanes 0, 1 and 2 of the
  region's one output row and scales them.

  This module fixes: the contents of every buffer when the region is entered (the host lines applied to
  the launch contents), that the argument arrays are untouched by the lines before and after, the block
  of each input array that a grid point sees, and the one condition the body branches on (the first
  grid point), decided over the six points.
-/
import proofs.«404462_j67929202753868_3_alg».proof.Proof.Gen.Kernel.Launch
import proofs.«404462_j67929202753868_3_alg».proof.Proof.Gen.Kernel.Skeleton
import proofs.«404462_j67929202753868_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- Every buffer of core `c` when the region is entered: the host lines before it applied, in order, to
    the launch contents. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each line after the region writes its own result buffer, which is none of the region's four arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The blocks the grid points see -/

/-- Window `w`'s block at grid point `t`: for the three inputs, rows `4096·t … 4096·t + 4095` of the stacked array
    as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every bypassing buffer at what the lines after the region leave in it, the four
    argument arrays (none of which the region stages) end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's one branch -/

/-- The body clears its output row exactly when this holds of the grid coordinates: the coordinate is zero. -/
abbrev cond0_0 (i : grid0.Coords) : Prop := (Scalar.cmpi .ne (Scalar.extui (Scalar.cmpi .eq (BitVec.ofNat 32 (i 0).val) 0#32)) 0#32) = 1#1
/-- It holds at the first of the six points only. -/
theorem hcond0_0 : ∀ t : Fin cfg0.N, cond0_0 (grid0.coords t) ↔ t.val % 6 = 0 :=
  (by decide +kernel : ∀ t : Fin grid0.N, cond0_0 (grid0.coords t) ↔ t.val % 6 = 0)

/-! ## The staging buffers the body is called with -/

/-- The output window's one staging buffer, as a view: what the body leaves in it is stated through it. -/
abbrev VO0_3 : View sig .tc .vmem S1x8x128 .f32 := (Memref.whole cc0_stg3_0 : Memref sig .tc .vmem S1x8x128 .f32).view
abbrev ms0_0 (t : Fin cfg0.N) : Memref sig .tc .vmem S4096x11 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)

end Cert.Kernel.Acc

end
-- ==== Proof.Kernel.RunFirst.lean ====
/-
  The kernel body at the first grid point.

  There the body first overwrites its whole 1 × 8 × 128 output block with zeros, then loads the three input
  blocks, forms the three block sums, reads row 0 of the (now zero) output block and stores row 0 back with the
  sums added into lanes 0, 1, 2. So whatever the output buffer held before, it ends as these two stores say:
  the zero fill, then row 0. The inputs' buffers are only read.
-/
import proofs.«404462_j67929202753868_3_alg».proof.Proof.Kernel.Around

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the body's branch is taken: from whole staging buffers, the three inputs at `x0`, `x1`, `x2`
    and the output at anything, the body runs to the end leaving the inputs as they were and the output buffer with
    the listed stores written (last first). The stores are found by running the body. -/
noncomputable def kernelRun0_A (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Acc

end
-- ==== Proof.Kernel.RunLater.lean ====
/-
  The kernel body at a later grid point.

  There the branch is not taken: the body loads the three input blocks, forms the three block sums, reads row 0 of
  the output block as the point before left it, and stores row 0 back with the sums added into lanes 0, 1, 2.
  Rows 1 to 7 of the output block are not touched. So from an output buffer holding `xo3` the buffer ends as
  `xo3` with that one store written over it. The inputs' buffers are only read.
-/
import proofs.«404462_j67929202753868_3_alg».proof.Proof.Kernel.RunFirst

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the body's branch is not taken: from whole staging buffers, the inputs at `x0`, `x1`, `x2`
    and the output at `xo3`, the body runs to the end leaving the inputs as they were and the output buffer at
    `xo3` with the listed stores written over it. -/
noncomputable def kernelRun0_B (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread xo3) L3)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexact H3

end Cert.Kernel.Acc

end
-- ==== Proof.Kernel.Frame.lean ====
/-
  The kernel region, point by point: what the output block holds after each of the six grid points, the body's
  obligation at every point, and the run of the whole program.

  After the first point the output block is the zero fill with row 0 overwritten (the first case's stores read
  back); after each later point it is what the point before left with row 0 overwritten again (the second case's
  store written over it). The block is written back to its array once, after the last point, so at every later
  point the staging buffer still holds what the point before left. Each input buffer holds its block at every
  point. With these contents named, the body's triple at a point is the matching case's run, and the library's
  launch theorem for a program of host lines, one region, host lines gives the run of the whole program: it
  terminates, every array of the region ends at what the contents say, and every other buffer at what the host
  lines after the region leave in it. The four argument arrays are among the latter and are written by no host
  line, which is the frame claim.
-/
import proofs.«404462_j67929202753868_3_alg».proof.Proof.Kernel.RunLater

set_option maxRecDepth 16384

noncomputable section

namespace Cert.Kernel.Acc

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the output block: the zero fill is the whole block. -/
theorem cover0_A_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) (y : S1x8x128.Idx) :
    ∃ pc ∈ (kernelRun0_A c i arg1 harg1 arg2 harg2 arg3 harg3 arg4 harg4 hc0 x0 x1 x2).1, y ∈ pc.1.set :=
  View.cover_of_tiledL (kernelRun0_A c i arg1 harg1 arg2 harg2 arg3 harg3 arg4 harg4 hc0 x0 x1 x2).1 S1x8x128.size (by sl_kernel_rfl) y

/-- What the first case leaves in the output buffer: its stores read back (they cover the block, so what was there
    before does not matter). -/
def out0_A_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) : Vec F S1x8x128 .f32 :=
  VO0_3.read (Elt F) (VO0_3.writes (Elt F) VO0_3.junk (kernelRun0_A c i arg1 harg1 arg2 harg2 arg3 harg3 arg4 harg4 hc0 x0 x1 x2).1)

/-- What the second case leaves in the output buffer `arg4` from contents `xo3`: its store written over `xo3`. -/
def out0_B_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) : Vec F S1x8x128 .f32 :=
  arg4.view.read (Elt F) (arg4.view.writes (Elt F) (harg4.unread xo3) (kernelRun0_B c i arg1 harg1 arg2 harg2 arg3 harg3 arg4 harg4 hc0 x0 x1 x2 xo3).1)

/-! ## What the output block holds after each point -/

/-- The output block after the body at position `n`: at the first point the first case's contents; at a later
    point the second case's, over what the point before left. -/
def outsAt0 (c : Dev nD) : (n : ℕ) → n < cfg0.N → Vec F S1x8x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 6 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

theorem outsAt0_A (c : Dev nD) (t : Fin cfg0.N) (h0 : t.val % 6 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the
    output's at `outsAt0`; nothing else is held across points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the output's staging buffer holds what the body left at the point before: the block is not
    written back in between. -/
theorem before0_3_B (c : Dev nD) (t : Fin cfg0.N) (h0 : ¬t.val % 6 = 0) (d) :
    (dats m 0 c).before 3 t d = (outsAt0 m c (t.val - 1) (Nat.lt_of_le_of_lt (Nat.sub_le _ _) t.isLt)) := by
  have hN : t.val < 6 := lt_of_lt_of_eq t.isLt (show cfg0.N = 6 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 6 := lt_of_lt_of_eq t.isLt (show cfg0.N = 6 from N_0)
  by_cases h0 : t.val % 6 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; rfl

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the region ends at what the proof data
    say, and every other unscoped buffer at what the host lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Acc

end
-- ==== Proof.KernelIdeal.Around.lean ====
/-
  The program around its one kernel region, read at any float instance.

  Before the region the host computes, from the target table, the three index tables (batch, row and
  column cells of each prediction map), gathers one 11-entry row per target from each map, stacks the
  three gathered tables into one array of 24576 rows, and repeats the box columns and the one-hot class
  rows three times to the same height.  None of these lines writes an argument array.  The region then
  walks the stacked rows in six blocks of 4096.  After the region the host reads lanes 0, 1 and 2 of the
  region's one output row and scales them.

  This module fixes: the contents of every buffer when the region is entered (the host lines applied to
  the launch contents), that the argument arrays are untouched by the lines before and after, the block
  of each input array that a grid point sees, and the one condition the body branches on (the first
  grid point), decided over the six points.
-/
import proofs.«404462_j67929202753868_3_alg».proof.Proof.Gen.KernelIdeal.Launch
import proofs.«404462_j67929202753868_3_alg».proof.Proof.Gen.KernelIdeal.Skeleton
import proofs.«404462_j67929202753868_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- Every buffer of core `c` when the region is entered: the host lines before it applied, in order, to
    the launch contents. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each line after the region writes its own result buffer, which is none of the region's four arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The blocks the grid points see -/

/-- Window `w`'s block at grid point `t`: for the three inputs, rows `4096·t … 4096·t + 4095` of the stacked array
    as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every bypassing buffer at what the lines after the region leave in it, the four
    argument arrays (none of which the region stages) end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's one branch -/

/-- The body clears its output row exactly when this holds of the grid coordinates: the coordinate is zero. -/
abbrev cond0_0 (i : grid0.Coords) : Prop := (Scalar.cmpi .ne (Scalar.extui (Scalar.cmpi .eq (BitVec.ofNat 32 (i 0).val) 0#32)) 0#32) = 1#1
/-- It holds at the first of the six points only. -/
theorem hcond0_0 : ∀ t : Fin cfg0.N, cond0_0 (grid0.coords t) ↔ t.val % 6 = 0 :=
  (by decide +kernel : ∀ t : Fin grid0.N, cond0_0 (grid0.coords t) ↔ t.val % 6 = 0)

/-! ## The staging buffers the body is called with -/

/-- The output window's one staging buffer, as a view: what the body leaves in it is stated through it. -/
abbrev VO0_3 : View sig .tc .vmem S1x8x128 .f32 := (Memref.whole cc0_stg3_0 : Memref sig .tc .vmem S1x8x128 .f32).view
abbrev ms0_0 (t : Fin cfg0.N) : Memref sig .tc .vmem S4096x11 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)

end Cert.KernelIdeal.Acc

end
-- ==== Proof.KernelIdeal.RunFirst.lean ====
/-
  The kernel body at the first grid point.

  There the body first overwrites its whole 1 × 8 × 128 output block with zeros, then loads the three input
  blocks, forms the three block sums, reads row 0 of the (now zero) output block and stores row 0 back with the
  sums added into lanes 0, 1, 2. So whatever the output buffer held before, it ends as these two stores say:
  the zero fill, then row 0. The inputs' buffers are only read.
-/
import proofs.«404462_j67929202753868_3_alg».proof.Proof.KernelIdeal.Around

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the body's branch is taken: from whole staging buffers, the three inputs at `x0`, `x1`, `x2`
    and the output at anything, the body runs to the end leaving the inputs as they were and the output buffer with
    the listed stores written (last first). The stores are found by running the body. -/
noncomputable def kernelRun0_A (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Acc

end
-- ==== Proof.KernelIdeal.RunLater.lean ====
/-
  The kernel body at a later grid point.

  There the branch is not taken: the body loads the three input blocks, forms the three block sums, reads row 0 of
  the output block as the point before left it, and stores row 0 back with the sums added into lanes 0, 1, 2.
  Rows 1 to 7 of the output block are not touched. So from an output buffer holding `xo3` the buffer ends as
  `xo3` with that one store written over it. The inputs' buffers are only read.
-/
import proofs.«404462_j67929202753868_3_alg».proof.Proof.KernelIdeal.RunFirst

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the body's branch is not taken: from whole staging buffers, the inputs at `x0`, `x1`, `x2`
    and the output at `xo3`, the body runs to the end leaving the inputs as they were and the output buffer at
    `xo3` with the listed stores written over it. -/
noncomputable def kernelRun0_B (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread xo3) L3)) -∗ K ⟨⟩))
          ⊢ wp frame (wpE (defs₀ (F := F)) Variants.none c none) E (cc0__loss_kernel i arg1 harg1 arg2 harg2 arg3 harg3 arg4 harg4) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexact H3

end Cert.KernelIdeal.Acc

end
-- ==== Proof.KernelIdeal.Frame.lean ====
/-
  The kernel region, point by point: what the output block holds after each of the six grid points, the body's
  obligation at every point, and the run of the whole program.

  After the first point the output block is the zero fill with row 0 overwritten (the first case's stores read
  back); after each later point it is what the point before left with row 0 overwritten again (the second case's
  store written over it). The block is written back to its array once, after the last point, so at every later
  point the staging buffer still holds what the point before left. Each input buffer holds its block at every
  point. With these contents named, the body's triple at a point is the matching case's run, and the library's
  launch theorem for a program of host lines, one region, host lines gives the run of the whole program: it
  terminates, every array of the region ends at what the contents say, and every other buffer at what the host
  lines after the region leave in it. The four argument arrays are among the latter and are written by no host
  line, which is the frame claim.
-/
import proofs.«404462_j67929202753868_3_alg».proof.Proof.KernelIdeal.RunLater

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the output block: the zero fill is the whole block. -/
theorem cover0_A_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) (y : S1x8x128.Idx) :
    ∃ pc ∈ (kernelRun0_A c i arg1 harg1 arg2 harg2 arg3 harg3 arg4 harg4 hc0 x0 x1 x2).1, y ∈ pc.1.set :=
  View.cover_of_tiledL (kernelRun0_A c i arg1 harg1 arg2 harg2 arg3 harg3 arg4 harg4 hc0 x0 x1 x2).1 S1x8x128.size (by sl_kernel_rfl) y

/-- What the first case leaves in the output buffer: its stores read back (they cover the block, so what was there
    before does not matter). -/
def out0_A_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) : Vec F S1x8x128 .f32 :=
  VO0_3.read (Elt F) (VO0_3.writes (Elt F) VO0_3.junk (kernelRun0_A c i arg1 harg1 arg2 harg2 arg3 harg3 arg4 harg4 hc0 x0 x1 x2).1)

/-- What the second case leaves in the output buffer `arg4` from contents `xo3`: its store written over `xo3`. -/
def out0_B_3 (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) : Vec F S1x8x128 .f32 :=
  arg4.view.read (Elt F) (arg4.view.writes (Elt F) (harg4.unread xo3) (kernelRun0_B c i arg1 harg1 arg2 harg2 arg3 harg3 arg4 harg4 hc0 x0 x1 x2 xo3).1)

/-! ## What the output block holds after each point -/

/-- The output block after the body at position `n`: at the first point the first case's contents; at a later
    point the second case's, over what the point before left. -/
def outsAt0 (c : Dev nD) : (n : ℕ) → n < cfg0.N → Vec F S1x8x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 6 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

theorem outsAt0_A (c : Dev nD) (t : Fin cfg0.N) (h0 : t.val % 6 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its block and the
    output's at `outsAt0`; nothing else is held across points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the output's staging buffer holds what the body left at the point before: the block is not
    written back in between. -/
theorem before0_3_B (c : Dev nD) (t : Fin cfg0.N) (h0 : ¬t.val % 6 = 0) (d) :
    (dats m 0 c).before 3 t d = (outsAt0 m c (t.val - 1) (Nat.lt_of_le_of_lt (Nat.sub_le _ _) t.isLt)) := by
  have hN : t.val < 6 := lt_of_lt_of_eq t.isLt (show cfg0.N = 6 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 6 := lt_of_lt_of_eq t.isLt (show cfg0.N = 6 from N_0)
  by_cases h0 : t.val % 6 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; rfl

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the region ends at what the proof data
    say, and every other unscoped buffer at what the host lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Acc

end
-- ==== Proof.KernelIdeal.Lanes.lean ====
/-
  Row 0 of the output block after the body.

  Both cases end with one store of a 128-lane row into row 0 of the output block; the stored row is the body's
  arithmetic applied to the three input blocks and to row 0 as the body read it just before: at a later point row 0
  of what the point before left, at the first point row 0 of the zero fill. Rows 1 to 7 play no part in the result.
-/
import proofs.«404462_j67929202753868_3_alg».proof.Proof.KernelIdeal.Frame
import Idealize.ShloMosaic.Lib.Pipeline.Value
import Idealize.ShloMosaic.Lib.ValueIdx

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row 0 of the output block, as a rectangle. -/
abbrev r0 : Rect S1x8x128 := Rect.unit (s := S1x8x128) ![0, 0, 0] S1x1x128.size inb_S1x8x128_S1x1x128_0_0_0
/-- The whole output block, as a rectangle. -/
abbrev rW : Rect S1x8x128 := Rect.unit (s := S1x8x128) ![0, 0, 0] S1x8x128.size inb_S1x8x128_S1x8x128_0_0_0

/-- The row the body stores, from the three input blocks and the row `v` it read. -/
abbrev rowOf (x0 : Vec F S4096x11 .f32) (x1 : Vec F S4096x4 .f32) (x2 : Vec F S4096x6 .f32) (v : Vec F S1x1x128 .f32) : FVec F S1x1x128 .f32 :=
  k0_pay1 (k0_pay4 x2) (k0_pay5 x0 x1) (k0_pay6 x0) (k0_pay7 x0) (Scalar.ofBits .f32 0x00000000#32) (k0_pay8 x0) k0_pay9 v

theorem hz3 : (![0, 0, 0] : Fin S1x8x128.rank → ℕ) = fun _ => 0 := by funext a; fin_cases a <;> rfl
theorem hz2 : (![0, 0] : Fin 2 → ℕ) = fun _ => 0 := by funext a; fin_cases a <;> rfl

/-- A whole-block load of a whole buffer holding `x` reads `x`. -/
theorem load11 (arg1 : Memref sig .tc .vmem S4096x11 .f32) (harg1 : arg1.IsWhole) (x0 : Vec F S4096x11 .f32) :
    View.readAt (Elt F) arg1.view (Rect.unit (s := S4096x11) ![0, 0] S4096x11.size inb_S4096x11_S4096x11_0_0).toLoadRect (harg1.unread x0) = x0 := by
  simp only [View.readAt_eq_ld, harg1.read_unread, View.ld_unit_zero (S := S4096x11) hz2]
theorem load4 (arg2 : Memref sig .tc .vmem S4096x4 .f32) (harg2 : arg2.IsWhole) (x1 : Vec F S4096x4 .f32) :
    View.readAt (Elt F) arg2.view (Rect.unit (s := S4096x4) ![0, 0] S4096x4.size inb_S4096x4_S4096x4_0_0).toLoadRect (harg2.unread x1) = x1 := by
  simp only [View.readAt_eq_ld, harg2.read_unread, View.ld_unit_zero (S := S4096x4) hz2]
theorem load6 (arg3 : Memref sig .tc .vmem S4096x6 .f32) (harg3 : arg3.IsWhole) (x2 : Vec F S4096x6 .f32) :
    View.readAt (Elt F) arg3.view (Rect.unit (s := S4096x6) ![0, 0] S4096x6.size inb_S4096x6_S4096x6_0_0).toLoadRect (harg3.unread x2) = x2 := by
  simp only [View.readAt_eq_ld, harg3.read_unread, View.ld_unit_zero (S := S4096x6) hz2]

/-- The one store of a later point. -/
theorem piecesB (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) :
    (kernelRun0_B c i arg1 harg1 arg2 harg2 arg3 harg3 arg4 harg4 hc0 x0 x1 x2 xo3).1
      = [⟨r0, rowOf x0 x1 x2 (View.ld xo3 r0)⟩] := by
  have e : (kernelRun0_B c i arg1 harg1 arg2 harg2 arg3 harg3 arg4 harg4 hc0 x0 x1 x2 xo3).1
      = [⟨r0, rowOf
          (View.readAt (Elt F) arg1.view (Rect.unit (s := S4096x11) ![0, 0] S4096x11.size inb_S4096x11_S4096x11_0_0).toLoadRect (harg1.unread x0))
          (View.readAt (Elt F) arg2.view (Rect.unit (s := S4096x4) ![0, 0] S4096x4.size inb_S4096x4_S4096x4_0_0).toLoadRect (harg2.unread x1))
          (View.readAt (Elt F) arg3.view (Rect.unit (s := S4096x6) ![0, 0] S4096x6.size inb_S4096x6_S4096x6_0_0).toLoadRect (harg3.unread x2))
          (View.readAt (Elt F) arg4.view r0.toLoadRect (harg4.unread xo3))⟩] := by
    unfold kernelRun0_B; dsimp only; sl_unfold_words; rfl
  rw [e, load11, load4, load6, View.readAt_eq_ld, harg4.read_unread]

/-- The two stores of the first point: the zero fill, then row 0. -/
theorem piecesA (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) :
    (kernelRun0_A c i arg1 harg1 arg2 harg2 arg3 harg3 arg4 harg4 hc0 x0 x1 x2).1
      = [⟨r0, rowOf x0 x1 x2 (View.ld (k0_pay2 (F := F)) r0)⟩, ⟨rW, k0_pay2⟩] := by
  have e : (kernelRun0_A c i arg1 harg1 arg2 harg2 arg3 harg3 arg4 harg4 hc0 x0 x1 x2).1
      = [⟨r0, rowOf
          (View.readAt (Elt F) arg1.view (Rect.unit (s := S4096x11) ![0, 0] S4096x11.size inb_S4096x11_S4096x11_0_0).toLoadRect (harg1.unread x0))
          (View.readAt (Elt F) arg2.view (Rect.unit (s := S4096x4) ![0, 0] S4096x4.size inb_S4096x4_S4096x4_0_0).toLoadRect (harg2.unread x1))
          (View.readAt (Elt F) arg3.view (Rect.unit (s := S4096x6) ![0, 0] S4096x6.size inb_S4096x6_S4096x6_0_0).toLoadRect (harg3.unread x2))
          (arg4.view.readCov [⟨rW, k0_pay2⟩] r0.toLoadRect)⟩, ⟨rW, k0_pay2⟩] := by
    unfold kernelRun0_A; dsimp only; sl_unfold_words; rfl
  rw [e, load11, load4, load6, View.readCov_eq_canon', View.canon_unit_zero (S := S1x8x128) hz3]

/-- At a later point, row 0 of the output block is the stored row over row 0 of what was there. -/
theorem out_B_row (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : ¬cond0_0 i)
    (x0 : Vec F S4096x11 .f32) (x1 : Vec F S4096x4 .f32) (x2 : Vec F S4096x6 .f32) (xo3 : Vec F S1x8x128 .f32) (y : S1x1x128.Idx) :
    out0_B_3 c i arg1 harg1 arg2 harg2 arg3 harg3 arg4 harg4 hc0 x0 x1 x2 xo3 (r0.emb y)
      = rowOf x0 x1 x2 (View.ld xo3 r0) y := by
  unfold out0_B_3
  rw [piecesB, View.read_writes_cons_emb]

/-- At the first point, row 0 of the output block is the stored row over row 0 of the zero fill. -/
theorem out_A_row (c : Dev nD) (i : grid0.Coords) (arg1 : Memref sig .tc .vmem S4096x11 .f32) (harg1 : arg1.IsWhole) (arg2 : Memref sig .tc .vmem S4096x4 .f32) (harg2 : arg2.IsWhole) (arg3 : Memref sig .tc .vmem S4096x6 .f32) (harg3 : arg3.IsWhole) (arg4 : Memref sig .tc .vmem S1x8x128 .f32) (harg4 : arg4.IsWhole) (hc0 : cond0_0 i)
    (x0 : Vec F S4096x11 .f32) (x1 : Vec F S4096x4 .f32) (x2 : Vec F S4096x6 .f32) (y : S1x1x128.Idx) :
    out0_A_3 c i arg1 harg1 arg2 harg2 arg3 harg3 arg4 harg4 hc0 x0 x1 x2 (r0.emb y)
      = rowOf x0 x1 x2 (View.ld (k0_pay2 (F := F)) r0) y := by
  unfold out0_A_3
  rw [piecesA, View.read_writes_cons_emb]

end Cert.KernelIdeal.Acc

end
-- ==== Proof.KernelIdeal.Out.lean ====
/-
  The region's output array after the run, and the four results the host lines after the region compute from it.

  The output block is the whole 1 × 8 × 128 array and is written back once, after the sixth point, so the array
  ends holding what the body left after that point. The host lines then take lanes 0, 1, 2 of row 0, multiply each
  by the word 0x39000000 (2⁻¹³, one over the 8192 targets) and by the term's gain, and add the three.
-/
import proofs.«404462_j67929202753868_3_alg».proof.Proof.KernelIdeal.Lanes

set_option maxRecDepth 16384

noncomputable section

namespace Cert.KernelIdeal.Acc

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves after the last point, as contents of the output array (its one block is the array). -/
abbrev result (c : Dev nD) : Buf (Elt F) ((c : Thread nD τ).loc main_v126) :=
  outsAt0 m c 5 (by rw [show cfg0.N = 6 from N_0]; decide)

/-- The one write-back, after the last point, writes it. -/
theorem flushed_eq (c : Dev nD) (t : Fin cfg0.N) (hf : (cfg0.win 3).flush t = true) :
    (dats m 0 c).flushed 3 t = ((cfg0.win 3).blk t).view.read (Elt F) (result m c) := by
  have hN : cfg0.N = 6 := N_0
  have h5 : t.val = 5 := by have := (flush0_3 t).mp hf; have := t.isLt; omega
  obtain rfl : t = t0_5 := Fin.ext h5
  show (cfg0.win 3).cut (grid0.coords t0_5) ((dats m 0 c).after 3 t0_5) = _
  rw [after0_3]
  have hz' : (fun a => win0_3.index t0_5 a * main_v126.ty.shape.size a) = fun _ => 0 := funext fun a => by fin_cases a <;> decide
  exact (Memref.read_access_unit_zero (Elt F) main_v126 hz' (fun a => by rw [congrFun hz' a]; simp) (result m c)).symm

/-- So the output array ends holding it. -/
theorem final_o (c : Dev nD) : (dats m 0 c).arrAt 3 cfg0.N = result m c :=
  (dats m 0 c).arrAt_eq_of_cover 3 (result m c) (flushed_eq m c) fun i =>
    ⟨t0_5, (flush0_3 t0_5).mpr rfl, by
      show i ∈ ((View.whole main_v126).slice (win0_3.rect t0_5)).set
      rw [View.set_slice_whole, Rect.mem_set_unit]
      intro a
      have h0 : (i 0 : Nat) < 1 := (i 0).isLt
      have h1 : (i 1 : Nat) < 8 := (i 1).isLt
      have h2 : (i 2 : Nat) < 128 := (i 2).isLt
      match a with
      | ⟨0, _⟩ => show win0_3.index t0_5 0 * win0_3.size 0 ≤ (i 0 : Nat) ∧ (i 0 : Nat) < win0_3.index t0_5 0 * win0_3.size 0 + win0_3.xsize (grid0.coords t0_5) 0
                  rw [show win0_3.index t0_5 0 * win0_3.size 0 = 0 from by decide +kernel, show win0_3.xsize (grid0.coords t0_5) 0 = 1 from by decide +kernel]; omega
      | ⟨1, _⟩ => show win0_3.index t0_5 1 * win0_3.size 1 ≤ (i 1 : Nat) ∧ (i 1 : Nat) < win0_3.index t0_5 1 * win0_3.size 1 + win0_3.xsize (grid0.coords t0_5) 1
                  rw [show win0_3.index t0_5 1 * win0_3.size 1 = 0 from by decide +kernel, show win0_3.xsize (grid0.coords t0_5) 1 = 8 from by decide +kernel]; omega
      | ⟨2, _⟩ => show win0_3.index t0_5 2 * win0_3.size 2 ≤ (i 2 : Nat) ∧ (i 2 : Nat) < win0_3.index t0_5 2 * win0_3.size 2 + win0_3.xsize (grid0.coords t0_5) 2
                  rw [show win0_3.index t0_5 2 * win0_3.size 2 = 0 from by decide +kernel, show win0_3.xsize (grid0.coords t0_5) 2 = 128 from by decide +kernel]; omega⟩

/-! ## The host lines after the region -/

/-- Lane `k` of row 0 of the output array, scaled by 2⁻¹³ and by the gain word `g`. -/
def outBox (o : FVec F S1x8x128 .f32) : FVec F S_ .f32 :=
  mulf (mulf (shapeCast S_ (extractStridedSlice S1x1x1 ![0, 0, 0] o slices_S1x8x128_S1x1x1_0_0_0) shapeCasts_S1x1x1_S_) (constant S_ .f32 0x39000000#32)) (constant S_ .f32 0x40F00000#32)
def outObj (o : FVec F S1x8x128 .f32) : FVec F S_ .f32 :=
  mulf (mulf (shapeCast S_ (extractStridedSlice S1x1x1 ![0, 0, 1] o slices_S1x8x128_S1x1x1_0_0_1) shapeCasts_S1x1x1_S_) (constant S_ .f32 0x39000000#32)) (constant S_ .f32 0x3FC00000#32)
def outCls (o : FVec F S1x8x128 .f32) : FVec F S_ .f32 :=
  mulf (mulf (shapeCast S_ (extractStridedSlice S1x1x1 ![0, 0, 2] o slices_S1x8x128_S1x1x1_0_0_2) shapeCasts_S1x1x1_S_) (constant S_ .f32 0x39000000#32)) (constant S_ .f32 0x3F000000#32)
def outTot (o : FVec F S1x8x128 .f32) : FVec F S_ .f32 := addf (addf (outBox o) (outObj o)) (outCls o)

/-- The output array as the host lines after the region find it. -/
theorem tail_arr (c : Dev nD) :
    Pipeline.withArrays spec0 c (V0 m c) (fun w => (dats m 0 c).arrAt w cfg0.N) (Proc.devRef .tc main_v126) = result m c :=
  (Pipeline.withArrays_arr spec0 launch0.win.arr_inj c _ _ 3).trans (final_o m c)

theorem tail_box (c : Dev nD) : Pipeline.afterTail₀ cfgs (dats m) 0 (V0 m) [hostOps1] c main_v134 = outBox (result m c) := by
  unfold Pipeline.afterTail₀
  show StableHlo.after hostOps1 _ (Proc.devRef .tc main_v134) = _
  after_results
  rw [tail_arr]
  rfl
theorem tail_obj (c : Dev nD) : Pipeline.afterTail₀ cfgs (dats m) 0 (V0 m) [hostOps1] c main_v136 = outObj (result m c) := by
  unfold Pipeline.afterTail₀
  show StableHlo.after hostOps1 _ (Proc.devRef .tc main_v136) = _
  after_results
  rw [tail_arr]
  rfl
theorem tail_cls (c : Dev nD) : Pipeline.afterTail₀ cfgs (dats m) 0 (V0 m) [hostOps1] c main_v138 = outCls (result m c) := by
  unfold Pipeline.afterTail₀
  show StableHlo.after hostOps1 _ (Proc.devRef .tc main_v138) = _
  after_results
  rw [tail_arr]
  rfl
set_option maxHeartbeats 2000000 in
theorem tail_tot (c : Dev nD) : Pipeline.afterTail₀ cfgs (dats m) 0 (V0 m) [hostOps1] c main_v140 = outTot (result m c) := by
  unfold Pipeline.afterTail₀
  show StableHlo.after hostOps1 _ (Proc.devRef .tc main_v140) = _
  after_results_simp
  rw [tail_arr]
  rfl

/-- The program runs; its four results end at the host lines' values of the output array, and its four argument
    arrays end unchanged. -/
theorem run_values : θ_run defs (onTc (τ := τ) (main (F := F))) ⟨m, fun _ => 0, ρ⟩ (fun r => ∀ c : Dev nD,
      r.2.mem ((c.tc : Thread nD τ).loc main_v140) = outTot (result m c)
      ∧ r.2.mem ((c.tc : Thread nD τ).loc main_v134) = outBox (result m c)
      ∧ r.2.mem ((c.tc : Thread nD τ).loc main_v136) = outObj (result m c)
      ∧ r.2.mem ((c.tc : Thread nD τ).loc main_v138) = outCls (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v140 (Pipeline.mem_restRefs_of main_v140 (by decide) (by decide))).trans (tail_tot m c),
     ((h c).2 main_v134 (Pipeline.mem_restRefs_of main_v134 (by decide) (by decide))).trans (tail_box m c),
     ((h c).2 main_v136 (Pipeline.mem_restRefs_of main_v136 (by decide) (by decide))).trans (tail_obj m c),
     ((h c).2 main_v138 (Pipeline.mem_restRefs_of main_v138 (by decide) (by decide))).trans (tail_cls m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.Acc

end
-- ==== Proof.LossMath.lean ====
/-
  The loss terms on the extended reals.

  For a gathered row `p` of 11 entries, a box `t` of four entries and one-hot weights `o` of six entries:
  the box term is the sum of `|p j − t j|` over the first four entries (with `|y| = max y (−y)`); the objectness
  term is softplus of `−p 4`; the class term is the sum over the six class entries `p (5 + k)` of softplus of
  the entry minus the entry times its weight. Softplus is `max x 0 + log (1 + exp (−|x|))`, every operation the
  extended reals' own. A table's total is the sum of its rows' terms.
-/
import Idealize.ShloMosaic.PureOps.Ideal
import Idealize.ShloMosaic.Lib.ValueIdx

noncomputable section

namespace Cert.Loss

open Idealize.ShloMosaic

/-- Softplus on the extended reals. -/
def sp (x : EReal) : EReal := max x 0 + Ideal.log1p (Ideal.exp (-(max x (-x))))

/-- The absolute value, as the larger of a number and its negative. -/
def absE (y : EReal) : EReal := max y (-y)

/-- One row's box term: the four absolute differences, summed. -/
def boxRow (p : Fin 11 → EReal) (t : Fin 4 → EReal) : EReal :=
  ∑ j : Fin 4, absE (p (Fin.castLE (by decide) j) - t j)

/-- One row's objectness term. -/
def objRow (p : Fin 11 → EReal) : EReal := sp (-(p 4))

/-- One row's class term. -/
def clsRow (p : Fin 11 → EReal) (o : Fin 6 → EReal) : EReal :=
  ∑ k : Fin 6, (sp (p (Fin.natAdd 5 k)) - p (Fin.natAdd 5 k) * o k)

/-- The totals of a table of `n` rows. -/
def boxTot {n : Nat} (P : (⟨2, ![n, 11]⟩ : Shape).Idx → EReal) (T : (⟨2, ![n, 4]⟩ : Shape).Idx → EReal) : EReal :=
  ∑ r : Fin n, boxRow (fun j => P (ValueIdx.ix2 r j)) (fun j => T (ValueIdx.ix2 r j))
def objTot {n : Nat} (P : (⟨2, ![n, 11]⟩ : Shape).Idx → EReal) : EReal :=
  ∑ r : Fin n, objRow (fun j => P (ValueIdx.ix2 r j))
def clsTot {n : Nat} (P : (⟨2, ![n, 11]⟩ : Shape).Idx → EReal) (O : (⟨2, ![n, 6]⟩ : Shape).Idx → EReal) : EReal :=
  ∑ r : Fin n, clsRow (fun j => P (ValueIdx.ix2 r j)) (fun k => O (ValueIdx.ix2 r k))

end Cert.Loss

end
-- ==== Proof.KernelIdeal.Payload.lean ====
/-
  What the kernel body computes from one block of 4096 rows, on the extended reals.

  From a block `x0` of 4096 gathered rows of 11 entries, a block `x1` of 4096 boxes of four entries and a block `x2` of
  4096 one-hot rows of six entries, the body forms three numbers and adds them into lanes 0, 1 and 2 of a row of 128 lanes:

    * the box number: per row, the sum over the four columns of `|x0 (r, j) − x1 (r, j)|`, then the sum of the 4096 row sums;
    * the objectness number: per row, softplus of `0 − x0 (r, 4)`, then the sum over the rows;
    * the class number: per row, the sum over the six class columns of softplus of the entry minus the entry times its weight,
      then the sum over the rows.

  Each sum over the rows is taken by reshaping the column of row values to one row, reducing along it onto a zero accumulator and
  reading the single entry; a reduction along one axis is the finite sum over that axis's coordinates. The body spells softplus
  `select (y ≠ y) (x + 0) (max x 0 + log1p (exp (0 − |y|)))` with `y = x − 0`; on the extended reals `y ≠ y` never holds and the
  added and subtracted zeros vanish, so this is `max x 0 + log1p (exp (−|x|))`. The lane selection compares the lane number with
  0, 1 and 2 in turn; at those three lanes the comparisons are decided.
-/
import proofs.«404462_j67929202753868_3_alg».proof.Proof.Gen.KernelIdeal.Skeleton
import proofs.«404462_j67929202753868_3_alg».proof.Proof.LossMath
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Acc

open Cert.KernelIdeal Cert.KernelIdeal.Gen
open Idealize.ShloMosaic Idealize.ShloMosaic.ValueIdx

/-- A lane reduction of a table of `n` rows and `m` columns, at row `r`: the sum of the row's entries. -/
theorem rowSum_apply {n m : Nat} (src : FVec Ideal (⟨2, ![n, m]⟩ : Shape) .f32)
    (h : (⟨2, ![n, m]⟩ : Shape).Reduces [1] ⟨1, ![n]⟩) (r : Fin n) :
    multiReduction (F := Ideal) .add [1] ⟨1, ![n]⟩ src 0x00000000#32 h (.inl rfl) rfl (ix1 r)
      = ∑ j : Fin m, src (ix2 r j) := by
  refine (Ideal.multiReduction_add_single src _ h _ _ (ix1 r)).trans ?_
  refine Finset.sum_congr rfl fun j _ => congrArg src ?_
  funext a; match a with | ⟨0, _⟩ => rfl | ⟨1, _⟩ => rfl

/-- The column of row sums, reshaped to one row and reduced along it, read at its one entry: the sum over the rows. -/
theorem total_apply {n : Nat} (f : FVec Ideal (⟨1, ![n]⟩ : Shape) .f32)
    (h1 : (⟨1, ![n]⟩ : Shape).ShapeCasts ⟨2, ![1, n]⟩)
    (h2 : (⟨2, ![1, n]⟩ : Shape).Reduces [1] ⟨1, ![1]⟩)
    (h3 : (⟨1, ![1]⟩ : Shape).ShapeCasts ⟨2, ![1, 1]⟩)
    (h4 : ∀ a, (![0, 0] : Fin 2 → Nat) a < (⟨2, ![1, 1]⟩ : Shape).size a) :
    extractAt ![0, 0] (shapeCast (⟨2, ![1, 1]⟩ : Shape)
      (multiReduction (F := Ideal) .add [1] ⟨1, ![1]⟩ (shapeCast (⟨2, ![1, n]⟩ : Shape) f h1) 0x00000000#32 h2 (.inl rfl) rfl) h3) h4
      = ∑ r : Fin n, f (ix1 r) := by
  unfold extractAt
  have e : (fun a => (⟨(![0, 0] : Fin 2 → Nat) a, h4 a⟩ : Fin ((⟨2, ![1, 1]⟩ : Shape).size a)))
      = ix2 (0 : Fin 1) (0 : Fin 1) := by
    funext a; match a with | ⟨0, _⟩ => rfl | ⟨1, _⟩ => rfl
  rw [e, shapeCast_a_1a_apply]
  refine (Ideal.multiReduction_add_single _ _ h2 _ _ (ix1 (0 : Fin 1))).trans ?_
  show ∑ r : Fin n, _ = _
  refine Finset.sum_congr rfl fun r _ => ?_
  have e2 : h2.lift (ix1 (0 : Fin 1)) r = ix2 (0 : Fin 1) r := by
    funext a; match a with | ⟨0, _⟩ => rfl | ⟨1, _⟩ => rfl
  exact (congrArg _ e2).trans (shapeCast_a_1a_apply f h1 (0 : Fin 1) r)

/-- The zero word reads `0`. -/
theorem zero_word : (Scalar.ofBits .f32 0x00000000#32 : Ideal .f32) = (0 : EReal) := Ideal.ofBits_zero_f32

/-- The first four columns of a gathered row. -/
theorem slice_box_apply (x0 : Vec Ideal S4096x11 .f32) (r : Fin 4096) (j : Fin 4) :
    extractStridedSlice S4096x4 ![0, 0] (k0_pay3 (F := Ideal) x0) slices_S4096x11_o0_0_S4096x4 (ix2 r j)
      = x0 (ix2 r (Fin.castLE (by decide) j)) := by
  unfold k0_pay3
  rw [shapeCast_self]
  exact slice2_axis1_apply 0 x0 _ r j _ (by simp)

/-- Column 4 of a gathered row, as a column of one entry. -/
theorem slice_obj_apply (x0 : Vec Ideal S4096x11 .f32) (r : Fin 4096) (u : Fin 1) :
    extractStridedSlice S4096x1 ![0, 4] (k0_pay3 (F := Ideal) x0) slices_S4096x11_o0_4_S4096x1 (ix2 r u)
      = x0 (ix2 r (4 : Fin 11)) := by
  unfold k0_pay3
  rw [shapeCast_self]
  exact slice2_axis1_apply 4 x0 _ r u _ (by have := u.isLt; show (4 : Nat) = 4 + u.val; omega)

/-- The six class columns of a gathered row. -/
theorem slice_cls_apply (x0 : Vec Ideal S4096x11 .f32) (r : Fin 4096) (k : Fin 6) :
    extractStridedSlice S4096x6 ![0, 5] (k0_pay3 (F := Ideal) x0) slices_S4096x11_o0_5_S4096x6 (ix2 r k)
      = x0 (ix2 r (Fin.natAdd 5 k)) := by
  unfold k0_pay3
  rw [shapeCast_self]
  exact slice2_axis1_apply 5 x0 _ r k _ (by simp)

/-- A column of one entry per row, read as a vector. -/
theorem shapeCast_a1_a_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The comparison "ordered and not equal" of a number with itself is the zero bit. -/
theorem cmp_one_self (y : EReal) : FloatOps.cmpf (F := Ideal) (φ := .f32) .one y y = 0#1 := by
  show Ideal.cmp .one y y = 0#1
  simp [Ideal.cmp]

/-- The body's spelling of softplus is softplus. -/
theorem softplus_eq (x : EReal) :
    Scalar.select (FloatOps.cmpf (F := Ideal) (φ := .f32) .one (x - 0) (x - 0)) (x + 0)
      (max x 0 + Ideal.log1p (Ideal.exp (0 - max (x - 0) (-(x - 0))))) = Cert.Loss.sp x := by
  rw [cmp_one_self, select_zero]
  unfold Cert.Loss.sp
  simp only [sub_eq_add_neg, neg_zero, add_zero, zero_add]

/-- The same with the zero written as any word that reads `0`. -/
theorem softplus_word (z : EReal) (hz : z = 0) (x : EReal) :
    Scalar.select (FloatOps.cmpf (F := Ideal) (φ := .f32) .one (x - z) (x - z)) (x + z)
      (max x z + Ideal.log1p (Ideal.exp (z - max (x - z) (-(x - z))))) = Cert.Loss.sp x := by
  subst hz; exact softplus_eq x

theorem pay5_eq (x0 : Vec Ideal S4096x11 .f32) (x1 : Vec Ideal S4096x4 .f32) :
    k0_pay5 (F := Ideal) x0 x1 = Cert.Loss.boxTot (n := 4096) x0 x1 := by
  unfold k0_pay5
  refine (total_apply _ _ _ _ _).trans ?_
  unfold Cert.Loss.boxTot Cert.Loss.boxRow
  refine Finset.sum_congr rfl fun r _ => ?_
  refine (rowSum_apply _ _ r).trans ?_
  refine Finset.sum_congr rfl fun j _ => ?_
  show max (extractStridedSlice S4096x4 ![0, 0] (k0_pay3 (F := Ideal) x0) slices_S4096x11_o0_0_S4096x4 (ix2 r j)
      - shapeCast S4096x4 x1 shapeCasts_S4096x4_S4096x4 (ix2 r j)) (-(_ - _)) = _
  rw [slice_box_apply, shapeCast_self]
  rfl

theorem pay6_eq (x0 : Vec Ideal S4096x11 .f32) :
    k0_pay6 (F := Ideal) x0 = Cert.Loss.objTot (n := 4096) x0 := by
  unfold k0_pay6
  refine (total_apply _ _ _ _ _).trans ?_
  unfold Cert.Loss.objTot Cert.Loss.objRow
  refine Finset.sum_congr rfl fun r _ => ?_
  have hv : shapeCast S4096 (extractStridedSlice S4096x1 ![0, 4] (k0_pay3 (F := Ideal) x0) slices_S4096x11_o0_4_S4096x1)
      shapeCasts_S4096x1_S4096 (ix1 r) = x0 (ix2 r (4 : Fin 11)) := by
    rw [shapeCast_a1_a_apply, slice_obj_apply]
  refine (softplus_word (Scalar.ofBits (F := Ideal) .f32 0x00000000#32) zero_word
    ((Scalar.ofBits (F := Ideal) .f32 0x00000000#32 : EReal)
      - shapeCast S4096 (extractStridedSlice S4096x1 ![0, 4] (k0_pay3 (F := Ideal) x0) slices_S4096x11_o0_4_S4096x1)
          shapeCasts_S4096x1_S4096 (ix1 r))).trans ?_
  rw [hv, zero_word]
  simp only [sub_eq_add_neg, zero_add]

/-- The stored row: the kernel's last payload with the arguments the body passes it. -/
abbrev row (x0 : Vec Ideal S4096x11 .f32) (x1 : Vec Ideal S4096x4 .f32) (x2 : Vec Ideal S4096x6 .f32)
    (v76 : Vec Ideal S1x1x128 .f32) : FVec Ideal S1x1x128 .f32 :=
  k0_pay1 (F := Ideal) (k0_pay4 x2) (k0_pay5 x0 x1) (k0_pay6 x0) (k0_pay7 x0) (Scalar.ofBits .f32 0x00000000#32)
    (k0_pay8 x0) k0_pay9 v76

/-- A vector read as a `[1, 1, a]` block. -/
theorem shapeCast_a_11a_apply {a : ℕ} {α : Type} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A `[1, 1, a]` block read as a vector. -/
theorem shapeCast_11a_a_apply {a : ℕ} {α : Type} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An integer comparison of vectors at an index compares the entries. -/
theorem cmpi_apply {s : Shape} {w : Nat} (p : CmpIPredicate) (x y : IVec s w) (i : s.Idx) :
    cmpi p x y i = IntOp.cmpi p (x i) (y i) := rfl

/-- The lane number, as the body forms it. -/
theorem lane_word (l : Fin 128) :
    shapeCast S128 (iota .tc S1x128 32 [1] iota_S1x128_d1_w32) shapeCasts_S1x128_S128 (ix1 l)
      = BitVec.ofNat 32 l.val := by
  rw [shapeCast_1a_a_apply, iota_single_apply]

/-- The lane tests at the three literal lanes. -/
theorem lane0_is0 : IntOp.cmpi .eq (BitVec.ofNat 32 (0 : Fin 128).val) 0#32 = 1#1 := by decide
theorem lane1_is0 : IntOp.cmpi .eq (BitVec.ofNat 32 (1 : Fin 128).val) 0#32 = 0#1 := by decide
theorem lane1_is1 : IntOp.cmpi .eq (BitVec.ofNat 32 (1 : Fin 128).val) 1#32 = 1#1 := by decide
theorem lane2_is0 : IntOp.cmpi .eq (BitVec.ofNat 32 (2 : Fin 128).val) 0#32 = 0#1 := by decide
theorem lane2_is1 : IntOp.cmpi .eq (BitVec.ofNat 32 (2 : Fin 128).val) 1#32 = 0#1 := by decide
theorem lane2_is2 : IntOp.cmpi .eq (BitVec.ofNat 32 (2 : Fin 128).val) 2#32 = 1#1 := by decide

theorem row_lane0 (x0 : Vec Ideal S4096x11 .f32) (x1 : Vec Ideal S4096x4 .f32) (x2 : Vec Ideal S4096x6 .f32)
    (v76 : Vec Ideal S1x1x128 .f32) :
    row x0 x1 x2 v76 (ix3 (0 : Fin 1) (0 : Fin 1) (0 : Fin 128))
      = v76 (ix3 (0 : Fin 1) (0 : Fin 1) (0 : Fin 128)) + Cert.Loss.boxTot (n := 4096) x0 x1 := by
  unfold row k0_pay1
  dsimp only
  refine (shapeCast_a_11a_apply _ _ _ _ _).trans ?_
  refine (addf_apply _ _ _).trans ?_
  simp only [select_apply, cmpi_apply, broadcast_apply, shapeCast_11a_a_apply]
  rw [lane_word, lane0_is0, select_one, pay5_eq]

theorem row_lane1 (x0 : Vec Ideal S4096x11 .f32) (x1 : Vec Ideal S4096x4 .f32) (x2 : Vec Ideal S4096x6 .f32)
    (v76 : Vec Ideal S1x1x128 .f32) :
    row x0 x1 x2 v76 (ix3 (0 : Fin 1) (0 : Fin 1) (1 : Fin 128))
      = v76 (ix3 (0 : Fin 1) (0 : Fin 1) (1 : Fin 128)) + Cert.Loss.objTot (n := 4096) x0 := by
  unfold row k0_pay1
  dsimp only
  refine (shapeCast_a_11a_apply _ _ _ _ _).trans ?_
  refine (addf_apply _ _ _).trans ?_
  simp only [select_apply, cmpi_apply, broadcast_apply, shapeCast_11a_a_apply]
  rw [lane_word, lane1_is0, select_zero, lane1_is1, select_one, pay6_eq]

theorem row_lane2 (x0 : Vec Ideal S4096x11 .f32) (x1 : Vec Ideal S4096x4 .f32) (x2 : Vec Ideal S4096x6 .f32)
    (v76 : Vec Ideal S1x1x128 .f32) :
    row x0 x1 x2 v76 (ix3 (0 : Fin 1) (0 : Fin 1) (2 : Fin 128))
      = v76 (ix3 (0 : Fin 1) (0 : Fin 1) (2 : Fin 128)) + Cert.Loss.clsTot (n := 4096) x0 x2 := by
  unfold row k0_pay1
  dsimp only
  refine (shapeCast_a_11a_apply _ _ _ _ _).trans ?_
  refine (addf_apply _ _ _).trans ?_
  simp only [select_apply, cmpi_apply, broadcast_apply, shapeCast_11a_a_apply]
  rw [lane_word, lane2_is0, select_zero, lane2_is1, select_zero, lane2_is2, select_one]
  refine congrArg (v76 (ix3 (0 : Fin 1) (0 : Fin 1) (2 : Fin 128)) + ·) ?_
  refine (total_apply _ _ _ _ _).trans ?_
  unfold Cert.Loss.clsTot Cert.Loss.clsRow
  refine Finset.sum_congr rfl fun r _ => ?_
  refine (rowSum_apply _ _ r).trans ?_
  refine Finset.sum_congr rfl fun k _ => ?_
  have hp : k0_pay7 (F := Ideal) x0 (ix2 r k) = x0 (ix2 r (Fin.natAdd 5 k)) := by
    unfold k0_pay7; exact slice_cls_apply x0 r k
  have hq : k0_pay4 (F := Ideal) x2 (ix2 r k) = x2 (ix2 r k) := by
    unfold k0_pay4; rw [shapeCast_self]
  refine (congrArg₂ (· - ·)
    (softplus_word (Scalar.ofBits (F := Ideal) .f32 0x00000000#32) zero_word (k0_pay7 (F := Ideal) x0 (ix2 r k)))
    (congrArg₂ (· * ·) hp hq)).trans ?_
  rw [hp]

end Cert.KernelIdeal.Acc

end
-- ==== Proof.Shared.lean ====
/-
  The stages the kernel's program and the reference share, named once, at any float instance.

  From the target table `t` (8192 rows: batch, class, x, y, w, h) both programs compute, with the same
  operations in the same order:
  * the box columns (columns 2 to 5), against which the first four gathered entries are compared;
  * the one-hot class rows: entry `(r, k)` is 1 when the class of row `r`, converted to an integer, is `k`;
  * for each prediction map of side `n` (160, 80, 40) the index table whose row `r` is
    (batch, 0, cell-y, cell-x) with cell = clamp(⌊n · coordinate⌋, 0, n − 1), each index then shifted by its
    axis length when negative, and the gather of the 11-entry row of the map at that index.
  Naming them here lets each program's host lines be read back to the same terms, so that no later step
  compares the two index computations.
-/
import proofs.«404462_j67929202753868_3_alg».proof.Proof.Gen.KernelIdeal

noncomputable section

namespace Cert.KernelIdeal.Sh

open Cert.KernelIdeal Cert.KernelIdeal.Facts₀ Idealize.ShloMosaic Idealize.SL.Sem

variable {F : FTy → Type} [FloatOps F]

/-- Columns 2 to 5 of the target table: the box `(x, y, w, h)` of each row. -/
def boxCols (t : FVec F S8192x6 .f32) : FVec F S8192x4 .f32 :=
  extractStridedSlice S8192x4 ![0, 2] t slices_S8192x6_S8192x4_0_2

/-- Column `k` (0 or 1) of the target table as integers: the batch index, the class. -/
def batchIdx (t : FVec F S8192x6 .f32) : IVec S8192 32 :=
  fptosi 32 (shapeCast S8192 (extractStridedSlice S8192x1 ![0, 0] t slices_S8192x6_S8192x1_0_0) shapeCasts_S8192x1_S8192)
def classIdx (t : FVec F S8192x6 .f32) : IVec S8192 32 :=
  fptosi 32 (shapeCast S8192 (extractStridedSlice S8192x1 ![0, 1] t slices_S8192x6_S8192x1_0_1) shapeCasts_S8192x1_S8192)

/-- The one-hot class rows: 1 where the row's class equals the column's number, else 0. -/
def oneHot (t : FVec F S8192x6 .f32) : FVec F S8192x6 .f32 :=
  uitofp .f32 (cmpi .eq
    (broadcastInDim S8192x6 ![0, 1] bcast_S8192x1_S8192x6_0_1 (broadcastInDim S8192x1 ![0] bcast_S8192_S8192x1_0 (classIdx t)))
    (broadcastInDim S8192x6 ![0, 1] bcast_S1x6_S8192x6_0_1 (iotaInDim S1x6 32 1)))

/-- The cell of a coordinate column on a map whose side is the float word `sw`: the floor of the product,
    as an integer, clamped to `[0, hi]`. -/
def cellOf (sw : BitVec 32) (hi : BitVec 32) (col : FVec F S8192x1 .f32) : IVec S8192 32 :=
  minsi (broadcastInDim S8192 ![] bcast_S_S8192 (id (constantI S_ 32 hi)))
    (maxsi (broadcastInDim S8192 ![] bcast_S_S8192 (id (constantI S_ 32 0#32)))
      (fptosi 32 (Host.floor (mulf (broadcastInDim S8192 ![] bcast_S_S8192 (constant S_ .f32 sw))
        (shapeCast S8192 col shapeCasts_S8192x1_S8192)))))

/-- An index shifted by the axis length `n` when it is negative. -/
def wrapNeg (n : BitVec 32) (g : IVec S8192 32) : IVec S8192 32 :=
  select (cmpi .slt g (broadcastInDim S8192 ![] bcast_S_S8192 (constantI S_ 32 0#32)))
    (addi g (broadcastInDim S8192 ![] bcast_S_S8192 (constantI S_ 32 n))) g

/-- The index table of a map of side `sw` (as a float word), `n` (as an integer), largest cell `hi`:
    row `r` is (batch, 0, cell of y, cell of x). -/
def rowIdx (sw hi n : BitVec 32) (t : FVec F S8192x6 .f32) : IVec S8192x4 32 :=
  concatenate S8192x4 1
    [⟨S8192x1, broadcastInDim S8192x1 ![0] bcast_S8192_S8192x1_0 (wrapNeg 32#32 (batchIdx t))⟩,
     ⟨S8192x1, broadcastInDim S8192x1 ![0] bcast_S8192_S8192x1_0 (id (broadcastInDim S8192 ![] bcast_S_S8192 (constantI S_ 32 0#32)))⟩,
     ⟨S8192x1, broadcastInDim S8192x1 ![0] bcast_S8192_S8192x1_0
        (wrapNeg n (cellOf sw hi (extractStridedSlice S8192x1 ![0, 1] (boxCols t) slices_S8192x4_S8192x1_0_1)))⟩,
     ⟨S8192x1, broadcastInDim S8192x1 ![0] bcast_S8192_S8192x1_0
        (wrapNeg n (cellOf sw hi (extractStridedSlice S8192x1 ![0, 0] (boxCols t) slices_S8192x4_S8192x1_0_0)))⟩]
    concatenates_S8192x1_S8192x1_S8192x1_S8192x1_S8192x4_d1

/-- The gathered rows: for each target, the 11 entries of its cell on the map of side 160, 80, 40. -/
def rows0 (x : FVec F S32x3x160x160x11 .f32) (t : FVec F S8192x6 .f32) : FVec F S8192x11 .f32 :=
  Host.gather gather_S32x3x160x160x11_S8192x4_S8192x11_1_0123_n_n_0123_1_111111 x (rowIdx 0x43200000#32 159#32 160#32 t)
def rows1 (x : FVec F S32x3x80x80x11 .f32) (t : FVec F S8192x6 .f32) : FVec F S8192x11 .f32 :=
  Host.gather gather_S32x3x80x80x11_S8192x4_S8192x11_1_0123_n_n_0123_1_111111 x (rowIdx 0x42A00000#32 79#32 80#32 t)
def rows2 (x : FVec F S32x3x40x40x11 .f32) (t : FVec F S8192x6 .f32) : FVec F S8192x11 .f32 :=
  Host.gather gather_S32x3x40x40x11_S8192x4_S8192x11_1_0123_n_n_0123_1_111111 x (rowIdx 0x42200000#32 39#32 40#32 t)

end Cert.KernelIdeal.Sh

end
-- ==== Proof.KernelIdeal.Blocks.lean ====
/-
  Which rows of the shared stages each of the six grid points of the kernel region sees.

  The region walks three arrays of 24576 rows in six blocks of 4096 rows; the block index is the grid
  coordinate.  The first array stacks the three gathered tables (8192 rows each), so points 0 and 1 see
  the two halves of the first table, points 2 and 3 the halves of the second, points 4 and 5 the halves
  of the third.  The other two arrays repeat the box columns and the one-hot class rows three times, so
  an even point sees the first half of the table (rows 0 to 4095) and an odd point the second half
  (rows 4096 to 8191).

  The steps: an element `(r, j)` of the block at point `t` is element `(4096·t + r, j)` of the array
  (the block index of each window is decided over the six points); row `ℓ·8192 + s` of a stack of three
  tables is row `s` of table `ℓ`; row `k` of a table repeated along a new leading axis and flattened is
  row `k mod 8192` of the table (the flattening keeps row-major positions, and `k = (k / 8192)·8192 +
  k mod 8192`).
-/
import proofs.«404462_j67929202753868_3_alg».proof.Proof.KernelIdeal.Around
import proofs.«404462_j67929202753868_3_alg».proof.Proof.Shared
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.SL.Sem
open Idealize.ShloMosaic.ValueIdx (ix2 ix4)

variable {F : FTy → Type} [FloatOps F]
variable (m : (ℓ : Loc nD τ sig) → Buf (Elt F) ℓ)

/-! ## The blocks at their literal types -/

/-- The block of stacked gathered rows point `t` sees: 4096 rows of 11 entries. -/
abbrev xblk (c : Dev nD) (t : Fin cfg0.N) : Vec F S4096x11 .f32 := iblk m c 0 t
/-- The block of repeated box columns point `t` sees: 4096 rows of 4 entries. -/
abbrev tblk (c : Dev nD) (t : Fin cfg0.N) : Vec F S4096x4 .f32 := iblk m c 1 t
/-- The block of repeated one-hot class rows point `t` sees: 4096 rows of 6 entries. -/
abbrev oblk (c : Dev nD) (t : Fin cfg0.N) : Vec F S4096x6 .f32 := iblk m c 2 t

/-! ## Where a block's element sits in its array -/

/-- The block index of each input window at point `t` is `(t, 0)`, and there are six points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 ∧ t.val < 6 :=
  (by decide +kernel : ∀ t : Fin grid0.N, _)

/-- Element `(r, j)` of the first window's block at point `t` is element `(4096·t + r, j)` of the stacked rows. -/
theorem xblk_apply (c : Dev nD) (t : Fin cfg0.N) (r : Fin 4096) (j : Fin 11) (k : Fin 24576) (hk : k.val = 4096 * t.val + r.val) :
    xblk m c t (ix2 r j) = (V m c main_v119 : S24576x11.Idx → Elt F .f32) (ix2 k j) := by
  obtain ⟨e0, e1, -⟩ := idx_facts t
  show V m c main_v119 (((cfg0.win 0).blk t).view.emb (ix2 r j)) = V m c main_v119 (ix2 k j)
  congr 1
  funext a
  apply Fin.ext
  match a with
  | ⟨0, _⟩ => show win0_0.index t (0 : Fin 2) * 4096 + 1 * r.val = k.val; rw [e0, hk]; omega
  | ⟨1, _⟩ => show win0_0.index t (1 : Fin 2) * 11 + 1 * j.val = j.val; rw [e1]; omega

/-- Element `(r, j)` of the second window's block at point `t` is element `(4096·t + r, j)` of the repeated box columns. -/
theorem tblk_apply (c : Dev nD) (t : Fin cfg0.N) (r : Fin 4096) (j : Fin 4) (k : Fin 24576) (hk : k.val = 4096 * t.val + r.val) :
    tblk m c t (ix2 r j) = (V m c main_v122 : S24576x4.Idx → Elt F .f32) (ix2 k j) := by
  obtain ⟨-, -, e0, e1, -⟩ := idx_facts t
  show V m c main_v122 (((cfg0.win 1).blk t).view.emb (ix2 r j)) = V m c main_v122 (ix2 k j)
  congr 1
  funext a
  apply Fin.ext
  match a with
  | ⟨0, _⟩ => show win0_1.index t (0 : Fin 2) * 4096 + 1 * r.val = k.val; rw [e0, hk]; omega
  | ⟨1, _⟩ => show win0_1.index t (1 : Fin 2) * 4 + 1 * j.val = j.val; rw [e1]; omega

/-- Element `(r, j)` of the third window's block at point `t` is element `(4096·t + r, j)` of the repeated one-hot rows. -/
theorem oblk_apply (c : Dev nD) (t : Fin cfg0.N) (r : Fin 4096) (j : Fin 6) (k : Fin 24576) (hk : k.val = 4096 * t.val + r.val) :
    oblk m c t (ix2 r j) = (V m c main_v125 : S24576x6.Idx → Elt F .f32) (ix2 k j) := by
  obtain ⟨-, -, -, -, e0, e1, -⟩ := idx_facts t
  show V m c main_v125 (((cfg0.win 2).blk t).view.emb (ix2 r j)) = V m c main_v125 (ix2 k j)
  congr 1
  funext a
  apply Fin.ext
  match a with
  | ⟨0, _⟩ => show win0_2.index t (0 : Fin 2) * 4096 + 1 * r.val = k.val; rw [e0, hk]; omega
  | ⟨1, _⟩ => show win0_2.index t (1 : Fin 2) * 6 + 1 * j.val = j.val; rw [e1]; omega

/-! ## The stacking and the repetition, read at a row -/

section Layout
variable {α : Type}

/-- Three tables of 8192 rows stacked: a row below 8192 of the stack is that row of the first table. -/
theorem cat3_apply_0 (x0 x1 x2 : S8192x11.Idx → α) (h : Shape.Concatenates [S8192x11, S8192x11, S8192x11] S24576x11 0)
    (k : Fin 24576) (s : Fin 8192) (j : Fin 11) (hk : k.val = s.val) :
    concatenate S24576x11 0 [⟨S8192x11, x0⟩, ⟨S8192x11, x1⟩, ⟨S8192x11, x2⟩] h (ix2 k j) = x0 (ix2 s j) :=
  concatenate_apply_piece (t := S24576x11) (0 : Fin S24576x11.rank) [⟨S8192x11, x0⟩, ⟨S8192x11, x1⟩, ⟨S8192x11, x2⟩] h (ix2 k j)
    0 (by show (0 : Nat) < 3; omega) S8192x11 x0 rfl rfl 0 rfl
    (ix2 s j) (fun b hb => by
      match b with
      | ⟨0, _⟩ => exact absurd rfl hb
      | ⟨1, _⟩ => rfl)
    (by show 0 + s.val = k.val; omega)

/-- Row `8192 + s` of the stack is row `s` of the second table. -/
theorem cat3_apply_1 (x0 x1 x2 : S8192x11.Idx → α) (h : Shape.Concatenates [S8192x11, S8192x11, S8192x11] S24576x11 0)
    (k : Fin 24576) (s : Fin 8192) (j : Fin 11) (hk : k.val = 8192 + s.val) :
    concatenate S24576x11 0 [⟨S8192x11, x0⟩, ⟨S8192x11, x1⟩, ⟨S8192x11, x2⟩] h (ix2 k j) = x1 (ix2 s j) :=
  concatenate_apply_piece (t := S24576x11) (0 : Fin S24576x11.rank) [⟨S8192x11, x0⟩, ⟨S8192x11, x1⟩, ⟨S8192x11, x2⟩] h (ix2 k j)
    1 (by show (1 : Nat) < 3; omega) S8192x11 x1 rfl rfl 8192 rfl
    (ix2 s j) (fun b hb => by
      match b with
      | ⟨0, _⟩ => exact absurd rfl hb
      | ⟨1, _⟩ => rfl)
    (by show 8192 + s.val = k.val; omega)

/-- Row `16384 + s` of the stack is row `s` of the third table. -/
theorem cat3_apply_2 (x0 x1 x2 : S8192x11.Idx → α) (h : Shape.Concatenates [S8192x11, S8192x11, S8192x11] S24576x11 0)
    (k : Fin 24576) (s : Fin 8192) (j : Fin 11) (hk : k.val = 16384 + s.val) :
    concatenate S24576x11 0 [⟨S8192x11, x0⟩, ⟨S8192x11, x1⟩, ⟨S8192x11, x2⟩] h (ix2 k j) = x2 (ix2 s j) :=
  concatenate_apply_piece (t := S24576x11) (0 : Fin S24576x11.rank) [⟨S8192x11, x0⟩, ⟨S8192x11, x1⟩, ⟨S8192x11, x2⟩] h (ix2 k j)
    2 (by show (2 : Nat) < 3; omega) S8192x11 x2 rfl rfl 16384 rfl
    (ix2 s j) (fun b hb => by
      match b with
      | ⟨0, _⟩ => exact absurd rfl hb
      | ⟨1, _⟩ => rfl)
    (by show 16384 + s.val = k.val; omega)

/-- A table of 8192 rows of 4 entries, given a leading axis of length one, repeated three times along it and
    flattened to 24576 rows: row `k` of the result is row `k mod 8192` of the table.  Row `k` has row-major
    position `4k + j`, which in the 3×8192×1×4 array is `(k / 8192, k mod 8192, 0, j)`. -/
theorem rep3x4_apply (x : S8192x4.Idx → α) (h1 : S8192x4.ShapeCasts S1x8192x1x4)
    (hb : S1x8192x1x4.BroadcastsInDim S3x8192x1x4 (![0, 1, 2, 3] : Fin 4 → Fin S3x8192x1x4.rank))
    (h2 : S3x8192x1x4.ShapeCasts S24576x4) (k : Fin 24576) (s : Fin 8192) (j : Fin 4) (hk : k.val % 8192 = s.val) :
    shapeCast S24576x4 (broadcastInDim S3x8192x1x4 ![0, 1, 2, 3] hb (shapeCast S1x8192x1x4 x h1)) h2 (ix2 k j) = x (ix2 s j) := by
  have hk3 : k.val / 8192 < 3 := by have := k.isLt; omega
  refine (shapeCast_apply _ h2 (ix2 k j) (ix4 ⟨k.val / 8192, hk3⟩ s (0 : Fin 1) j) ?_).trans ?_
  · rw [Shape.rowMajor_val_four, Shape.rowMajor_val_two]
    show ((k.val / 8192 * 8192 + s.val) * 1 + 0) * 4 + j.val = k.val * 4 + j.val
    omega
  refine (broadcastInDim_apply _ hb _ _ (ix4 (0 : Fin 1) s (0 : Fin 1) j) (fun a => ?_)).trans ?_
  · match a with
    | ⟨0, _⟩ => rfl
    | ⟨1, _⟩ => rfl
    | ⟨2, _⟩ => rfl
    | ⟨3, _⟩ => rfl
  refine shapeCast_apply _ h1 _ (ix2 s j) ?_
  rw [Shape.rowMajor_val_four, Shape.rowMajor_val_two]
  show s.val * 4 + j.val = ((0 * 8192 + s.val) * 1 + 0) * 4 + j.val
  omega

/-- The same for a table of 8192 rows of 6 entries. -/
theorem rep3x6_apply (x : S8192x6.Idx → α) (h1 : S8192x6.ShapeCasts S1x8192x1x6)
    (hb : S1x8192x1x6.BroadcastsInDim S3x8192x1x6 (![0, 1, 2, 3] : Fin 4 → Fin S3x8192x1x6.rank))
    (h2 : S3x8192x1x6.ShapeCasts S24576x6) (k : Fin 24576) (s : Fin 8192) (j : Fin 6) (hk : k.val % 8192 = s.val) :
    shapeCast S24576x6 (broadcastInDim S3x8192x1x6 ![0, 1, 2, 3] hb (shapeCast S1x8192x1x6 x h1)) h2 (ix2 k j) = x (ix2 s j) := by
  have hk3 : k.val / 8192 < 3 := by have := k.isLt; omega
  refine (shapeCast_apply _ h2 (ix2 k j) (ix4 ⟨k.val / 8192, hk3⟩ s (0 : Fin 1) j) ?_).trans ?_
  · rw [Shape.rowMajor_val_four, Shape.rowMajor_val_two]
    show ((k.val / 8192 * 8192 + s.val) * 1 + 0) * 6 + j.val = k.val * 6 + j.val
    omega
  refine (broadcastInDim_apply _ hb _ _ (ix4 (0 : Fin 1) s (0 : Fin 1) j) (fun a => ?_)).trans ?_
  · match a with
    | ⟨0, _⟩ => rfl
    | ⟨1, _⟩ => rfl
    | ⟨2, _⟩ => rfl
    | ⟨3, _⟩ => rfl
  refine shapeCast_apply _ h1 _ (ix2 s j) ?_
  rw [Shape.rowMajor_val_four, Shape.rowMajor_val_two]
  show s.val * 6 + j.val = ((0 * 8192 + s.val) * 1 + 0) * 6 + j.val
  omega

end Layout

/-! ## What each point sees

Everything below is under the three facts about the arrays as the region finds them: the stack of the three gathered
tables, and the box columns and the one-hot rows each repeated three times. -/

section Points
variable (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "Hrows" => V m c main_v119 = concatenate S24576x11 0 [⟨S8192x11, Sh.rows0 a0 a3⟩, ⟨S8192x11, Sh.rows1 a1 a3⟩, ⟨S8192x11, Sh.rows2 a2 a3⟩] concatenates_S8192x11_S8192x11_S8192x11_S24576x11_d0
set_option quotPrecheck false in
local notation "Hbox" => V m c main_v122 = shapeCast S24576x4 (broadcastInDim S3x8192x1x4 ![0, 1, 2, 3] bcast_S1x8192x1x4_S3x8192x1x4_0_1_2_3 (shapeCast S1x8192x1x4 (Sh.boxCols a3) shapeCasts_S8192x4_S1x8192x1x4)) shapeCasts_S3x8192x1x4_S24576x4
set_option quotPrecheck false in
local notation "Hhot" => V m c main_v125 = shapeCast S24576x6 (broadcastInDim S3x8192x1x6 ![0, 1, 2, 3] bcast_S1x8192x1x6_S3x8192x1x6_0_1_2_3 (shapeCast S1x8192x1x6 (Sh.oneHot a3) shapeCasts_S8192x6_S1x8192x1x6)) shapeCasts_S3x8192x1x6_S24576x6

/-! ### The gathered rows: one theorem per position of the block in the stack -/

/-- Point 0 sees the first half of the first gathered table. -/
theorem xblk_g0 (hrows : Hrows) (t : Fin cfg0.N) (ht : t.val = 0) (r : Fin 4096) (j : Fin 11) :
    xblk m c t (ix2 r j) = Sh.rows0 a0 a3 (ix2 ⟨r.val, by omega⟩ j) := by
  rw [xblk_apply m c t r j ⟨4096 * t.val + r.val, by omega⟩ rfl, hrows]
  exact cat3_apply_0 _ _ _ _ _ _ j (by show 4096 * t.val + r.val = r.val; omega)

/-- Point 1 sees the second half of the first gathered table. -/
theorem xblk_g1 (hrows : Hrows) (t : Fin cfg0.N) (ht : t.val = 1) (r : Fin 4096) (j : Fin 11) :
    xblk m c t (ix2 r j) = Sh.rows0 a0 a3 (ix2 ⟨4096 + r.val, by omega⟩ j) := by
  rw [xblk_apply m c t r j ⟨4096 * t.val + r.val, by omega⟩ rfl, hrows]
  exact cat3_apply_0 _ _ _ _ _ _ j (by show 4096 * t.val + r.val = 4096 + r.val; omega)

/-- Point 2 sees the first half of the second gathered table. -/
theorem xblk_g2 (hrows : Hrows) (t : Fin cfg0.N) (ht : t.val = 2) (r : Fin 4096) (j : Fin 11) :
    xblk m c t (ix2 r j) = Sh.rows1 a1 a3 (ix2 ⟨r.val, by omega⟩ j) := by
  rw [xblk_apply m c t r j ⟨4096 * t.val + r.val, by omega⟩ rfl, hrows]
  exact cat3_apply_1 _ _ _ _ _ _ j (by show 4096 * t.val + r.val = 8192 + r.val; omega)

/-- Point 3 sees the second half of the second gathered table. -/
theorem xblk_g3 (hrows : Hrows) (t : Fin cfg0.N) (ht : t.val = 3) (r : Fin 4096) (j : Fin 11) :
    xblk m c t (ix2 r j) = Sh.rows1 a1 a3 (ix2 ⟨4096 + r.val, by omega⟩ j) := by
  rw [xblk_apply m c t r j ⟨4096 * t.val + r.val, by omega⟩ rfl, hrows]
  exact cat3_apply_1 _ _ _ _ _ _ j (by show 4096 * t.val + r.val = 8192 + (4096 + r.val); omega)

/-- Point 4 sees the first half of the third gathered table. -/
theorem xblk_g4 (hrows : Hrows) (t : Fin cfg0.N) (ht : t.val = 4) (r : Fin 4096) (j : Fin 11) :
    xblk m c t (ix2 r j) = Sh.rows2 a2 a3 (ix2 ⟨r.val, by omega⟩ j) := by
  rw [xblk_apply m c t r j ⟨4096 * t.val + r.val, by omega⟩ rfl, hrows]
  exact cat3_apply_2 _ _ _ _ _ _ j (by show 4096 * t.val + r.val = 16384 + r.val; omega)

/-- Point 5 sees the second half of the third gathered table. -/
theorem xblk_g5 (hrows : Hrows) (t : Fin cfg0.N) (ht : t.val = 5) (r : Fin 4096) (j : Fin 11) :
    xblk m c t (ix2 r j) = Sh.rows2 a2 a3 (ix2 ⟨4096 + r.val, by omega⟩ j) := by
  rw [xblk_apply m c t r j ⟨4096 * t.val + r.val, by omega⟩ rfl, hrows]
  exact cat3_apply_2 _ _ _ _ _ _ j (by show 4096 * t.val + r.val = 16384 + (4096 + r.val); omega)

/-! ### The box columns and the one-hot rows: by the parity of the point -/

/-- An even point sees the first half of the box columns. -/
theorem tblk_even (hbox : Hbox) (t : Fin cfg0.N) (ht : t.val % 2 = 0) (r : Fin 4096) (j : Fin 4) :
    tblk m c t (ix2 r j) = Sh.boxCols a3 (ix2 ⟨r.val, by omega⟩ j) := by
  have h6 : t.val < 6 := (idx_facts t).2.2.2.2.2.2
  rw [tblk_apply m c t r j ⟨4096 * t.val + r.val, by omega⟩ rfl, hbox]
  exact rep3x4_apply _ _ _ _ _ _ j (by show (4096 * t.val + r.val) % 8192 = r.val; omega)

/-- An odd point sees the second half of the box columns. -/
theorem tblk_odd (hbox : Hbox) (t : Fin cfg0.N) (ht : t.val % 2 = 1) (r : Fin 4096) (j : Fin 4) :
    tblk m c t (ix2 r j) = Sh.boxCols a3 (ix2 ⟨4096 + r.val, by omega⟩ j) := by
  have h6 : t.val < 6 := (idx_facts t).2.2.2.2.2.2
  rw [tblk_apply m c t r j ⟨4096 * t.val + r.val, by omega⟩ rfl, hbox]
  exact rep3x4_apply _ _ _ _ _ _ j (by show (4096 * t.val + r.val) % 8192 = 4096 + r.val; omega)

/-- An even point sees the first half of the one-hot rows. -/
theorem oblk_even (hhot : Hhot) (t : Fin cfg0.N) (ht : t.val % 2 = 0) (r : Fin 4096) (j : Fin 6) :
    oblk m c t (ix2 r j) = Sh.oneHot a3 (ix2 ⟨r.val, by omega⟩ j) := by
  have h6 : t.val < 6 := (idx_facts t).2.2.2.2.2.2
  rw [oblk_apply m c t r j ⟨4096 * t.val + r.val, by omega⟩ rfl, hhot]
  exact rep3x6_apply _ _ _ _ _ _ j (by show (4096 * t.val + r.val) % 8192 = r.val; omega)

/-- An odd point sees the second half of the one-hot rows. -/
theorem oblk_odd (hhot : Hhot) (t : Fin cfg0.N) (ht : t.val % 2 = 1) (r : Fin 4096) (j : Fin 6) :
    oblk m c t (ix2 r j) = Sh.oneHot a3 (ix2 ⟨4096 + r.val, by omega⟩ j) := by
  have h6 : t.val < 6 := (idx_facts t).2.2.2.2.2.2
  rw [oblk_apply m c t r j ⟨4096 * t.val + r.val, by omega⟩ rfl, hhot]
  exact rep3x6_apply _ _ _ _ _ _ j (by show (4096 * t.val + r.val) % 8192 = 4096 + r.val; omega)

/-! ### The same at the six points by name -/

/-- Point 0: the first half of gathered table 0, of the box columns and of the one-hot rows. -/
theorem xblk_t0 (hrows : Hrows) : ∀ (r : Fin 4096) (j : Fin 11), xblk m c t0_0 (ix2 r j) = Sh.rows0 a0 a3 (ix2 ⟨r.val, by omega⟩ j) :=
  xblk_g0 m c hrows t0_0 rfl
theorem tblk_t0 (hbox : Hbox) : ∀ (r : Fin 4096) (j : Fin 4), tblk m c t0_0 (ix2 r j) = Sh.boxCols a3 (ix2 ⟨r.val, by omega⟩ j) :=
  tblk_even m c hbox t0_0 (by decide)
theorem oblk_t0 (hhot : Hhot) : ∀ (r : Fin 4096) (j : Fin 6), oblk m c t0_0 (ix2 r j) = Sh.oneHot a3 (ix2 ⟨r.val, by omega⟩ j) :=
  oblk_even m c hhot t0_0 (by decide)

/-- Point 1: the second half of gathered table 0, of the box columns and of the one-hot rows. -/
theorem xblk_t1 (hrows : Hrows) : ∀ (r : Fin 4096) (j : Fin 11), xblk m c t0_1 (ix2 r j) = Sh.rows0 a0 a3 (ix2 ⟨4096 + r.val, by omega⟩ j) :=
  xblk_g1 m c hrows t0_1 rfl
theorem tblk_t1 (hbox : Hbox) : ∀ (r : Fin 4096) (j : Fin 4), tblk m c t0_1 (ix2 r j) = Sh.boxCols a3 (ix2 ⟨4096 + r.val, by omega⟩ j) :=
  tblk_odd m c hbox t0_1 (by decide)
theorem oblk_t1 (hhot : Hhot) : ∀ (r : Fin 4096) (j : Fin 6), oblk m c t0_1 (ix2 r j) = Sh.oneHot a3 (ix2 ⟨4096 + r.val, by omega⟩ j) :=
  oblk_odd m c hhot t0_1 (by decide)

/-- Point 2: the first half of gathered table 1, of the box columns and of the one-hot rows. -/
theorem xblk_t2 (hrows : Hrows) : ∀ (r : Fin 4096) (j : Fin 11), xblk m c t0_2 (ix2 r j) = Sh.rows1 a1 a3 (ix2 ⟨r.val, by omega⟩ j) :=
  xblk_g2 m c hrows t0_2 rfl
theorem tblk_t2 (hbox : Hbox) : ∀ (r : Fin 4096) (j : Fin 4), tblk m c t0_2 (ix2 r j) = Sh.boxCols a3 (ix2 ⟨r.val, by omega⟩ j) :=
  tblk_even m c hbox t0_2 (by decide)
theorem oblk_t2 (hhot : Hhot) : ∀ (r : Fin 4096) (j : Fin 6), oblk m c t0_2 (ix2 r j) = Sh.oneHot a3 (ix2 ⟨r.val, by omega⟩ j) :=
  oblk_even m c hhot t0_2 (by decide)

/-- Point 3: the second half of gathered table 1, of the box columns and of the one-hot rows. -/
theorem xblk_t3 (hrows : Hrows) : ∀ (r : Fin 4096) (j : Fin 11), xblk m c t0_3 (ix2 r j) = Sh.rows1 a1 a3 (ix2 ⟨4096 + r.val, by omega⟩ j) :=
  xblk_g3 m c hrows t0_3 rfl
theorem tblk_t3 (hbox : Hbox) : ∀ (r : Fin 4096) (j : Fin 4), tblk m c t0_3 (ix2 r j) = Sh.boxCols a3 (ix2 ⟨4096 + r.val, by omega⟩ j) :=
  tblk_odd m c hbox t0_3 (by decide)
theorem oblk_t3 (hhot : Hhot) : ∀ (r : Fin 4096) (j : Fin 6), oblk m c t0_3 (ix2 r j) = Sh.oneHot a3 (ix2 ⟨4096 + r.val, by omega⟩ j) :=
  oblk_odd m c hhot t0_3 (by decide)

/-- Point 4: the first half of gathered table 2, of the box columns and of the one-hot rows. -/
theorem xblk_t4 (hrows : Hrows) : ∀ (r : Fin 4096) (j : Fin 11), xblk m c t0_4 (ix2 r j) = Sh.rows2 a2 a3 (ix2 ⟨r.val, by omega⟩ j) :=
  xblk_g4 m c hrows t0_4 rfl
theorem tblk_t4 (hbox : Hbox) : ∀ (r : Fin 4096) (j : Fin 4), tblk m c t0_4 (ix2 r j) = Sh.boxCols a3 (ix2 ⟨r.val, by omega⟩ j) :=
  tblk_even m c hbox t0_4 (by decide)
theorem oblk_t4 (hhot : Hhot) : ∀ (r : Fin 4096) (j : Fin 6), oblk m c t0_4 (ix2 r j) = Sh.oneHot a3 (ix2 ⟨r.val, by omega⟩ j) :=
  oblk_even m c hhot t0_4 (by decide)

/-- Point 5: the second half of gathered table 2, of the box columns and of the one-hot rows. -/
theorem xblk_t5 (hrows : Hrows) : ∀ (r : Fin 4096) (j : Fin 11), xblk m c t0_5 (ix2 r j) = Sh.rows2 a2 a3 (ix2 ⟨4096 + r.val, by omega⟩ j) :=
  xblk_g5 m c hrows t0_5 rfl
theorem tblk_t5 (hbox : Hbox) : ∀ (r : Fin 4096) (j : Fin 4), tblk m c t0_5 (ix2 r j) = Sh.boxCols a3 (ix2 ⟨4096 + r.val, by omega⟩ j) :=
  tblk_odd m c hbox t0_5 (by decide)
theorem oblk_t5 (hhot : Hhot) : ∀ (r : Fin 4096) (j : Fin 6), oblk m c t0_5 (ix2 r j) = Sh.oneHot a3 (ix2 ⟨4096 + r.val, by omega⟩ j) :=
  oblk_odd m c hhot t0_5 (by decide)

end Points

end Cert.KernelIdeal.Acc

end
-- ==== Proof.KernelIdeal.Entry.lean ====
/-
  What the kernel region's three input arrays hold when the region is entered, in terms of the
  argument arrays, at any float instance.

  The host lines before the region come in fifteen stretches.  Stretch 0 reads the target table
  (batch column, class column, box columns); stretch 1 makes the one-hot class rows; then, for each
  of the three prediction maps, two pairs of stretches compute the x-cell and the y-cell of every
  target (a product with the map's side, floor, conversion, then a clamp), and a long stretch shifts
  negative indices, stacks the four index columns and gathers one 11-entry row per target.  The last
  stretch also stacks the three gathered tables and repeats the box columns and the one-hot rows
  three times.

  Each stretch is read for an ARBITRARY valuation: what it leaves in the buffers later stretches
  read, as a term over the valuation at the stretch's own inputs, and that a buffer it does not
  write keeps its contents.  The three statements then follow by walking from the last stretch
  back to the launch contents, one stretch at a time.
-/
import proofs.«404462_j67929202753868_3_alg».proof.Proof.KernelIdeal.Around
import proofs.«404462_j67929202753868_3_alg».proof.Proof.Shared

set_option maxRecDepth 16384

noncomputable section

namespace Cert.KernelIdeal.Acc

open Cert.KernelIdeal Cert.KernelIdeal.Gen
open Idealize.ShloMosaic Idealize.ShloMosaic.TcCoe Idealize.SL.Sem

variable {F : FTy → Type} [FloatOps F]

/-- A valuation read at a TensorCore reference. -/
local macro "rd(" W:term ", " b:term ")" : term => `($W (Proc.devRef .tc $b))

/-! ## The shared stages, with their inputs made explicit -/

/-- A coordinate column times the map's side (the float word `sw`), floored, as an integer. -/
def rawCell (sw : BitVec 32) (col : FVec F S8192x1 .f32) : IVec S8192 32 :=
  fptosi 32 (Host.floor (mulf (broadcastInDim S8192 ![] bcast_S_S8192 (constant S_ .f32 sw))
    (shapeCast S8192 col shapeCasts_S8192x1_S8192)))

/-- An integer column clamped between two scalars, the lower one applied first. -/
def clampOf (lo hi : IVec S_ 32) (g : IVec S8192 32) : IVec S8192 32 :=
  minsi (broadcastInDim S8192 ![] bcast_S_S8192 (id hi)) (maxsi (broadcastInDim S8192 ![] bcast_S_S8192 (id lo)) g)

/-- The cell of a coordinate column is the clamp of its floored product. -/
theorem cellOf_eq (sw hi : BitVec 32) (col : FVec F S8192x1 .f32) :
    Sh.cellOf sw hi col = clampOf (constantI S_ 32 0#32) (constantI S_ 32 hi) (rawCell sw col) := rfl

/-- The one-hot rows of a class column. -/
def hotOf (k : IVec S8192 32) : FVec F S8192x6 .f32 :=
  uitofp .f32 (cmpi .eq
    (broadcastInDim S8192x6 ![0, 1] bcast_S8192x1_S8192x6_0_1 (broadcastInDim S8192x1 ![0] bcast_S8192_S8192x1_0 k))
    (broadcastInDim S8192x6 ![0, 1] bcast_S1x6_S8192x6_0_1 (iotaInDim S1x6 32 1)))

theorem oneHot_eq (t : FVec F S8192x6 .f32) : Sh.oneHot t = hotOf (Sh.classIdx t) := rfl

/-- The index table of a map of side `n` from its batch column and its two cell columns. -/
def idxTab (n : BitVec 32) (b y x : IVec S8192 32) : IVec S8192x4 32 :=
  concatenate S8192x4 1
    [⟨S8192x1, broadcastInDim S8192x1 ![0] bcast_S8192_S8192x1_0 (Sh.wrapNeg 32#32 b)⟩,
     ⟨S8192x1, broadcastInDim S8192x1 ![0] bcast_S8192_S8192x1_0 (id (broadcastInDim S8192 ![] bcast_S_S8192 (constantI S_ 32 0#32)))⟩,
     ⟨S8192x1, broadcastInDim S8192x1 ![0] bcast_S8192_S8192x1_0 (Sh.wrapNeg n y)⟩,
     ⟨S8192x1, broadcastInDim S8192x1 ![0] bcast_S8192_S8192x1_0 (Sh.wrapNeg n x)⟩]
    concatenates_S8192x1_S8192x1_S8192x1_S8192x1_S8192x4_d1

theorem rowIdx_eq (sw hi n : BitVec 32) (t : FVec F S8192x6 .f32) :
    Sh.rowIdx sw hi n t = idxTab n (Sh.batchIdx t)
      (Sh.cellOf sw hi (extractStridedSlice S8192x1 ![0, 1] (Sh.boxCols t) slices_S8192x4_S8192x1_0_1))
      (Sh.cellOf sw hi (extractStridedSlice S8192x1 ![0, 0] (Sh.boxCols t) slices_S8192x4_S8192x1_0_0)) := rfl

/-! ## The stack of the three gathered tables -/

/-- The result of the operation that stacks the three gathered tables, each table read at its own reference
    (so that the tables' own contents can be read further). -/
theorem stack_result (hxs hy) (G : Valuation τ sig (Elt F)) :
    (StableHlo.nary (τ := τ) ![main_v44, main_v81, main_v118] main_v119
        (fun u => concatenate S24576x11 0 [⟨S8192x11, u 0⟩, ⟨S8192x11, u 1⟩, ⟨S8192x11, u 2⟩]
          concatenates_S8192x11_S8192x11_S8192x11_S24576x11_d0) hxs hy).result G (no_index (Proc.devRef .tc main_v119))
      = concatenate S24576x11 0
          [⟨S8192x11, G (Proc.devRef .tc main_v44)⟩, ⟨S8192x11, G (Proc.devRef .tc main_v81)⟩,
           ⟨S8192x11, G (Proc.devRef .tc main_v118)⟩]
          concatenates_S8192x11_S8192x11_S8192x11_S24576x11_d0 := by
  rw [StableHlo.nary_result]; rfl

/-- Two stacks of three entries of the same shapes are equal when their entries are. -/
theorem concat3_congr {α : Type} {t : Shape} {a : Fin t.rank} {s0 s1 s2 : Shape}
    {x0 y0 : s0.Idx → α} {x1 y1 : s1.Idx → α} {x2 y2 : s2.Idx → α} (h : Shape.Concatenates [s0, s1, s2] t a)
    (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0 e1 e2; rfl

/-! ## What each stretch writes, and that it keeps the rest -/

section Stretches

variable (W : Valuation τ sig (Elt F))

/-- Closes "every operation of the stretch writes a reference of the list". -/
local macro "writes_in_list" : tactic =>
  `(tactic| (
    simp only [List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    repeat' apply And.intro
    all_goals exact List.mem_map_of_mem (by decide)))

/-- Reads a buffer after a long stretch: every operation's result at its own buffer is its function's value
    (a stack read operand by operand), at any other reference what was there, the references told apart by
    deciding. -/
local macro "results_pass" : tactic =>
  `(tactic| (simp (disch := decide) only [StableHlo.after_cons, StableHlo.after_nil,
      StableHlo.nullary_result', StableHlo.unary_result', StableHlo.binary_result', StableHlo.ternary_result',
      StableHlo.reshape_result', StableHlo.nary4_result', stack_result,
      StableHlo.nullary_result_ne', StableHlo.unary_result_ne', StableHlo.binary_result_ne', StableHlo.ternary_result_ne',
      StableHlo.reshape_result_ne', StableHlo.nary_result_ne']))

/-- The references stretch 0 writes. -/
abbrev wr0 : List (Ref sig .tc) := [main_v0, main_v1, main_v2, main_v3, main_v4, main_v5, main_v6]
theorem keep0 (r : Ref sig .tc) (h : r ∉ wr0) : rd(StableHlo.after hostOps0 W, r) = rd(W, r) :=
  StableHlo.after_of_writes_sub hostOps0 W (by writes_in_list) h

/-- Stretch 0 reads the batch column, the class column and the box columns off the target table. -/
theorem s0_v2 : rd(StableHlo.after hostOps0 W, main_v2) = Sh.batchIdx rd(W, main_arg3) := by
  after_results; rfl
theorem s0_v5 : rd(StableHlo.after hostOps0 W, main_v5) = Sh.classIdx rd(W, main_arg3) := by
  after_results; rfl
theorem s0_v6 : rd(StableHlo.after hostOps0 W, main_v6) = Sh.boxCols rd(W, main_arg3) := by
  after_results; rfl

abbrev wr1 : List (Ref sig .tc) := [main_call0_v0, main_call0_v1, main_call0_v2, main_call0_v3, main_call0_v4, main_v7]
theorem keep1 (r : Ref sig .tc) (h : r ∉ wr1) : rd(StableHlo.after hostOps0_1 W, r) = rd(W, r) :=
  StableHlo.after_of_writes_sub hostOps0_1 W (by writes_in_list) h

/-- Stretch 1 makes the one-hot rows of the class column. -/
theorem s1_v7 : rd(StableHlo.after hostOps0_1 W, main_v7) = hotOf rd(W, main_v5) := by
  after_results; rfl

abbrev wr2 : List (Ref sig .tc) := [main_v8, main_v9, main_cst, main_v10, main_v11, main_v12, main_v13, main_c, main_c_0]
theorem keep2 (r : Ref sig .tc) (h : r ∉ wr2) : rd(StableHlo.after hostOps0_2 W, r) = rd(W, r) :=
  StableHlo.after_of_writes_sub hostOps0_2 W (by writes_in_list) h

/-- Stretch 2: the floored product of the x column with 160, and the two clamp bounds. -/
theorem s2_v13 : rd(StableHlo.after hostOps0_2 W, main_v13)
    = rawCell 0x43200000#32 (extractStridedSlice S8192x1 ![0, 0] rd(W, main_v6) slices_S8192x4_S8192x1_0_0) := by
  after_results; rfl
theorem s2_c : rd(StableHlo.after hostOps0_2 W, main_c) = constantI S_ 32 0#32 := by
  after_results
theorem s2_c_0 : rd(StableHlo.after hostOps0_2 W, main_c_0) = constantI S_ 32 159#32 := by
  after_results

abbrev wr3 : List (Ref sig .tc) := [main_call1_v0, main_call1_v1, main_call1_v2, main_call1_v3, main_call1_v4, main_v14]
theorem keep3 (r : Ref sig .tc) (h : r ∉ wr3) : rd(StableHlo.after hostOps0_3 W, r) = rd(W, r) :=
  StableHlo.after_of_writes_sub hostOps0_3 W (by writes_in_list) h

/-- Stretch 3 clamps it. -/
theorem s3_v14 : rd(StableHlo.after hostOps0_3 W, main_v14) = clampOf rd(W, main_c) rd(W, main_c_0) rd(W, main_v13) := by
  after_results; rfl

abbrev wr4 : List (Ref sig .tc) := [main_v15, main_v16, main_cst_1, main_v17, main_v18, main_v19, main_v20, main_c_2, main_c_3]
theorem keep4 (r : Ref sig .tc) (h : r ∉ wr4) : rd(StableHlo.after hostOps0_4 W, r) = rd(W, r) :=
  StableHlo.after_of_writes_sub hostOps0_4 W (by writes_in_list) h

/-- Stretch 4: the same for the y column. -/
theorem s4_v20 : rd(StableHlo.after hostOps0_4 W, main_v20)
    = rawCell 0x43200000#32 (extractStridedSlice S8192x1 ![0, 1] rd(W, main_v6) slices_S8192x4_S8192x1_0_1) := by
  after_results; rfl
theorem s4_c_2 : rd(StableHlo.after hostOps0_4 W, main_c_2) = constantI S_ 32 0#32 := by
  after_results
theorem s4_c_3 : rd(StableHlo.after hostOps0_4 W, main_c_3) = constantI S_ 32 159#32 := by
  after_results

abbrev wr5 : List (Ref sig .tc) := [main_call2_v0, main_call2_v1, main_call2_v2, main_call2_v3, main_call2_v4, main_v21]
theorem keep5 (r : Ref sig .tc) (h : r ∉ wr5) : rd(StableHlo.after hostOps0_5 W, r) = rd(W, r) :=
  StableHlo.after_of_writes_sub hostOps0_5 W (by writes_in_list) h

theorem s5_v21 : rd(StableHlo.after hostOps0_5 W, main_v21) = clampOf rd(W, main_c_2) rd(W, main_c_3) rd(W, main_v20) := by
  after_results; rfl

abbrev wr6 : List (Ref sig .tc) :=
  [main_c_4, main_v22, main_v23, main_c_5, main_v24, main_v25, main_v26, main_c_6, main_v27, main_v28, main_c_7, main_v29, main_v30,
   main_v31, main_c_8, main_v32, main_v33, main_c_9, main_v34, main_v35, main_v36, main_c_10, main_v37, main_v38, main_v39, main_v40,
   main_v41, main_v42, main_v43, main_v44, main_v45, main_v46, main_cst_11, main_v47, main_v48, main_v49, main_v50, main_c_12, main_c_13]
theorem keep6 (r : Ref sig .tc) (h : r ∉ wr6) : rd(StableHlo.after hostOps0_6 W, r) = rd(W, r) :=
  StableHlo.after_of_writes_sub hostOps0_6 W (by writes_in_list) h

/-- Stretch 6: the rows gathered from the map of side 160, then the floored product of the x column with 80
    and the next clamp's bounds. -/
theorem s6_v44 : rd(StableHlo.after hostOps0_6 W, main_v44)
    = Host.gather gather_S32x3x160x160x11_S8192x4_S8192x11_1_0123_n_n_0123_1_111111 rd(W, main_arg0)
        (idxTab 160#32 rd(W, main_v2) rd(W, main_v21) rd(W, main_v14)) := by
  results_pass; rfl
theorem s6_v50 : rd(StableHlo.after hostOps0_6 W, main_v50)
    = rawCell 0x42A00000#32 (extractStridedSlice S8192x1 ![0, 0] rd(W, main_v6) slices_S8192x4_S8192x1_0_0) := by
  after_results; rfl
theorem s6_c_12 : rd(StableHlo.after hostOps0_6 W, main_c_12) = constantI S_ 32 0#32 := by
  after_results
theorem s6_c_13 : rd(StableHlo.after hostOps0_6 W, main_c_13) = constantI S_ 32 79#32 := by
  after_results

abbrev wr7 : List (Ref sig .tc) := [main_call3_v0, main_call3_v1, main_call3_v2, main_call3_v3, main_call3_v4, main_v51]
theorem keep7 (r : Ref sig .tc) (h : r ∉ wr7) : rd(StableHlo.after hostOps0_7 W, r) = rd(W, r) :=
  StableHlo.after_of_writes_sub hostOps0_7 W (by writes_in_list) h

theorem s7_v51 : rd(StableHlo.after hostOps0_7 W, main_v51) = clampOf rd(W, main_c_12) rd(W, main_c_13) rd(W, main_v50) := by
  after_results; rfl

abbrev wr8 : List (Ref sig .tc) := [main_v52, main_v53, main_cst_14, main_v54, main_v55, main_v56, main_v57, main_c_15, main_c_16]
theorem keep8 (r : Ref sig .tc) (h : r ∉ wr8) : rd(StableHlo.after hostOps0_8 W, r) = rd(W, r) :=
  StableHlo.after_of_writes_sub hostOps0_8 W (by writes_in_list) h

theorem s8_v57 : rd(StableHlo.after hostOps0_8 W, main_v57)
    = rawCell 0x42A00000#32 (extractStridedSlice S8192x1 ![0, 1] rd(W, main_v6) slices_S8192x4_S8192x1_0_1) := by
  after_results; rfl
theorem s8_c_15 : rd(StableHlo.after hostOps0_8 W, main_c_15) = constantI S_ 32 0#32 := by
  after_results
theorem s8_c_16 : rd(StableHlo.after hostOps0_8 W, main_c_16) = constantI S_ 32 79#32 := by
  after_results

abbrev wr9 : List (Ref sig .tc) := [main_call4_v0, main_call4_v1, main_call4_v2, main_call4_v3, main_call4_v4, main_v58]
theorem keep9 (r : Ref sig .tc) (h : r ∉ wr9) : rd(StableHlo.after hostOps0_9 W, r) = rd(W, r) :=
  StableHlo.after_of_writes_sub hostOps0_9 W (by writes_in_list) h

theorem s9_v58 : rd(StableHlo.after hostOps0_9 W, main_v58) = clampOf rd(W, main_c_15) rd(W, main_c_16) rd(W, main_v57) := by
  after_results; rfl

abbrev wr10 : List (Ref sig .tc) :=
  [main_c_17, main_v59, main_v60, main_c_18, main_v61, main_v62, main_v63, main_c_19, main_v64, main_v65, main_c_20, main_v66, main_v67,
   main_v68, main_c_21, main_v69, main_v70, main_c_22, main_v71, main_v72, main_v73, main_c_23, main_v74, main_v75, main_v76, main_v77,
   main_v78, main_v79, main_v80, main_v81, main_v82, main_v83, main_cst_24, main_v84, main_v85, main_v86, main_v87, main_c_25, main_c_26]
theorem keep10 (r : Ref sig .tc) (h : r ∉ wr10) : rd(StableHlo.after hostOps0_10 W, r) = rd(W, r) :=
  StableHlo.after_of_writes_sub hostOps0_10 W (by writes_in_list) h

/-- Stretch 10: the rows gathered from the map of side 80, then the floored product of the x column with 40
    and the next clamp's bounds. -/
theorem s10_v81 : rd(StableHlo.after hostOps0_10 W, main_v81)
    = Host.gather gather_S32x3x80x80x11_S8192x4_S8192x11_1_0123_n_n_0123_1_111111 rd(W, main_arg1)
        (idxTab 80#32 rd(W, main_v2) rd(W, main_v58) rd(W, main_v51)) := by
  results_pass; rfl
theorem s10_v87 : rd(StableHlo.after hostOps0_10 W, main_v87)
    = rawCell 0x42200000#32 (extractStridedSlice S8192x1 ![0, 0] rd(W, main_v6) slices_S8192x4_S8192x1_0_0) := by
  after_results; rfl
theorem s10_c_25 : rd(StableHlo.after hostOps0_10 W, main_c_25) = constantI S_ 32 0#32 := by
  after_results
theorem s10_c_26 : rd(StableHlo.after hostOps0_10 W, main_c_26) = constantI S_ 32 39#32 := by
  after_results

abbrev wr11 : List (Ref sig .tc) := [main_call5_v0, main_call5_v1, main_call5_v2, main_call5_v3, main_call5_v4, main_v88]
theorem keep11 (r : Ref sig .tc) (h : r ∉ wr11) : rd(StableHlo.after hostOps0_11 W, r) = rd(W, r) :=
  StableHlo.after_of_writes_sub hostOps0_11 W (by writes_in_list) h

theorem s11_v88 : rd(StableHlo.after hostOps0_11 W, main_v88) = clampOf rd(W, main_c_25) rd(W, main_c_26) rd(W, main_v87) := by
  after_results; rfl

abbrev wr12 : List (Ref sig .tc) := [main_v89, main_v90, main_cst_27, main_v91, main_v92, main_v93, main_v94, main_c_28, main_c_29]
theorem keep12 (r : Ref sig .tc) (h : r ∉ wr12) : rd(StableHlo.after hostOps0_12 W, r) = rd(W, r) :=
  StableHlo.after_of_writes_sub hostOps0_12 W (by writes_in_list) h

theorem s12_v94 : rd(StableHlo.after hostOps0_12 W, main_v94)
    = rawCell 0x42200000#32 (extractStridedSlice S8192x1 ![0, 1] rd(W, main_v6) slices_S8192x4_S8192x1_0_1) := by
  after_results; rfl
theorem s12_c_28 : rd(StableHlo.after hostOps0_12 W, main_c_28) = constantI S_ 32 0#32 := by
  after_results
theorem s12_c_29 : rd(StableHlo.after hostOps0_12 W, main_c_29) = constantI S_ 32 39#32 := by
  after_results

abbrev wr13 : List (Ref sig .tc) := [main_call6_v0, main_call6_v1, main_call6_v2, main_call6_v3, main_call6_v4, main_v95]
theorem keep13 (r : Ref sig .tc) (h : r ∉ wr13) : rd(StableHlo.after hostOps0_13 W, r) = rd(W, r) :=
  StableHlo.after_of_writes_sub hostOps0_13 W (by writes_in_list) h

theorem s13_v95 : rd(StableHlo.after hostOps0_13 W, main_v95) = clampOf rd(W, main_c_28) rd(W, main_c_29) rd(W, main_v94) := by
  after_results; rfl

/-- Stretch 14: the rows gathered from the map of side 40 stacked under the two tables gathered before. -/
theorem s14_v119 : rd(StableHlo.after hostOps0_14 W, main_v119)
    = concatenate S24576x11 0
        [⟨S8192x11, rd(W, main_v44)⟩, ⟨S8192x11, rd(W, main_v81)⟩,
         ⟨S8192x11, Host.gather gather_S32x3x40x40x11_S8192x4_S8192x11_1_0123_n_n_0123_1_111111 rd(W, main_arg2)
            (idxTab 40#32 rd(W, main_v2) rd(W, main_v95) rd(W, main_v88))⟩]
        concatenates_S8192x11_S8192x11_S8192x11_S24576x11_d0 := by
  results_pass
  -- the stack, entry by entry: two tables kept by the thirty lines before it, and the third gather
  refine concat3_congr _ ?_ ?_ ?_
  · results_pass
  · results_pass
  · results_pass; rfl

/-- The box columns repeated three times. -/
theorem s14_v122 : rd(StableHlo.after hostOps0_14 W, main_v122)
    = shapeCast S24576x4 (broadcastInDim S3x8192x1x4 ![0, 1, 2, 3] bcast_S1x8192x1x4_S3x8192x1x4_0_1_2_3
        (shapeCast S1x8192x1x4 rd(W, main_v6) shapeCasts_S8192x4_S1x8192x1x4)) shapeCasts_S3x8192x1x4_S24576x4 := by
  after_results; rfl

/-- The one-hot rows repeated three times. -/
theorem s14_v125 : rd(StableHlo.after hostOps0_14 W, main_v125)
    = shapeCast S24576x6 (broadcastInDim S3x8192x1x6 ![0, 1, 2, 3] bcast_S1x8192x1x6_S3x8192x1x6_0_1_2_3
        (shapeCast S1x8192x1x6 rd(W, main_v7) shapeCasts_S8192x6_S1x8192x1x6)) shapeCasts_S3x8192x1x6_S24576x6 := by
  after_results; rfl

/-! ## A clamp stretch after its product stretch: one cell column -/

/-- The x-cells on the map of side 160, from the box columns. -/
theorem cell_2_3 : rd(StableHlo.after hostOps0_3 (StableHlo.after hostOps0_2 W), main_v14)
    = Sh.cellOf 0x43200000#32 159#32 (extractStridedSlice S8192x1 ![0, 0] rd(W, main_v6) slices_S8192x4_S8192x1_0_0) := by
  rw [s3_v14, s2_c, s2_c_0, s2_v13, cellOf_eq]
/-- The y-cells on the map of side 160. -/
theorem cell_4_5 : rd(StableHlo.after hostOps0_5 (StableHlo.after hostOps0_4 W), main_v21)
    = Sh.cellOf 0x43200000#32 159#32 (extractStridedSlice S8192x1 ![0, 1] rd(W, main_v6) slices_S8192x4_S8192x1_0_1) := by
  rw [s5_v21, s4_c_2, s4_c_3, s4_v20, cellOf_eq]
/-- The x-cells on the map of side 80 (their product is the tail of the first gather's stretch). -/
theorem cell_6_7 : rd(StableHlo.after hostOps0_7 (StableHlo.after hostOps0_6 W), main_v51)
    = Sh.cellOf 0x42A00000#32 79#32 (extractStridedSlice S8192x1 ![0, 0] rd(W, main_v6) slices_S8192x4_S8192x1_0_0) := by
  rw [s7_v51, s6_c_12, s6_c_13, s6_v50, cellOf_eq]
/-- The y-cells on the map of side 80. -/
theorem cell_8_9 : rd(StableHlo.after hostOps0_9 (StableHlo.after hostOps0_8 W), main_v58)
    = Sh.cellOf 0x42A00000#32 79#32 (extractStridedSlice S8192x1 ![0, 1] rd(W, main_v6) slices_S8192x4_S8192x1_0_1) := by
  rw [s9_v58, s8_c_15, s8_c_16, s8_v57, cellOf_eq]
/-- The x-cells on the map of side 40 (their product is the tail of the second gather's stretch). -/
theorem cell_10_11 : rd(StableHlo.after hostOps0_11 (StableHlo.after hostOps0_10 W), main_v88)
    = Sh.cellOf 0x42200000#32 39#32 (extractStridedSlice S8192x1 ![0, 0] rd(W, main_v6) slices_S8192x4_S8192x1_0_0) := by
  rw [s11_v88, s10_c_25, s10_c_26, s10_v87, cellOf_eq]
/-- The y-cells on the map of side 40. -/
theorem cell_12_13 : rd(StableHlo.after hostOps0_13 (StableHlo.after hostOps0_12 W), main_v95)
    = Sh.cellOf 0x42200000#32 39#32 (extractStridedSlice S8192x1 ![0, 1] rd(W, main_v6) slices_S8192x4_S8192x1_0_1) := by
  rw [s13_v95, s12_c_28, s12_c_29, s12_v94, cellOf_eq]

end Stretches

/-! ## From the last stretch back to the launch contents -/

section Entry

variable (m : (ℓ : Loc nD τ sig) → Buf (Elt F) ℓ)

/-- The region-entry contents as the fifteen stretches applied one after the other. -/
theorem V0_nest (c : Dev nD) : V0 m c
    = StableHlo.after hostOps0_14 (StableHlo.after hostOps0_13 (StableHlo.after hostOps0_12 (StableHlo.after hostOps0_11
      (StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
      (StableHlo.after hostOps0_2 (StableHlo.after hostOps0_1 (StableHlo.after hostOps0 (fun b => m (c, b)))))))))))))))) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14]) _ = _
  simp only [List.flatten_cons, List.flatten_nil, List.append_nil, StableHlo.after_append]

/-- Walks a read of reference `r` down through every stretch that does not write `r`. -/
local macro "keep_down " r:term : tactic =>
  `(tactic| (repeat (first
      | rw [keep13 _ $r (by decide)] | rw [keep12 _ $r (by decide)] | rw [keep11 _ $r (by decide)] | rw [keep10 _ $r (by decide)]
      | rw [keep9 _ $r (by decide)] | rw [keep8 _ $r (by decide)] | rw [keep7 _ $r (by decide)] | rw [keep6 _ $r (by decide)]
      | rw [keep5 _ $r (by decide)] | rw [keep4 _ $r (by decide)] | rw [keep3 _ $r (by decide)] | rw [keep2 _ $r (by decide)]
      | rw [keep1 _ $r (by decide)] | rw [keep0 _ $r (by decide)])))

/-- The box columns, three times over, are what the region's second input holds. -/
theorem entry_box (c : Dev nD) : (V m c main_v122 : FVec F S24576x4 .f32)
    = shapeCast S24576x4 (broadcastInDim S3x8192x1x4 ![0, 1, 2, 3] bcast_S1x8192x1x4_S3x8192x1x4_0_1_2_3
        (shapeCast S1x8192x1x4 (Sh.boxCols (m ((c : Thread nD τ).loc main_arg3))) shapeCasts_S8192x4_S1x8192x1x4))
        shapeCasts_S3x8192x1x4_S24576x4 := by
  show rd(V0 m c, main_v122) = _
  rw [V0_nest, s14_v122]
  keep_down main_v6
  rw [s0_v6]

/-- The one-hot class rows, three times over, are what its third input holds. -/
theorem entry_hot (c : Dev nD) : (V m c main_v125 : FVec F S24576x6 .f32)
    = shapeCast S24576x6 (broadcastInDim S3x8192x1x6 ![0, 1, 2, 3] bcast_S1x8192x1x6_S3x8192x1x6_0_1_2_3
        (shapeCast S1x8192x1x6 (Sh.oneHot (m ((c : Thread nD τ).loc main_arg3))) shapeCasts_S8192x6_S1x8192x1x6))
        shapeCasts_S3x8192x1x6_S24576x6 := by
  show rd(V0 m c, main_v125) = _
  rw [V0_nest, s14_v125]
  keep_down main_v7
  rw [s1_v7, s0_v5, oneHot_eq]

/-- The rows gathered from the three maps, stacked, are what its first input holds. -/
theorem entry_rows (c : Dev nD) : (V m c main_v119 : FVec F S24576x11 .f32)
    = concatenate S24576x11 0
        [⟨S8192x11, Sh.rows0 (m ((c : Thread nD τ).loc main_arg0)) (m ((c : Thread nD τ).loc main_arg3))⟩,
         ⟨S8192x11, Sh.rows1 (m ((c : Thread nD τ).loc main_arg1)) (m ((c : Thread nD τ).loc main_arg3))⟩,
         ⟨S8192x11, Sh.rows2 (m ((c : Thread nD τ).loc main_arg2)) (m ((c : Thread nD τ).loc main_arg3))⟩]
        concatenates_S8192x11_S8192x11_S8192x11_S24576x11_d0 := by
  show rd(V0 m c, main_v119) = _
  rw [V0_nest, s14_v119]
  -- the two tables gathered earlier
  keep_down main_v44
  rw [s6_v44]
  keep_down main_v81
  rw [s10_v81]
  -- the six cell columns
  rw [cell_12_13]
  keep_down main_v88
  rw [cell_10_11, cell_8_9]
  keep_down main_v51
  rw [cell_6_7, cell_4_5]
  keep_down main_v14
  rw [cell_2_3]
  -- the box columns, the batch column, the three maps
  keep_down main_v6
  rw [s0_v6]
  keep_down main_v2
  rw [s0_v2]
  keep_down main_arg0
  keep_down main_arg1
  keep_down main_arg2
  simp only [Sh.rows0, Sh.rows1, Sh.rows2, rowIdx_eq]

end Entry

end Cert.KernelIdeal.Acc

end
-- ==== Proof.LossLaws.lean ====
/-
  The algebra on the extended reals that joins an accumulation over six blocks of 4096 rows, scaled by
  2⁻¹³, to three sums over 8192 rows.

  Four facts. A nonnegative finite factor distributes over a sum of extended reals whatever the summands
  are (infinite ones included: multiplying by such a factor never turns a sum's sign, so no `⊤ + ⊥` can
  arise on one side only). A left fold of six terms from zero is the sum of three consecutive pairs, the
  extended reals being a commutative additive monoid. A sum over 8192 rows is the sum over the first 4096
  rows plus the sum over the last 4096; applied to each of the three loss totals, a table's total is the
  sum of its two halves' totals. And the pattern `0x39000000` of the 32-bit format has sign 0, biased
  exponent 114 and fraction 0, so it denotes 2^(114 − 127) = 2⁻¹³ = 1/8192.
-/
import Mathlib.Data.EReal.Operations
import Mathlib.Algebra.BigOperators.Fin
import Idealize.ShloMosaic.PureOps.Ideal
import Idealize.ShloMosaic.Lib.ValueIdx
import proofs.«404462_j67929202753868_3_alg».proof.Proof.LossMath

noncomputable section

namespace Cert.Loss

open Idealize.ShloMosaic

/-! ### A nonnegative finite factor distributes over sums -/

/-- A real `r ≥ 0`, as an extended real, is nonnegative and is not `⊤`; so it distributes over a sum of
three arbitrary extended reals. -/
theorem add3_mul_coe (r : ℝ) (hr : 0 ≤ r) (a b c : EReal) :
    (a + b + c) * (r : EReal) = a * r + b * r + c * r := by
  have h0 : (0 : EReal) ≤ (r : EReal) := by exact_mod_cast hr
  have ht : (r : EReal) ≠ ⊤ := EReal.coe_ne_top r
  rw [EReal.right_distrib_of_nonneg_of_ne_top h0 ht, EReal.right_distrib_of_nonneg_of_ne_top h0 ht]

/-! ### Six blocks are three pairs -/

/-- The left fold of six terms from zero, regrouped into three consecutive pairs. -/
theorem fold6_pairs (b0 b1 b2 b3 b4 b5 : EReal) :
    (((((0 + b0) + b1) + b2) + b3) + b4) + b5 = (b0 + b1) + (b2 + b3) + (b4 + b5) := by
  simp only [zero_add, add_assoc]

/-! ### A table of 8192 rows is its two halves -/

/-- A sum over 8192 rows splits at row 4096. -/
theorem sum_halve (f : Fin 8192 → EReal) :
    ∑ r : Fin 8192, f r
      = (∑ r : Fin 4096, f ⟨r.val, by omega⟩) + ∑ r : Fin 4096, f ⟨4096 + r.val, by omega⟩ := by
  exact Fin.sum_univ_add (a := 4096) (b := 4096) (fun i => f ⟨i.val, by omega⟩)

/-- The box total of a table is the sum of the box totals of its lower and upper halves. -/
theorem boxTot_halves
    (P : (⟨2, ![8192, 11]⟩ : Shape).Idx → EReal) (T : (⟨2, ![8192, 4]⟩ : Shape).Idx → EReal)
    (Plo Phi : (⟨2, ![4096, 11]⟩ : Shape).Idx → EReal) (Tlo Thi : (⟨2, ![4096, 4]⟩ : Shape).Idx → EReal)
    (hPlo : ∀ (r : Fin 4096) (j : Fin 11), Plo (ValueIdx.ix2 r j) = P (ValueIdx.ix2 ⟨r.val, by omega⟩ j))
    (hPhi : ∀ (r : Fin 4096) (j : Fin 11), Phi (ValueIdx.ix2 r j) = P (ValueIdx.ix2 ⟨4096 + r.val, by omega⟩ j))
    (hTlo : ∀ (r : Fin 4096) (j : Fin 4), Tlo (ValueIdx.ix2 r j) = T (ValueIdx.ix2 ⟨r.val, by omega⟩ j))
    (hThi : ∀ (r : Fin 4096) (j : Fin 4), Thi (ValueIdx.ix2 r j) = T (ValueIdx.ix2 ⟨4096 + r.val, by omega⟩ j)) :
    boxTot Plo Tlo + boxTot Phi Thi = boxTot P T := by
  simp only [boxTot, hPlo, hPhi, hTlo, hThi]
  exact (sum_halve (fun r => boxRow (fun j => P (ValueIdx.ix2 r j)) (fun j => T (ValueIdx.ix2 r j)))).symm

/-- The objectness total of a table is the sum of the objectness totals of its halves. -/
theorem objTot_halves
    (P : (⟨2, ![8192, 11]⟩ : Shape).Idx → EReal)
    (Plo Phi : (⟨2, ![4096, 11]⟩ : Shape).Idx → EReal)
    (hPlo : ∀ (r : Fin 4096) (j : Fin 11), Plo (ValueIdx.ix2 r j) = P (ValueIdx.ix2 ⟨r.val, by omega⟩ j))
    (hPhi : ∀ (r : Fin 4096) (j : Fin 11), Phi (ValueIdx.ix2 r j) = P (ValueIdx.ix2 ⟨4096 + r.val, by omega⟩ j)) :
    objTot Plo + objTot Phi = objTot P := by
  simp only [objTot, hPlo, hPhi]
  exact (sum_halve (fun r => objRow (fun j => P (ValueIdx.ix2 r j)))).symm

/-- The class total of a table is the sum of the class totals of its halves. -/
theorem clsTot_halves
    (P : (⟨2, ![8192, 11]⟩ : Shape).Idx → EReal) (O : (⟨2, ![8192, 6]⟩ : Shape).Idx → EReal)
    (Plo Phi : (⟨2, ![4096, 11]⟩ : Shape).Idx → EReal) (Olo Ohi : (⟨2, ![4096, 6]⟩ : Shape).Idx → EReal)
    (hPlo : ∀ (r : Fin 4096) (j : Fin 11), Plo (ValueIdx.ix2 r j) = P (ValueIdx.ix2 ⟨r.val, by omega⟩ j))
    (hPhi : ∀ (r : Fin 4096) (j : Fin 11), Phi (ValueIdx.ix2 r j) = P (ValueIdx.ix2 ⟨4096 + r.val, by omega⟩ j))
    (hOlo : ∀ (r : Fin 4096) (k : Fin 6), Olo (ValueIdx.ix2 r k) = O (ValueIdx.ix2 ⟨r.val, by omega⟩ k))
    (hOhi : ∀ (r : Fin 4096) (k : Fin 6), Ohi (ValueIdx.ix2 r k) = O (ValueIdx.ix2 ⟨4096 + r.val, by omega⟩ k)) :
    clsTot Plo Olo + clsTot Phi Ohi = clsTot P O := by
  simp only [clsTot, hPlo, hPhi, hOlo, hOhi]
  exact (sum_halve (fun r => clsRow (fun j => P (ValueIdx.ix2 r j)) (fun k => O (ValueIdx.ix2 r k)))).symm

/-! ### The two constants -/

/-- Sign 0, biased exponent 114, fraction 0: the pattern denotes 2^(114 − 127) = 1/8192. -/
theorem ofBits_inv8192 : Ideal.ofBits .f32 0x39000000#32 = (((1 / 8192 : ℝ)) : EReal) := by
  simp [Ideal.ofBits, Ideal.ieee, -EReal.coe_mul]; norm_num

/-- The all-zero pattern denotes `0`. -/
theorem ofBits_zero : Ideal.ofBits .f32 0x00000000#32 = 0 := by
  simp [Ideal.ofBits, Ideal.ieee]

/-! ### The joining law -/

/-- Six block totals folded from zero, scaled by 2⁻¹³ and then by any `g`, equal the three pair totals each
scaled by 2⁻¹³, folded from zero, and then scaled by `g`. -/
theorem join (g b0 b1 b2 b3 b4 b5 B0 B1 B2 : EReal)
    (h0 : b0 + b1 = B0) (h1 : b2 + b3 = B1) (h2 : b4 + b5 = B2) :
    ((((((0 + b0) + b1) + b2) + b3) + b4) + b5) * Ideal.ofBits .f32 0x39000000#32 * g
      = (((0 + B0 * (((1 / 8192 : ℝ)) : EReal)) + B1 * (((1 / 8192 : ℝ)) : EReal))
          + B2 * (((1 / 8192 : ℝ)) : EReal)) * g := by
  rw [fold6_pairs, h0, h1, h2, ofBits_inv8192, add3_mul_coe _ (by norm_num), zero_add]

/-! ### Softplus, as two programs spell it -/

/-- Subtracting zero and negating by subtracting from zero change nothing. -/
theorem sp_spelled_sub (x : EReal) :
    max x 0 + Ideal.log1p (Ideal.exp (0 - max (x - 0) (-(x - 0)))) = sp x := by
  simp only [sp, sub_zero, zero_sub]

theorem sp_spelled_neg (x : EReal) :
    max x 0 + Ideal.log1p (Ideal.exp (-(max (x - 0) (-(x - 0))))) = sp x := by
  simp only [sp, sub_zero]

end Cert.Loss

end
-- ==== Proof.KernelIdeal.Value.lean ====
/-
  The kernel's four results as extended reals.

  Lane 0 of row 0 of the output block is, after the first point, zero plus the first block's box total, and after
  each later point what it was plus that point's box total; lanes 1 and 2 likewise with the objectness and the
  class totals. After the sixth point lane `l` is the left-nested sum of the six block totals onto zero. Points
  2ℓ and 2ℓ + 1 see the two halves of gathered table ℓ (against the matching halves of the box columns and the
  one-hot rows), so each pair of block totals is one table's total. Each result is its lane times 2⁻¹³ times its
  gain; a positive finite factor distributes over a sum of extended reals whatever the summands, so this is the
  sum over the three tables of (total · 1/8192), onto zero, times the gain.
-/
import proofs.«404462_j67929202753868_3_alg».proof.Proof.KernelIdeal.Out
import proofs.«404462_j67929202753868_3_alg».proof.Proof.KernelIdeal.Payload
import proofs.«404462_j67929202753868_3_alg».proof.Proof.KernelIdeal.Blocks
import proofs.«404462_j67929202753868_3_alg».proof.Proof.KernelIdeal.Entry
import proofs.«404462_j67929202753868_3_alg».proof.Proof.LossLaws

noncomputable section

namespace Cert.KernelIdeal.Acc

open Cert.KernelIdeal Cert.KernelIdeal.Gen
open Idealize.ShloMosaic Idealize.ShloMosaic.TcCoe Idealize.SL.Sem
open Idealize.ShloMosaic.ValueIdx (ix2 ix3)

variable (m : (ℓ : Loc nD τ sig) → Buf (Elt Ideal) ℓ)

/-- Lane `l` of row 0, as an index of the output block and of the stored row. -/
abbrev lane (l : Fin 128) : S1x8x128.Idx := ix3 (0 : Fin 1) (0 : Fin 8) l
abbrev lane1 (l : Fin 128) : S1x1x128.Idx := ix3 (0 : Fin 1) (0 : Fin 1) l

theorem emb_lane (l : Fin 128) : r0.emb (lane1 l) = lane l := by
  funext a; apply Fin.ext; rw [Rect.emb_apply]
  match a with
  | ⟨0, _⟩ => rfl
  | ⟨1, _⟩ => rfl
  | ⟨2, _⟩ => show 0 + 1 * l.val = l.val; omega

theorem ld_lane (X : Vec Ideal S1x8x128 .f32) (l : Fin 128) : View.ld X r0 (lane1 l) = X (lane l) :=
  congrArg X (emb_lane l)

/-- Row 0 of the zero fill is zero. -/
theorem zero_row (l : Fin 128) : View.ld (Val := Elt Ideal) (e' := EltTy.f32) (k0_pay2 (F := Ideal)) r0 (lane1 l) = 0 := zero_word

/-- The three totals of the block a point sees. -/
abbrev bx (c : Dev nD) (t : Fin cfg0.N) : EReal := Cert.Loss.boxTot (n := 4096) (xblk m c t) (tblk m c t)
abbrev ob (c : Dev nD) (t : Fin cfg0.N) : EReal := Cert.Loss.objTot (n := 4096) (xblk m c t)
abbrev cl (c : Dev nD) (t : Fin cfg0.N) : EReal := Cert.Loss.clsTot (n := 4096) (xblk m c t) (oblk m c t)

/-! ## One point -/

theorem laneA0 (c : Dev nD) (t : Fin cfg0.N) (h0 : t.val % 6 = 0) : outsAt0 m c t.val t.isLt (lane 0) = 0 + bx m c t := by
  refine (congrArg (outsAt0 m c t.val t.isLt) (emb_lane 0)).symm.trans ?_
  rw [outsAt0_A m c t h0, out_A_row]
  exact (row_lane0 _ _ _ _).trans (by rw [zero_row])
theorem laneA1 (c : Dev nD) (t : Fin cfg0.N) (h0 : t.val % 6 = 0) : outsAt0 m c t.val t.isLt (lane 1) = 0 + ob m c t := by
  refine (congrArg (outsAt0 m c t.val t.isLt) (emb_lane 1)).symm.trans ?_
  rw [outsAt0_A m c t h0, out_A_row]
  exact (row_lane1 _ _ _ _).trans (by rw [zero_row])
theorem laneA2 (c : Dev nD) (t : Fin cfg0.N) (h0 : t.val % 6 = 0) : outsAt0 m c t.val t.isLt (lane 2) = 0 + cl m c t := by
  refine (congrArg (outsAt0 m c t.val t.isLt) (emb_lane 2)).symm.trans ?_
  rw [outsAt0_A m c t h0, out_A_row]
  exact (row_lane2 _ _ _ _).trans (by rw [zero_row])

theorem laneB0 (c : Dev nD) (t : Fin cfg0.N) (h0 : ¬t.val % 6 = 0) :
    outsAt0 m c t.val t.isLt (lane 0) = outsAt0 m c (t.val - 1) (Nat.lt_of_le_of_lt (Nat.sub_le _ _) t.isLt) (lane 0) + bx m c t := by
  refine (congrArg (outsAt0 m c t.val t.isLt) (emb_lane 0)).symm.trans ?_
  rw [outsAt0_B m c t h0, out_B_row]
  exact (row_lane0 _ _ _ _).trans (by rw [ld_lane])
theorem laneB1 (c : Dev nD) (t : Fin cfg0.N) (h0 : ¬t.val % 6 = 0) :
    outsAt0 m c t.val t.isLt (lane 1) = outsAt0 m c (t.val - 1) (Nat.lt_of_le_of_lt (Nat.sub_le _ _) t.isLt) (lane 1) + ob m c t := by
  refine (congrArg (outsAt0 m c t.val t.isLt) (emb_lane 1)).symm.trans ?_
  rw [outsAt0_B m c t h0, out_B_row]
  exact (row_lane1 _ _ _ _).trans (by rw [ld_lane])
theorem laneB2 (c : Dev nD) (t : Fin cfg0.N) (h0 : ¬t.val % 6 = 0) :
    outsAt0 m c t.val t.isLt (lane 2) = outsAt0 m c (t.val - 1) (Nat.lt_of_le_of_lt (Nat.sub_le _ _) t.isLt) (lane 2) + cl m c t := by
  refine (congrArg (outsAt0 m c t.val t.isLt) (emb_lane 2)).symm.trans ?_
  rw [outsAt0_B m c t h0, out_B_row]
  exact (row_lane2 _ _ _ _).trans (by rw [ld_lane])

/-! ## The six points -/

theorem fold0 (c : Dev nD) : result m c (lane 0)
    = (((((0 + bx m c t0_0) + bx m c t0_1) + bx m c t0_2) + bx m c t0_3) + bx m c t0_4) + bx m c t0_5 :=
  (laneB0 m c t0_5 (by decide)).trans (congrArg (· + bx m c t0_5)
    ((laneB0 m c t0_4 (by decide)).trans (congrArg (· + bx m c t0_4)
      ((laneB0 m c t0_3 (by decide)).trans (congrArg (· + bx m c t0_3)
        ((laneB0 m c t0_2 (by decide)).trans (congrArg (· + bx m c t0_2)
          ((laneB0 m c t0_1 (by decide)).trans (congrArg (· + bx m c t0_1) (laneA0 m c t0_0 rfl))))))))))
theorem fold1 (c : Dev nD) : result m c (lane 1)
    = (((((0 + ob m c t0_0) + ob m c t0_1) + ob m c t0_2) + ob m c t0_3) + ob m c t0_4) + ob m c t0_5 :=
  (laneB1 m c t0_5 (by decide)).trans (congrArg (· + ob m c t0_5)
    ((laneB1 m c t0_4 (by decide)).trans (congrArg (· + ob m c t0_4)
      ((laneB1 m c t0_3 (by decide)).trans (congrArg (· + ob m c t0_3)
        ((laneB1 m c t0_2 (by decide)).trans (congrArg (· + ob m c t0_2)
          ((laneB1 m c t0_1 (by decide)).trans (congrArg (· + ob m c t0_1) (laneA1 m c t0_0 rfl))))))))))
theorem fold2 (c : Dev nD) : result m c (lane 2)
    = (((((0 + cl m c t0_0) + cl m c t0_1) + cl m c t0_2) + cl m c t0_3) + cl m c t0_4) + cl m c t0_5 :=
  (laneB2 m c t0_5 (by decide)).trans (congrArg (· + cl m c t0_5)
    ((laneB2 m c t0_4 (by decide)).trans (congrArg (· + cl m c t0_4)
      ((laneB2 m c t0_3 (by decide)).trans (congrArg (· + cl m c t0_3)
        ((laneB2 m c t0_2 (by decide)).trans (congrArg (· + cl m c t0_2)
          ((laneB2 m c t0_1 (by decide)).trans (congrArg (· + cl m c t0_1) (laneA2 m c t0_0 rfl))))))))))

/-! ## The scalars the host lines take -/

/-- The one-element slice at lane `k` of row 0, read as a scalar, is that lane. -/
theorem scalar_of (k : Fin 128) (off : Fin 3 → ℕ) (hoff : off = ![0, 0, k.val]) (o : FVec Ideal S1x8x128 .f32)
    (h : S1x8x128.Slices off S1x1x1) (h' : S1x1x1.ShapeCasts S_) (i : S_.Idx) :
    shapeCast S_ (extractStridedSlice S1x1x1 off o h) h' i = o (lane k) := by
  subst hoff
  refine (shapeCast_apply _ h' i (ix3 (0 : Fin 1) (0 : Fin 1) (0 : Fin 1)) ?_).trans ?_
  · have h1 := (S1x1x1.rowMajor (ix3 (0 : Fin 1) (0 : Fin 1) (0 : Fin 1))).isLt
    have h2 := (S_.rowMajor i).isLt
    have e1 : S1x1x1.numel = 1 := by decide
    have e2 : S_.numel = 1 := by decide
    omega
  · exact extractStridedSlice_apply _ o h _ (lane k) (fun a => by
      match a with
      | ⟨0, _⟩ => rfl
      | ⟨1, _⟩ => rfl
      | ⟨2, _⟩ => show k.val = k.val + 0; omega)

theorem outBox_apply (o : FVec Ideal S1x8x128 .f32) :
    outBox (F := Ideal) o = fun _ => (o (lane 0) * Ideal.ofBits .f32 0x39000000#32) * Ideal.ofBits .f32 0x40F00000#32 := by
  funext i
  show (shapeCast S_ (extractStridedSlice S1x1x1 ![0, 0, 0] o slices_S1x8x128_S1x1x1_0_0_0) shapeCasts_S1x1x1_S_ i * Ideal.ofBits .f32 0x39000000#32) * Ideal.ofBits .f32 0x40F00000#32 = _
  rw [scalar_of 0 ![0, 0, 0] rfl o slices_S1x8x128_S1x1x1_0_0_0 shapeCasts_S1x1x1_S_ i]
theorem outObj_apply (o : FVec Ideal S1x8x128 .f32) :
    outObj (F := Ideal) o = fun _ => (o (lane 1) * Ideal.ofBits .f32 0x39000000#32) * Ideal.ofBits .f32 0x3FC00000#32 := by
  funext i
  show (shapeCast S_ (extractStridedSlice S1x1x1 ![0, 0, 1] o slices_S1x8x128_S1x1x1_0_0_1) shapeCasts_S1x1x1_S_ i * Ideal.ofBits .f32 0x39000000#32) * Ideal.ofBits .f32 0x3FC00000#32 = _
  rw [scalar_of 1 ![0, 0, 1] rfl o slices_S1x8x128_S1x1x1_0_0_1 shapeCasts_S1x1x1_S_ i]
theorem outCls_apply (o : FVec Ideal S1x8x128 .f32) :
    outCls (F := Ideal) o = fun _ => (o (lane 2) * Ideal.ofBits .f32 0x39000000#32) * Ideal.ofBits .f32 0x3F000000#32 := by
  funext i
  show (shapeCast S_ (extractStridedSlice S1x1x1 ![0, 0, 2] o slices_S1x8x128_S1x1x1_0_0_2) shapeCasts_S1x1x1_S_ i * Ideal.ofBits .f32 0x39000000#32) * Ideal.ofBits .f32 0x3F000000#32 = _
  rw [scalar_of 2 ![0, 0, 2] rfl o slices_S1x8x128_S1x1x1_0_0_2 shapeCasts_S1x1x1_S_ i]

/-! ## The results over the three gathered tables -/

section Tables
variable (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "cc" => (((1 / 8192 : ℝ)) : EReal)

/-- The box result: the three tables' box totals, each times 1/8192, added onto zero, times the gain. -/
theorem kv_box : outBox (F := Ideal) (result m c) = fun _ =>
    (((0 + Cert.Loss.boxTot (n := 8192) (Sh.rows0 (F := Ideal) a0 a3) (Sh.boxCols (F := Ideal) a3) * cc)
        + Cert.Loss.boxTot (n := 8192) (Sh.rows1 (F := Ideal) a1 a3) (Sh.boxCols (F := Ideal) a3) * cc)
        + Cert.Loss.boxTot (n := 8192) (Sh.rows2 (F := Ideal) a2 a3) (Sh.boxCols (F := Ideal) a3) * cc) * Ideal.ofBits .f32 0x40F00000#32 := by
  rw [outBox_apply, fold0]
  funext _
  exact Cert.Loss.join _ _ _ _ _ _ _ _ _ _
    (Cert.Loss.boxTot_halves _ _ _ _ _ _ (xblk_t0 m c (entry_rows m c)) (xblk_t1 m c (entry_rows m c)) (tblk_t0 m c (entry_box m c)) (tblk_t1 m c (entry_box m c)))
    (Cert.Loss.boxTot_halves _ _ _ _ _ _ (xblk_t2 m c (entry_rows m c)) (xblk_t3 m c (entry_rows m c)) (tblk_t2 m c (entry_box m c)) (tblk_t3 m c (entry_box m c)))
    (Cert.Loss.boxTot_halves _ _ _ _ _ _ (xblk_t4 m c (entry_rows m c)) (xblk_t5 m c (entry_rows m c)) (tblk_t4 m c (entry_box m c)) (tblk_t5 m c (entry_box m c)))

theorem kv_obj : outObj (F := Ideal) (result m c) = fun _ =>
    (((0 + Cert.Loss.objTot (n := 8192) (Sh.rows0 (F := Ideal) a0 a3) * cc)
        + Cert.Loss.objTot (n := 8192) (Sh.rows1 (F := Ideal) a1 a3) * cc)
        + Cert.Loss.objTot (n := 8192) (Sh.rows2 (F := Ideal) a2 a3) * cc) * Ideal.ofBits .f32 0x3FC00000#32 := by
  rw [outObj_apply, fold1]
  funext _
  exact Cert.Loss.join _ _ _ _ _ _ _ _ _ _
    (Cert.Loss.objTot_halves _ _ _ (xblk_t0 m c (entry_rows m c)) (xblk_t1 m c (entry_rows m c)))
    (Cert.Loss.objTot_halves _ _ _ (xblk_t2 m c (entry_rows m c)) (xblk_t3 m c (entry_rows m c)))
    (Cert.Loss.objTot_halves _ _ _ (xblk_t4 m c (entry_rows m c)) (xblk_t5 m c (entry_rows m c)))

theorem kv_cls : outCls (F := Ideal) (result m c) = fun _ =>
    (((0 + Cert.Loss.clsTot (n := 8192) (Sh.rows0 (F := Ideal) a0 a3) (Sh.oneHot (F := Ideal) a3) * cc)
        + Cert.Loss.clsTot (n := 8192) (Sh.rows1 (F := Ideal) a1 a3) (Sh.oneHot (F := Ideal) a3) * cc)
        + Cert.Loss.clsTot (n := 8192) (Sh.rows2 (F := Ideal) a2 a3) (Sh.oneHot (F := Ideal) a3) * cc) * Ideal.ofBits .f32 0x3F000000#32 := by
  rw [outCls_apply, fold2]
  funext _
  exact Cert.Loss.join _ _ _ _ _ _ _ _ _ _
    (Cert.Loss.clsTot_halves _ _ _ _ _ _ (xblk_t0 m c (entry_rows m c)) (xblk_t1 m c (entry_rows m c)) (oblk_t0 m c (entry_hot m c)) (oblk_t1 m c (entry_hot m c)))
    (Cert.Loss.clsTot_halves _ _ _ _ _ _ (xblk_t2 m c (entry_rows m c)) (xblk_t3 m c (entry_rows m c)) (oblk_t2 m c (entry_hot m c)) (oblk_t3 m c (entry_hot m c)))
    (Cert.Loss.clsTot_halves _ _ _ _ _ _ (xblk_t4 m c (entry_rows m c)) (xblk_t5 m c (entry_rows m c)) (oblk_t4 m c (entry_hot m c)) (oblk_t5 m c (entry_hot m c)))

end Tables

end Cert.KernelIdeal.Acc

end
-- ==== Proof.Ref.Layer.lean ====
/-
  The reference's loss, as functions of the gathered rows, at any float instance.

  For one prediction map, with `P` the 8192 gathered rows of 11 entries, `T` the box columns and `OH` the one-hot
  class rows, the reference forms three sums over all targets: the absolute differences of the first four entries
  from the box; softplus of minus the fifth entry; and over the six class entries softplus of the entry minus the
  entry times its one-hot weight. Here softplus is spelt as the reference spells it:
  `max x 0 + log1p (exp (−|x − 0|))`, under a selection that chooses `x + 0` where `x − 0` differs from itself.
  Each sum is scaled by `1 / max(1, 8192)`, the three maps' scaled sums are added onto zero, and the result is
  multiplied by the term's gain (7.5, 1.5, 0.5); the total is their sum.
-/
import proofs.«404462_j67929202753868_3_alg».proof.Proof.Gen.ReferenceIdeal

noncomputable section

namespace Cert.ReferenceIdeal.Hand

open Cert.ReferenceIdeal Cert.ReferenceIdeal.Facts₀ Idealize.ShloMosaic Idealize.SL.Sem

variable {F : FTy → Type} [FloatOps F]

/-- Softplus of a column of 8192 entries, as the reference spells it. -/
def softplus1 (x : FVec F S8192 .f32) : FVec F S8192 .f32 :=
  select (cmpf .une (subf x (broadcastInDim S8192 ![] bcast_S_S8192 (constant S_ .f32 0x00000000#32)))
                    (subf x (broadcastInDim S8192 ![] bcast_S_S8192 (constant S_ .f32 0x00000000#32))))
    (addf x (broadcastInDim S8192 ![] bcast_S_S8192 (constant S_ .f32 0x00000000#32)))
    (addf (maximumf x (broadcastInDim S8192 ![] bcast_S_S8192 (constant S_ .f32 0x00000000#32)))
      (Host.log1p (Host.exp (Host.negf (Host.absf (subf x (broadcastInDim S8192 ![] bcast_S_S8192 (constant S_ .f32 0x00000000#32))))))))

/-- Softplus of the 8192 × 6 class entries, as the reference spells it. -/
def softplus6 (x : FVec F S8192x6 .f32) : FVec F S8192x6 .f32 :=
  select (cmpf .une (subf x (broadcastInDim S8192x6 ![] bcast_S_S8192x6 (constant S_ .f32 0x00000000#32)))
                    (subf x (broadcastInDim S8192x6 ![] bcast_S_S8192x6 (constant S_ .f32 0x00000000#32))))
    (addf x (broadcastInDim S8192x6 ![] bcast_S_S8192x6 (constant S_ .f32 0x00000000#32)))
    (addf (maximumf x (broadcastInDim S8192x6 ![] bcast_S_S8192x6 (constant S_ .f32 0x00000000#32)))
      (Host.log1p (Host.exp (Host.negf (Host.absf (subf x (broadcastInDim S8192x6 ![] bcast_S_S8192x6 (constant S_ .f32 0x00000000#32))))))))

/-- One map's box sum: the sum over all targets and the four box entries of `|P − T|`, onto zero. -/
def boxSum (P : FVec F S8192x11 .f32) (T : FVec F S8192x4 .f32) : FVec F S_ .f32 :=
  Host.reduceAdd (Host.absf (subf (extractStridedSlice S8192x4 ![0, 0] P slices_S8192x11_S8192x4_0_0) T))
    (constant S_ .f32 0x00000000#32) reducesTo_S8192x4_S_d0_1 h_S_

/-- One map's objectness sum: the sum over all targets of softplus of minus entry 4. -/
def objSum (P : FVec F S8192x11 .f32) : FVec F S_ .f32 :=
  Host.reduceAdd (softplus1 (Host.negf (shapeCast S8192 (extractStridedSlice S8192x1 ![0, 4] P slices_S8192x11_S8192x1_0_4) shapeCasts_S8192x1_S8192)))
    (constant S_ .f32 0x00000000#32) reducesTo_S8192_S_d0 h_S_

/-- One map's class sum: over all targets and the six class entries, softplus of the entry minus entry × weight. -/
def clsSum (P : FVec F S8192x11 .f32) (OH : FVec F S8192x6 .f32) : FVec F S_ .f32 :=
  Host.reduceAdd (subf (softplus6 (extractStridedSlice S8192x6 ![0, 5] P slices_S8192x11_S8192x6_0_5))
      (mulf (extractStridedSlice S8192x6 ![0, 5] P slices_S8192x11_S8192x6_0_5) OH))
    (constant S_ .f32 0x00000000#32) reducesTo_S8192x6_S_d0_1 h_S_

/-- The reference's scale: one over the larger of 1 and 8192, computed. -/
def invN : FVec F S_ .f32 :=
  Host.divf (constant S_ .f32 0x3F800000#32) (sitofp .f32 (maxsi (constantI S_ 32 1#32) (constantI S_ 32 8192#32)))

/-- Three maps' sums, each scaled, added onto zero, times the gain word `g`. -/
def scaled (s0 s1 s2 : FVec F S_ .f32) (g : BitVec 32) : FVec F S_ .f32 :=
  mulf (addf (addf (addf (constant S_ .f32 0x00000000#32) (mulf s0 invN)) (mulf s1 invN)) (mulf s2 invN)) (constant S_ .f32 g)

/-- The reference's four results from the three gathered tables, the box columns and the one-hot rows. -/
def lbox (P0 P1 P2 : FVec F S8192x11 .f32) (T : FVec F S8192x4 .f32) : FVec F S_ .f32 :=
  scaled (boxSum P0 T) (boxSum P1 T) (boxSum P2 T) 0x40F00000#32
def lobj (P0 P1 P2 : FVec F S8192x11 .f32) : FVec F S_ .f32 :=
  scaled (objSum P0) (objSum P1) (objSum P2) 0x3FC00000#32
def lcls (P0 P1 P2 : FVec F S8192x11 .f32) (OH : FVec F S8192x6 .f32) : FVec F S_ .f32 :=
  scaled (clsSum P0 OH) (clsSum P1 OH) (clsSum P2 OH) 0x3F000000#32
def total (P0 P1 P2 : FVec F S8192x11 .f32) (T : FVec F S8192x4 .f32) (OH : FVec F S8192x6 .f32) : FVec F S_ .f32 :=
  addf (addf (lbox P0 P1 P2 T) (lobj P0 P1 P2)) (lcls P0 P1 P2 OH)

end Cert.ReferenceIdeal.Hand

end
-- ==== Proof.Ref.Sums.lean ====
/-
  The reference's layer sums, read on the extended reals.

  At the ideal instance a float is an extended real and every operation of the reference is the extended reals' own.
  The reference spells softplus of `x` as a selection: where `x − 0` differs from itself it takes `x + 0`, and
  otherwise `max x 0 + log1p (exp (−|x − 0|))`. No extended real differs from itself, so the selection always takes
  the second value, and with `x − 0 = x` and `|y| = max y (−y)` that value is `Cert.Loss.sp x`.
  A sum over every axis into a scalar is the initial value, zero, plus the sum over every index of the operand;
  splitting a rank-2 index into its row and column turns it into the sum over rows of the row's term. The slices
  read the table at a shifted column: columns 0..3 for the box, column 4 for the objectness, columns 5..10 for the
  classes. The scale is `1 / max(1, 8192) = 1 / 8192`, and dividing by the real 8192 is multiplying by `1 / 8192`.
-/
import proofs.«404462_j67929202753868_3_alg».proof.Proof.Ref.Layer
import proofs.«404462_j67929202753868_3_alg».proof.Proof.LossMath
import Idealize.ShloMosaic.PureOps.Ideal.Laws
import Idealize.ShloMosaic.Lib.ValueIdx
import Idealize.ShloMosaic.Lib.ValueIdxRank1
import Idealize.ShloMosaic.Lib.Pipeline.Value

noncomputable section

open scoped BigOperators

namespace Cert.ReferenceIdeal.Hand

open Cert.ReferenceIdeal Cert.ReferenceIdeal.Facts₀ Idealize.ShloMosaic Idealize.SL.Sem Idealize.ShloMosaic.ValueIdx

/-! ## Softplus at one extended real -/

/-- No extended real differs from itself: the reference's test `a ≠ a` is the zero bit. -/
theorem cmp_une_self (a : EReal) : Ideal.cmp .une a a = 0#1 := by
  simp [Ideal.cmp]

/-- The reference's spelling of softplus at one extended real is `Cert.Loss.sp`. -/
theorem sp_spelling (x : EReal) :
    Scalar.select (Ideal.cmp .une (x - 0) (x - 0)) (x + 0)
        (max x 0 + Ideal.log1p (Ideal.exp (-(max (x - 0) (-(x - 0)))))) = Cert.Loss.sp x := by
  rw [cmp_une_self, select_zero, sub_zero]
  rfl

/-! ## The zero splats -/

/-- The zero scalar spread over the 8192 targets is zero everywhere. -/
theorem zero8192_apply (i : S8192.Idx) :
    broadcastInDim S8192 ![] bcast_S_S8192 (constant (F := Ideal) S_ .f32 0x00000000#32) i = 0 := by
  rw [broadcastInDim_apply _ bcast_S_S8192 _ i (fun a => a.elim0) (fun a => a.elim0)]
  exact Ideal.ofBits_zero_f32

/-- The zero scalar spread over the 8192 × 6 class entries is zero everywhere. -/
theorem zero8192x6_apply (i : S8192x6.Idx) :
    broadcastInDim S8192x6 ![] bcast_S_S8192x6 (constant (F := Ideal) S_ .f32 0x00000000#32) i = 0 := by
  rw [broadcastInDim_apply _ bcast_S_S8192x6 _ i (fun a => a.elim0) (fun a => a.elim0)]
  exact Ideal.ofBits_zero_f32

/-- Softplus of a column, entry by entry. -/
theorem softplus1_apply (x : FVec Ideal S8192 .f32) (i : S8192.Idx) :
    softplus1 (F := Ideal) x i = Cert.Loss.sp (x i) := by
  have h := sp_spelling (x i)
  rw [← zero8192_apply i] at h
  exact h

/-- Softplus of the class entries, entry by entry. -/
theorem softplus6_apply (x : FVec Ideal S8192x6 .f32) (i : S8192x6.Idx) :
    softplus6 (F := Ideal) x i = Cert.Loss.sp (x i) := by
  have h := sp_spelling (x i)
  rw [← zero8192x6_apply i] at h
  exact h

/-! ## A sum over every axis into a scalar -/

/-- The reference's sum of a table over every axis, from the zero scalar, is the sum over every index. -/
theorem reduce_total {s : Shape} {axes : List (Fin s.rank)} (h : s.ReducesTo axes S_) (y : FVec Ideal s .f32)
    (i : S_.Idx) :
    Host.reduceAdd y (constant (F := Ideal) S_ .f32 0x00000000#32) h h_S_ i = ∑ j : s.Idx, y j := by
  simp only [Host.reduceAdd, Ideal.hostReduceAdd_def]
  rw [Ideal.hostReduceAdd_total h (fun b => b.elim0) y _ i]
  show Ideal.ofBits .f32 0x00000000#32 + _ = _
  rw [Ideal.ofBits_zero_f32, zero_add]

/-! ## The slices of the gathered table, entry by entry -/

/-- The box slice reads columns 0..3. -/
theorem boxSlice_apply (P : FVec Ideal S8192x11 .f32) (r : Fin 8192) (j : Fin 4) :
    extractStridedSlice S8192x4 ![0, 0] P slices_S8192x11_S8192x4_0_0 (ix2 r j)
      = P (ix2 r (Fin.castLE (by decide) j)) :=
  extractStridedSlice_apply ![0, 0] P slices_S8192x11_S8192x4_0_0 (ix2 r j) (ix2 r (Fin.castLE (by decide) j))
    (fun a => match a with
      | ⟨0, _⟩ => by show r.val = 0 + r.val; omega
      | ⟨1, _⟩ => by show j.val = 0 + j.val; omega)

/-- The objectness slice, reshaped to a column, reads column 4. -/
theorem objSlice_apply (P : FVec Ideal S8192x11 .f32) (r : Fin 8192) :
    shapeCast S8192 (extractStridedSlice S8192x1 ![0, 4] P slices_S8192x11_S8192x1_0_4) shapeCasts_S8192x1_S8192 (ix1 r)
      = P (ix2 r 4) := by
  rw [shapeCast_apply _ shapeCasts_S8192x1_S8192 (ix1 r) (ix2 r (0 : Fin 1))
    (by rewrite [Shape.rowMajor_val_two, Shape.rowMajor_val_one]; show r.val * 1 + 0 = r.val; omega)]
  exact extractStridedSlice_apply ![0, 4] P slices_S8192x11_S8192x1_0_4 (ix2 r (0 : Fin 1)) (ix2 r (4 : Fin 11))
    (fun a => match a with
      | ⟨0, _⟩ => by show r.val = 0 + r.val; omega
      | ⟨1, _⟩ => by show 4 = 4 + 0; rfl)

/-- The class slice reads columns 5..10. -/
theorem clsSlice_apply (P : FVec Ideal S8192x11 .f32) (r : Fin 8192) (k : Fin 6) :
    extractStridedSlice S8192x6 ![0, 5] P slices_S8192x11_S8192x6_0_5 (ix2 r k) = P (ix2 r (Fin.natAdd 5 k)) :=
  extractStridedSlice_apply ![0, 5] P slices_S8192x11_S8192x6_0_5 (ix2 r k) (ix2 r (Fin.natAdd 5 k))
    (fun a => match a with
      | ⟨0, _⟩ => by show r.val = 0 + r.val; omega
      | ⟨1, _⟩ => by show 5 + k.val = 5 + k.val; rfl)

/-! ## The three sums -/

/-- The box sum is the table's box total. -/
theorem boxSum_eq (P : FVec Ideal S8192x11 .f32) (T : FVec Ideal S8192x4 .f32) :
    boxSum (F := Ideal) P T = fun _ => Cert.Loss.boxTot (n := 8192) P T := by
  funext i
  unfold boxSum
  rw [reduce_total, sum_idx2]
  unfold Cert.Loss.boxTot Cert.Loss.boxRow Cert.Loss.absE
  refine Finset.sum_congr rfl fun r _ => Finset.sum_congr rfl fun j _ => ?_
  show max (extractStridedSlice S8192x4 ![0, 0] P slices_S8192x11_S8192x4_0_0 (ix2 r j) - T (ix2 r j))
      (-(extractStridedSlice S8192x4 ![0, 0] P slices_S8192x11_S8192x4_0_0 (ix2 r j) - T (ix2 r j))) = _
  rw [boxSlice_apply]

/-- The objectness sum is the table's objectness total. -/
theorem objSum_eq (P : FVec Ideal S8192x11 .f32) :
    objSum (F := Ideal) P = fun _ => Cert.Loss.objTot (n := 8192) P := by
  funext i
  unfold objSum
  rw [reduce_total, ← Equiv.sum_comp (idxEquiv1 (n := 8192)).symm]
  unfold Cert.Loss.objTot Cert.Loss.objRow
  refine Finset.sum_congr rfl fun r _ => ?_
  rw [softplus1_apply]
  show Cert.Loss.sp (-(shapeCast S8192 (extractStridedSlice S8192x1 ![0, 4] P slices_S8192x11_S8192x1_0_4)
      shapeCasts_S8192x1_S8192 (ix1 r))) = _
  rw [objSlice_apply]

/-- The class sum is the table's class total. -/
theorem clsSum_eq (P : FVec Ideal S8192x11 .f32) (OH : FVec Ideal S8192x6 .f32) :
    clsSum (F := Ideal) P OH = fun _ => Cert.Loss.clsTot (n := 8192) P OH := by
  funext i
  unfold clsSum
  rw [reduce_total, sum_idx2]
  unfold Cert.Loss.clsTot Cert.Loss.clsRow
  refine Finset.sum_congr rfl fun r _ => Finset.sum_congr rfl fun k _ => ?_
  show softplus6 (F := Ideal) (extractStridedSlice S8192x6 ![0, 5] P slices_S8192x11_S8192x6_0_5) (ix2 r k)
      - extractStridedSlice S8192x6 ![0, 5] P slices_S8192x11_S8192x6_0_5 (ix2 r k) * OH (ix2 r k) = _
  rw [softplus6_apply, clsSlice_apply]

/-! ## The scale and the scaled sum -/

/-- The word of 1.0 is the real one. -/
theorem ofBits_one_f32 : Ideal.ofBits .f32 0x3F800000#32 = 1 := by
  simp [Ideal.ofBits, Ideal.ieee, -EReal.coe_mul]; norm_num

/-- The larger of 1 and 8192, read signed, is 8192. -/
theorem maxsi_one_8192 : (IntOp.maxsi (1#32) (8192#32)).toInt = 8192 := by decide

/-- The reference's scale is `1 / 8192`. -/
theorem invN_eq : invN (F := Ideal) = fun _ => (((1 / 8192 : ℝ)) : EReal) := by
  funext i
  show Ideal.div (Ideal.ofBits .f32 0x3F800000#32) ((((IntOp.maxsi (1#32) (8192#32)).toInt : ℝ)) : EReal) = _
  rw [ofBits_one_f32, maxsi_one_8192]
  have h : (((8192 : ℤ) : ℝ)) = (8192 : ℝ) := by norm_num
  rw [h, Ideal.div_coe (by norm_num : (8192 : ℝ) ≠ 0), one_mul]

/-- Three sums, each times the scale, added onto zero, times the gain. -/
theorem scaled_eq (s0 s1 s2 : EReal) (g : BitVec 32) :
    scaled (F := Ideal) (fun _ => s0) (fun _ => s1) (fun _ => s2) g
      = fun _ => (((0 + s0 * (((1 / 8192 : ℝ)) : EReal)) + s1 * (((1 / 8192 : ℝ)) : EReal))
          + s2 * (((1 / 8192 : ℝ)) : EReal)) * Ideal.ofBits .f32 g := by
  funext i
  show (((Ideal.ofBits .f32 0x00000000#32 + s0 * invN (F := Ideal) i) + s1 * invN (F := Ideal) i)
      + s2 * invN (F := Ideal) i) * Ideal.ofBits .f32 g = _
  rw [invN_eq, Ideal.ofBits_zero_f32]

end Cert.ReferenceIdeal.Hand

end
-- ==== Proof.Bridge.lean ====
/-
  The two programs' results are the same extended reals.

  The kernel's results (lanes of its output row, scaled by 2⁻¹³ and the gains) and the reference's (its three
  per-map sums scaled by one over max(1, 8192), added onto zero, times the gains) are both, for each term, the sum
  over the three gathered tables of (the table's total · 1/8192), onto zero, times the gain: the kernel's by the
  six-block fold and the distribution of the positive factor, the reference's by reading its reductions as sums.
  The gathered tables, the box columns and the one-hot rows are the same stages of the same arguments in both
  programs. The total is the sum of the three terms on both sides.
-/
import proofs.«404462_j67929202753868_3_alg».proof.Proof.KernelIdeal.Value
import proofs.«404462_j67929202753868_3_alg».proof.Proof.Ref.Sums

noncomputable section

namespace Cert.Join

open Idealize.ShloMosaic Idealize.ShloMosaic.TcCoe Idealize.SL.Sem
open Cert.ReferenceIdeal.Hand Cert.KernelIdeal.Acc

/-- The reference's box result over three tables `P0 P1 P2` and box columns `T`, as extended reals. -/
theorem lbox_eq (P0 P1 P2 : FVec Ideal Cert.ReferenceIdeal.S8192x11 .f32) (T : FVec Ideal Cert.ReferenceIdeal.S8192x4 .f32) :
    lbox (F := Ideal) P0 P1 P2 T = fun _ =>
      (((0 + Cert.Loss.boxTot (n := 8192) P0 T * (((1 / 8192 : ℝ)) : EReal))
          + Cert.Loss.boxTot (n := 8192) P1 T * (((1 / 8192 : ℝ)) : EReal))
          + Cert.Loss.boxTot (n := 8192) P2 T * (((1 / 8192 : ℝ)) : EReal)) * Ideal.ofBits .f32 0x40F00000#32 := by
  unfold lbox
  rw [boxSum_eq, boxSum_eq, boxSum_eq, scaled_eq]
theorem lobj_eq (P0 P1 P2 : FVec Ideal Cert.ReferenceIdeal.S8192x11 .f32) :
    lobj (F := Ideal) P0 P1 P2 = fun _ =>
      (((0 + Cert.Loss.objTot (n := 8192) P0 * (((1 / 8192 : ℝ)) : EReal))
          + Cert.Loss.objTot (n := 8192) P1 * (((1 / 8192 : ℝ)) : EReal))
          + Cert.Loss.objTot (n := 8192) P2 * (((1 / 8192 : ℝ)) : EReal)) * Ideal.ofBits .f32 0x3FC00000#32 := by
  unfold lobj
  rw [objSum_eq, objSum_eq, objSum_eq, scaled_eq]
theorem lcls_eq (P0 P1 P2 : FVec Ideal Cert.ReferenceIdeal.S8192x11 .f32) (OH : FVec Ideal Cert.ReferenceIdeal.S8192x6 .f32) :
    lcls (F := Ideal) P0 P1 P2 OH = fun _ =>
      (((0 + Cert.Loss.clsTot (n := 8192) P0 OH * (((1 / 8192 : ℝ)) : EReal))
          + Cert.Loss.clsTot (n := 8192) P1 OH * (((1 / 8192 : ℝ)) : EReal))
          + Cert.Loss.clsTot (n := 8192) P2 OH * (((1 / 8192 : ℝ)) : EReal)) * Ideal.ofBits .f32 0x3F000000#32 := by
  unfold lcls
  rw [clsSum_eq, clsSum_eq, clsSum_eq, scaled_eq]

section
variable (m : (ℓ : Loc Cert.KernelIdeal.nD Cert.KernelIdeal.τ Cert.KernelIdeal.sig) → Buf (Elt Ideal) ℓ) (c : Dev Cert.KernelIdeal.nD)

set_option quotPrecheck false in
local notation "a0" => m ((c : Thread Cert.KernelIdeal.nD Cert.KernelIdeal.τ).loc Cert.KernelIdeal.main_arg0)
set_option quotPrecheck false in
local notation "a1" => m ((c : Thread Cert.KernelIdeal.nD Cert.KernelIdeal.τ).loc Cert.KernelIdeal.main_arg1)
set_option quotPrecheck false in
local notation "a2" => m ((c : Thread Cert.KernelIdeal.nD Cert.KernelIdeal.τ).loc Cert.KernelIdeal.main_arg2)
set_option quotPrecheck false in
local notation "a3" => m ((c : Thread Cert.KernelIdeal.nD Cert.KernelIdeal.τ).loc Cert.KernelIdeal.main_arg3)

/-- The kernel's box, objectness and class results are the reference's layer functions of the shared stages. -/
theorem box_join : outBox (F := Ideal) (result m c)
    = lbox (F := Ideal) (Cert.KernelIdeal.Sh.rows0 a0 a3) (Cert.KernelIdeal.Sh.rows1 a1 a3) (Cert.KernelIdeal.Sh.rows2 a2 a3) (Cert.KernelIdeal.Sh.boxCols a3) :=
  (kv_box m c).trans (lbox_eq _ _ _ _).symm
theorem obj_join : outObj (F := Ideal) (result m c)
    = lobj (F := Ideal) (Cert.KernelIdeal.Sh.rows0 a0 a3) (Cert.KernelIdeal.Sh.rows1 a1 a3) (Cert.KernelIdeal.Sh.rows2 a2 a3) :=
  (kv_obj m c).trans (lobj_eq _ _ _).symm
theorem cls_join : outCls (F := Ideal) (result m c)
    = lcls (F := Ideal) (Cert.KernelIdeal.Sh.rows0 a0 a3) (Cert.KernelIdeal.Sh.rows1 a1 a3) (Cert.KernelIdeal.Sh.rows2 a2 a3) (Cert.KernelIdeal.Sh.oneHot a3) :=
  (kv_cls m c).trans (lcls_eq _ _ _ _).symm
theorem tot_join : outTot (F := Ideal) (result m c)
    = total (F := Ideal) (Cert.KernelIdeal.Sh.rows0 a0 a3) (Cert.KernelIdeal.Sh.rows1 a1 a3) (Cert.KernelIdeal.Sh.rows2 a2 a3) (Cert.KernelIdeal.Sh.boxCols a3) (Cert.KernelIdeal.Sh.oneHot a3) := by
  unfold outTot total
  rw [box_join, obj_join, cls_join]

end

end Cert.Join

end
-- ==== Proof.Ref.Ops.lean ====
/- The reference's 390 host operations in program order, as eleven consecutive lists (the seven lines that read the
   target table; then for each of the three prediction maps its index computation, its gather with the box and
   objectness sums, and its class sum with the scaling; then the eight closing lines), each with the fact that it
   touches TensorCore references only. The operations are the generated list's, unchanged. -/
import proofs.«404462_j67929202753868_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 0 to 6. -/
abbrev ops00 : List (HloOp τ sig (Elt F)) :=
  [ unary main_arg3 main_v0 ((extractStridedSlice S8192x1 ![0, 0] · slices_S8192x6_S8192x1_0_0) : (⟨S8192x6, .f32⟩ : BufTy).Contents (Elt F) → (⟨S8192x1, .f32⟩ : BufTy).Contents (Elt F)),
    reshape main_v0 main_v1 rfl shapeCasts_S8192x1_S8192,
    unary main_v1 main_v2 (fptosi 32 : (⟨S8192, .f32⟩ : BufTy).Contents (Elt F) → (⟨S8192, .i32⟩ : BufTy).Contents (Elt F)),
    unary main_arg3 main_v3 ((extractStridedSlice S8192x1 ![0, 1] · slices_S8192x6_S8192x1_0_1) : (⟨S8192x6, .f32⟩ : BufTy).Contents (Elt F) → (⟨S8192x1, .f32⟩ : BufTy).Contents (Elt F)),
    reshape main_v3 main_v4 rfl shapeCasts_S8192x1_S8192,
    unary main_v4 main_v5 (fptosi 32 : (⟨S8192, .f32⟩ : BufTy).Contents (Elt F) → (⟨S8192, .i32⟩ : BufTy).Contents (Elt F)),
    unary main_arg3 main_v6 ((extractStridedSlice S8192x4 ![0, 2] · slices_S8192x6_S8192x4_0_2) : (⟨S8192x6, .f32⟩ : BufTy).Contents (Elt F) → (⟨S8192x4, .f32⟩ : BufTy).Contents (Elt F)) ]
set_option maxRecDepth 8192 in
theorem ops00_sub : (ops00 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub ..⟩

set_option maxHeartbeats 4000000 in
/-- Operations 7 to 64. -/
abbrev ops01 : List (HloOp τ sig (Elt F)) :=
  [ unary main_v6 main_v7 ((extractStridedSlice S8192x1 ![0, 0] · slices_S8192x4_S8192x1_0_0) : (⟨S8192x4, .f32⟩ : BufTy).Contents (Elt F) → (⟨S8192x1, .f32⟩ : BufTy).Contents (Elt F)),
    reshape main_v7 main_v8 rfl shapeCasts_S8192x1_S8192,
    nullary main_cst (constant S_ .f32 0x43200000#32),
    unary main_cst main_v9 (broadcastInDim S8192 ![] bcast_S_S8192 : (⟨S_, .f32⟩ : BufTy).Contents (Elt F) → (⟨S8192, .f32⟩ : BufTy).Contents (Elt F)),
    binary main_v9 main_v8 main_v10 (mulf : (⟨S8192, .f32⟩ : BufTy).Contents (Elt F) → (⟨S8192, .f32⟩ : BufTy).Contents (Elt F) → (⟨S8192, .f32⟩ : BufTy).Contents (Elt F)),
    unary main_v10 main_v11 (Host.floor : (⟨S8192, .f32⟩ : BufTy).Contents (Elt F) → (⟨S8192, .f32⟩ : BufTy).Contents (Elt F)),
    unary main_v11 main_v12 (fptosi 32 : (⟨S8192, .f32⟩ : BufTy).Contents (Elt F) → (⟨S8192, .i32⟩ : BufTy).Contents (Elt F)),
    nullary main_c (constantI S_ 32 0#32),
    nullary main_c_0 (constantI S_ 32 159#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8192, .i32⟩) main_call0_v1) (broadcastInDim S8192 ![] bcast_S_S8192),
    TRef.binary (TRef.of (T := ⟨S8192, .i32⟩) main_call0_v1) (TRef.of (T := ⟨S8192, .i32⟩) main_v12) (TRef.of (T := ⟨S8192, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S8192, .i32⟩) main_call0_v4) (broadcastInDim S8192 ![] bcast_S_S8192),
    TRef.binary (TRef.of (T := ⟨S8192, .i32⟩) main_call0_v4) (TRef.of (T := ⟨S8192, .i32⟩) main_call0_v2) (TRef.of (T := ⟨S8192, .i32⟩) main_v13) minsi,
    unary main_v6 main_v14 ((extractStridedSlice S8192x1 ![0, 1] · slices_S8192x4_S8192x1_0_1) : (⟨S8192x4, .f32⟩ : BufTy).Contents (Elt F) → (⟨S8192x1, .f32⟩ : BufTy).Contents (Elt F)),
    reshape main_v14 main_v15 rfl shapeCasts_S8192x1_S8192,
    nullary main_cst_1 (constant S_ .f32 0x43200000#32),
    unary main_cst_1 main_v16 (broadcastInDim S8192 ![] bcast_S_S8192 : (⟨S_, .f32⟩ : BufTy).Contents (Elt F) → (⟨S8192, .f32⟩ : BufTy).Contents (Elt F)),
    binary main_v16 main_v15 main_v17 (mulf : (⟨S8192, .f32⟩ : BufTy).Contents (Elt F) → (⟨S8192, .f32⟩ : BufTy).Contents (Elt F) → (⟨S8192, .f32⟩ : BufTy).Contents (Elt F)),
    unary main_v17 main_v18 (Host.floor : (⟨S8192, .f32⟩ : BufTy).Contents (Elt F) → (⟨S8192, .f32⟩ : BufTy).Contents (Elt F)),
    unary main_v18 main_v19 (fptosi 32 : (⟨S8192, .f32⟩ : BufTy).Contents (Elt F) → (⟨S8192, .i32⟩ : BufTy).Contents (Elt F)),
    nullary main_c_2 (constantI S_ 32 0#32),
    nullary main_c_3 (constantI S_ 32 159#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S8192, .i32⟩) main_call1_v1) (broadcastInDim S8192 ![] bcast_S_S8192),
    TRef.binary (TRef.of (T := ⟨S8192, .i32⟩) main_call1_v1) (TRef.of (T := ⟨S8192, .i32⟩) main_v19) (TRef.of (T := ⟨S8192, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S8192, .i32⟩) main_call1_v4) (broadcastInDim S8192 ![] bcast_S_S8192),
    TRef.binary (TRef.of (T := ⟨S8192, .i32⟩) main_call1_v4) (TRef.of (T := ⟨S8192, .i32⟩) main_call1_v2) (TRef.of (T := ⟨S8192, .i32⟩) main_v20) minsi,
    nullary main_c_4 (constantI S_ 32 0#32),
    unary main_c_4 main_v21 (broadcastInDim S8192 ![] bcast_S_S8192 : (⟨S_, .i32⟩ : BufTy).Contents (Elt F) → (⟨S8192, .i32⟩ : BufTy).Contents (Elt F)),
    binary main_v2 main_v21 main_v22 (cmpi .slt : (⟨S8192, .i32⟩ : BufTy).Contents (Elt F) → (⟨S8192, .i32⟩ : BufTy).Contents (Elt F) → (⟨S8192, .i1⟩ : BufTy).Contents (Elt F)),
    nullary main_c_5 (constantI S_ 32 32#32),
    unary main_c_5 main_v23 (broadcastInDim S8192 ![] bcast_S_S8192 : (⟨S_, .i32⟩ : BufTy).Contents (Elt F) → (⟨S8192, .i32⟩ : BufTy).Contents (Elt F)),
    binary main_v2 main_v23 main_v24 (addi : (⟨S8192, .i32⟩ : BufTy).Contents (Elt F) → (⟨S8192, .i32⟩ : BufTy).Contents (Elt F) → (⟨S8192, .i32⟩ : BufTy).Contents (Elt F)),
    ternary main_v22 main_v24 main_v2 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_6 (constantI S_ 32 0#32),
    unary main_c_6 main_v26 (broadcastInDim S8192 ![] bcast_S_S8192 : (⟨S_, .i32⟩ : BufTy).Contents (Elt F) → (⟨S8192, .i32⟩ : BufTy).Contents (Elt F)),
    binary main_v20 main_v26 main_v27 (cmpi .slt : (⟨S8192, .i32⟩ : BufTy).Contents (Elt F) → (⟨S8192, .i32⟩ : BufTy).Contents (Elt F) → (⟨S8192, .i1⟩ : BufTy).Contents (Elt F)),
    nullary main_c_7 (constantI S_ 32 160#32),
    unary main_c_7 main_v28 (broadcastInDim S8192 ![] bcast_S_S8192 : (⟨S_, .i32⟩ : BufTy).Contents (Elt F) → (⟨S8192, .i32⟩ : BufTy).Contents (Elt F)),
    binary main_v20 main_v28 main_v29 (addi : (⟨S8192, .i32⟩ : BufTy).Contents (Elt F) → (⟨S8192, .i32⟩ : BufTy).Contents (Elt F) → (⟨S8192, .i32⟩ : BufTy).Contents (Elt F)),
    ternary main_v27 main_v29 main_v20 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_8 (constantI S_ 32 0#32),
    unary main_c_8 main_v31 (broadcastInDim S8192 ![] bcast_S_S8192 : (⟨S_, .i32⟩ : BufTy).Contents (Elt F) → (⟨S8192, .i32⟩ : BufTy).Contents (Elt F)),
    binary main_v13 main_v31 main_v32 (cmpi .slt : (⟨S8192, .i32⟩ : BufTy).Contents (Elt F) → (⟨S8192, .i32⟩ : BufTy).Contents (Elt F) → (⟨S8192, .i1⟩ : BufTy).Contents (Elt F)),
    nullary main_c_9 (constantI S_ 32 160#32),
    unary main_c_9 main_v33 (broadcastInDim S8192 ![] bcast_S_S8192 : (⟨S_, .i32⟩ : BufTy).Contents (Elt F) → (⟨S8192, .i32⟩ : BufTy).Contents (Elt F)),
    binary main_v13 main_v33 main_v34 (addi : (⟨S8192, .i32⟩ : BufTy).Contents (Elt F) → (⟨S8192, .i32⟩ : BufTy).Contents (Elt F) → (⟨S8192, .i32⟩ : BufTy).Contents (Elt F)),
    ternary main_v32 main_v34 main_v13 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_10 (constantI S_ 32 0#32),
    unary main_c_10 main_v36 (broadcastInDim S8192 ![] bcast_S_S8192 : (⟨S_, .i32⟩ : BufTy).Contents (Elt F) → (⟨S8192, .i32⟩ : BufTy).Contents (Elt F)),
    unary main_v36 main_v37 (id : (⟨S8192, .i32⟩ : BufTy).Contents (Elt F) → (⟨S8192, .i32⟩ : BufTy).Contents (Elt F)),
    unary main_v25 main_v38 (broadcastInDim S8192x1 ![0] bcast_S8192_S8192x1_0 : (⟨S8192, .i32⟩ : BufTy).Contents (Elt F) → (⟨S8192x1, .i32⟩ : BufTy).Contents (Elt F)),
    unary main_v37 main_v39 (broadcastInDim S8192x1 ![0] bcast_S8192_S8192x1_0 : (⟨S8192, .i32⟩ : BufTy).Contents (Elt F) → (⟨S8192x1, .i32⟩ : BufTy).Contents (Elt F)),
    unary main_v30 main_v40 (broadcastInDim S8192x1 ![0] bcast_S8192_S8192x1_0 : (⟨S8192, .i32⟩ : BufTy).Contents (Elt F) → (⟨S8192x1, .i32⟩ : BufTy).Contents (Elt F)),
    unary main_v35 main_v41 (broadcastInDim S8192x1 ![0] bcast_S8192_S8192x1_0 : (⟨S8192, .i32⟩ : BufTy).Contents (Elt F) → (⟨S8192x1, .i32⟩ : BufTy).Contents (Elt F)) ]
set_option maxRecDepth 8192 in
theorem ops01_sub : (ops01 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., unary_bufs_sub .., unary_bufs_sub ..⟩

set_option maxHeartbeats 4000000 in
/-- Operations 65 to 90. -/
abbrev ops02 : List (HloOp τ sig (Elt F)) :=
  [ nary ![main_v38, main_v39, main_v40, main_v41] main_v42 (fun u => concatenate S8192x4 1 [⟨S8192x1, u 0⟩, ⟨S8192x1, u 1⟩, ⟨S8192x1, u 2⟩, ⟨S8192x1, u 3⟩] concatenates_S8192x1_S8192x1_S8192x1_S8192x1_S8192x4_d1),
    binary main_arg0 main_v42 main_v43 ((fun x i => Host.gather gather_S32x3x160x160x11_S8192x4_S8192x11_1_0123_n_n_0123_1_111111 x i) : (⟨S32x3x160x160x11, .f32⟩ : BufTy).Contents (Elt F) → (⟨S8192x4, .i32⟩ : BufTy).Contents (Elt F) → (⟨S8192x11, .f32⟩ : BufTy).Contents (Elt F)),
    unary main_v43 main_v44 ((extractStridedSlice S8192x4 ![0, 0] · slices_S8192x11_S8192x4_0_0) : (⟨S8192x11, .f32⟩ : BufTy).Contents (Elt F) → (⟨S8192x4, .f32⟩ : BufTy).Contents (Elt F)),
    binary main_v44 main_v6 main_v45 (subf : (⟨S8192x4, .f32⟩ : BufTy).Contents (Elt F) → (⟨S8192x4, .f32⟩ : BufTy).Contents (Elt F) → (⟨S8192x4, .f32⟩ : BufTy).Contents (Elt F)),
    unary main_v45 main_v46 (Host.absf : (⟨S8192x4, .f32⟩ : BufTy).Contents (Elt F) → (⟨S8192x4, .f32⟩ : BufTy).Contents (Elt F)),
    nullary main_cst_11 (constant S_ .f32 0x00000000#32),
    binary main_v46 main_cst_11 main_v47 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    unary main_v43 main_v48 ((extractStridedSlice S8192x1 ![0, 4] · slices_S8192x11_S8192x1_0_4) : (⟨S8192x11, .f32⟩ : BufTy).Contents (Elt F) → (⟨S8192x1, .f32⟩ : BufTy).Contents (Elt F)),
    reshape main_v48 main_v49 rfl shapeCasts_S8192x1_S8192,
    unary main_v49 main_v50 (Host.negf : (⟨S8192, .f32⟩ : BufTy).Contents (Elt F) → (⟨S8192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192, .f32⟩) main_call2_v0) (broadcastInDim S8192 ![] bcast_S_S8192),
    TRef.binary (TRef.of (T := ⟨S8192, .f32⟩) main_v50) (TRef.of (T := ⟨S8192, .f32⟩) main_call2_v0) (TRef.of (T := ⟨S8192, .f32⟩) main_call2_v1) maximumf,
    TRef.unary (TRef.of (T := ⟨S_, .f32⟩) main_call2_cst) (TRef.of (T := ⟨S8192, .f32⟩) main_call2_v2) (broadcastInDim S8192 ![] bcast_S_S8192),
    TRef.binary (TRef.of (T := ⟨S8192, .f32⟩) main_v50) (TRef.of (T := ⟨S8192, .f32⟩) main_call2_v2) (TRef.of (T := ⟨S8192, .f32⟩) main_call2_v3) subf,
    TRef.binary (TRef.of (T := ⟨S8192, .f32⟩) main_call2_v3) (TRef.of (T := ⟨S8192, .f32⟩) main_call2_v3) (TRef.of (T := ⟨S8192, .i1⟩) main_call2_v4) (cmpf .une),
    TRef.unary (TRef.of (T := ⟨S_, .f32⟩) main_call2_cst) (TRef.of (T := ⟨S8192, .f32⟩) main_call2_v5) (broadcastInDim S8192 ![] bcast_S_S8192),
    TRef.binary (TRef.of (T := ⟨S8192, .f32⟩) main_v50) (TRef.of (T := ⟨S8192, .f32⟩) main_call2_v5) (TRef.of (T := ⟨S8192, .f32⟩) main_call2_v6) addf,
    TRef.unary (TRef.of (T := ⟨S8192, .f32⟩) main_call2_v3) (TRef.of (T := ⟨S8192, .f32⟩) main_call2_v7) Host.absf,
    TRef.unary (TRef.of (T := ⟨S8192, .f32⟩) main_call2_v7) (TRef.of (T := ⟨S8192, .f32⟩) main_call2_v8) Host.negf,
    TRef.unary (TRef.of (T := ⟨S8192, .f32⟩) main_call2_v8) (TRef.of (T := ⟨S8192, .f32⟩) main_call2_v9) Host.exp,
    TRef.unary (TRef.of (T := ⟨S8192, .f32⟩) main_call2_v9) (TRef.of (T := ⟨S8192, .f32⟩) main_call2_v10) Host.log1p,
    TRef.binary (TRef.of (T := ⟨S8192, .f32⟩) main_call2_v1) (TRef.of (T := ⟨S8192, .f32⟩) main_call2_v10) (TRef.of (T := ⟨S8192, .f32⟩) main_call2_v11) addf,
    TRef.ternary (TRef.of (T := ⟨S8192, .i1⟩) main_call2_v4) (TRef.of (T := ⟨S8192, .f32⟩) main_call2_v6) (TRef.of (T := ⟨S8192, .f32⟩) main_call2_v11) (TRef.of (T := ⟨S8192, .f32⟩) main_v51) select,
    nullary main_cst_12 (constant S_ .f32 0x00000000#32),
    binary main_v51 main_cst_12 main_v52 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]
set_option maxRecDepth 8192 in
theorem ops02_sub : (ops02 : List (HloOp τ sig (Elt F))).Forall fun op => op.bufs ⊆ tcRefs τ sig :=
  ⟨nary_bufs_sub .., binary_bufs_sub .., unary_bufs_sub .., binary_bufs_sub .., unary_bufs_sub .., nullary_bufs_sub .., binary_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub ..⟩

set_option maxHeartbeats 4000000 in
/-- Operations 91 to 133. -/
abbrev ops03 : List (HloOp τ sig (Elt F)) :=
  [ unary main_v43 main_v53 ((extractStridedSlice S8192x6 ![0, 5] · slices_S8192x11_S8192x6_0_5) : (⟨S8192x11, .f32⟩ : BufTy).Contents (Elt F) → (⟨S8192x6, .f32⟩ : BufTy).Contents (Elt F)),
    TRef.unary (TRef.of (T := ⟨S8192, .i32⟩) main_v5) (TRef.of (T := ⟨S8192x1, .i32⟩) main_call3_v0) (broadcastInDim S8192x1 ![0] bcast_S8192_S8192x1_0),
    TRef.nullary (TRef.of (T := ⟨S1x6, .i32⟩) main_call3_v1) (iotaInDim S1x6 32 1),
    TRef.unary (TRef.of (T := ⟨S8192x1, .i32⟩) main_call3_v0) (TRef.of (T := ⟨S8192x6, .i32⟩) main_call3_v2) (broadcastInDim S8192x6 ![0, 1] bcast_S8192x1_S8192x6_0_1),
    TRef.unary (TRef.of (T := ⟨S1x6, .i32⟩) main_call3_v1) (TRef.of (T := ⟨S8192x6, .i32⟩) main_call3_v3) (broadcastInDim S8192x6 ![0, 1] bcast_S1x6_S8192x6_0_1),
    TRef.binary (TRef.of (T := ⟨S8192x6, .i32⟩) main_call3_v2) (TRef.of (T := ⟨S8192x6, .i32⟩) main_call3_v3) (TRef.of (T := ⟨S8192x6, .i1⟩) main_call3_v4) (cmpi .eq),
    TRef.unary (TRef.of (T := ⟨S8192x6, .i1⟩) main_call3_v4) (TRef.of (T := ⟨S8192x6, .f32⟩) main_v54) (uitofp .f32),
    TRef.nullary (TRef.of (T := ⟨S_, .f32⟩) main_call4_cst) (constant S_ .f32 0x00000000#32),
    TRef.unary (TRef.of (T := ⟨S_, .f32⟩) main_call4_cst) (TRef.of (T := ⟨S8192x6, .f32⟩) main_call4_v0) (broadcastInDim S8192x6 ![] bcast_S_S8192x6),
    TRef.binary (TRef.of (T := ⟨S8192x6, .f32⟩) main_v53) (TRef.of (T := ⟨S8192x6, .f32⟩) main_call4_v0) (TRef.of (T := ⟨S8192x6, .f32⟩) main_call4_v1) maximumf,
    TRef.unary (TRef.of (T := ⟨S_, .f32⟩) main_call4_cst) (TRef.of (T := ⟨S8192x6, .f32⟩) main_call4_v2) (broadcastInDim S8192x6 ![] bcast_S_S8192x6),
    TRef.binary (TRef.of (T := ⟨S8192x6, .f32⟩) main_v53) (TRef.of (T := ⟨S8192x6, .f32⟩) main_call4_v2) (TRef.of (T := ⟨S8192x6, .f32⟩) main_call4_v3) subf,
    TRef.binary (TRef.of (T := ⟨S8192x6, .f32⟩) main_call4_v3) (TRef.of (T := ⟨S8192x6, .f32⟩) main_call4_v3) (TRef.of (T := ⟨S8192x6, .i1⟩) main_call4_v4) (cmpf .une),
    TRef.unary (TRef.of (T := ⟨S_, .f32⟩) main_call4_cst) (TRef.of (T := ⟨S8192x6, .f32⟩) main_call4_v5) (broadcastInDim S8192x6 ![] bcast_S_S8192x6),
    TRef.binary (TRef.of (T := ⟨S8192x6, .f32⟩) main_v53) (TRef.of (T := ⟨S8192x6, .f32⟩) main_call4_v5) (TRef.of (T := ⟨S8192x6, .f32⟩) main_call4_v6) addf,
    TRef.unary (TRef.of (T := ⟨S8192x6, .f32⟩) main_call4_v3) (TRef.of (T := ⟨S8192x6, .f32⟩) main_call4_v7) Host.absf,
    TRef.unary (TRef.of (T := ⟨S8192x6, .f32⟩) main_call4_v7) (TRef.of (T := ⟨S8192x6, .f32⟩) main_call4_v8) Host.negf,
    TRef.unary (TRef.of (T := ⟨S8192x6, .f32⟩) main_call4_v8) (TRef.of (T := ⟨S8192x6, .f32⟩) main_call4_v9) Host.exp,
    TRef.unary (TRef.of (T := ⟨S8192x6, .f32⟩) main_call4_v9) (TRef.of (T := ⟨S8192x6, .f32⟩) main_call4_v10) Host.log1p,
    TRef.binary (TRef.of (T := ⟨S8192x6, .f32⟩) main_call4_v1) (TRef.of (T := ⟨S8192x6, .f32⟩) main_call4_v10) (TRef.of (T := ⟨S8192x6, .f32⟩) main_call4_v11) addf,
    TRef.ternary (TRef.of (T := ⟨S8192x6, .i1⟩) main_call4_v4) (TRef.of (T := ⟨S8192x6, .f32⟩) main_call4_v6) (TRef.of (T := ⟨S8192x6, .f32⟩) main_call4_v11) (TRef.of (T := ⟨S8192x6, .f32⟩) main_v55) select,
    binary main_v53 main_v54 main_v56 (mulf : (⟨S8192x6, .f32⟩ : BufTy).Contents (Elt F) → (⟨S8192x6, .f32⟩ : BufTy).Contents (Elt F) → (⟨S8192x6, .f32⟩ : BufTy).Contents (Elt F)),
    binary main_v55 main_v56 main_v57 (subf : (⟨S8192x6, .f32⟩ : BufTy).Contents (Elt F) → (⟨S8192x6, .f32⟩ : BufTy).Contents (Elt F) → (⟨S8192x6, .f32⟩ : BufTy).Contents (Elt F)),
    nullary main_cst_13 (constant S_ .f32 0x00000000#32),
    binary main_v57 main_cst_13 main_v58 ((fun x v => Host.reduceAdd x v reducesTo_S8192x6_S_d0_1 h_S_) : (⟨S8192x6, .f32⟩ : BufTy).Contents (Elt F) → (⟨S_, .f32⟩ : BufTy).Contents (Elt F) → (⟨S_, .f32⟩ : BufTy).Contents (Elt F)),
    nullary main_c_14 (constantI S_ 32 1#32),
    nullary main_c_15 (constantI S_ 32 8192#32),
    binary main_c_14 main_c_15 main_v59 (maxsi : (⟨S_, .i32⟩ : BufTy).Contents (Elt F) → (⟨S_, .i32⟩ : BufTy).Contents (Elt F) → (⟨S_, .i32⟩ : BufTy).Contents (Elt F)),
    unary main_v59 main_v60 (sitofp .f32 : (⟨S_, .i32⟩ : BufTy).Contents (Elt F) → (⟨S_, .f32⟩ : BufTy).Contents (Elt F)),
    nullary main_cst_16 (constant S_ .f32 0x3F800000#32),
    binary main_cst_16 main_v60 main_v61 (Host.divf : (⟨S_, .f32⟩ : BufTy).Contents (Elt F) → (⟨S_, .f32⟩ : BufTy).Contents (Elt F) → (⟨S_, .f32⟩ : BufTy).Contents (Elt F)),
    unary main_v61 main_v62 (id : (⟨S_, .f32⟩ : BufTy).Contents (Elt F) → (⟨S_, .f32⟩ : BufTy).Contents (Elt F)),
    binary main_v47 main_v62 main_v63 (mulf : (⟨S_, .f32⟩ : BufTy).Contents (Elt F) → (⟨S_, .f32⟩ : BufTy).Contents (Elt F) → (⟨S_, .f32⟩ : BufTy).Contents (Elt F)),
    unary main_v61 main_v64 (id : (⟨S_, .f32⟩ : BufTy).Contents (Elt F) → (⟨S_, .f32⟩ : BufTy).Contents (Elt F)),
    binary main_v52 main_v64 main_v65 (mulf : (⟨S_, .f32⟩ : BufTy).Contents (Elt F) → (⟨S_, .f32⟩ : BufTy).Contents (Elt F) → (⟨S_, .f32⟩ : BufTy).Contents (Elt F)),
    unary main_v61 main_v66 (id : (⟨S_, .f32⟩ : BufTy).Contents (Elt F) → (⟨S_, .f32⟩ : BufTy).Contents (Elt F)),
    binary main_v58 main_v66 main_v67 (mulf : (⟨S_, .f32⟩ : BufTy).Contents (Elt F) → (⟨S_, .f32⟩ : BufTy).Contents (Elt F) → (⟨S_, .f32⟩ : BufTy).Contents (Elt F)),
    nullary main_cst_17 (constant S_ .f32 0x00000000#32),
    binary main_cst_17 main_v63 main_v68 (addf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_cst_18 main_v65 main_v69 (addf : (⟨S_, .f32⟩ : BufTy).Contents (Elt F) → (⟨S_, .f32⟩ : BufTy).Contents (Elt F) → (⟨S_, .f32⟩ : BufTy).Contents (Elt F)),
    nullary main_cst_19 (constant S_ .f32 0x00000000#32),
    binary main_cst_19 main_v67 main_v70 (addf : (⟨S_, .f32⟩ : BufTy).Contents (Elt F) → (⟨S_, .f32⟩ : BufTy).Contents (Elt F) → (⟨S_, .f32⟩ : BufTy).Contents (Elt F)) ]
set_option maxRecDepth 8192 in
theorem ops03_sub : (ops03 : List (HloOp τ sig (Elt F))).Forall fun op => op.bufs ⊆ tcRefs τ sig :=
  ⟨unary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., nullary_bufs_sub .., binary_bufs_sub .., unary_bufs_sub .., nullary_bufs_sub .., binary_bufs_sub .., unary_bufs_sub .., binary_bufs_sub .., unary_bufs_sub .., binary_bufs_sub .., unary_bufs_sub .., binary_bufs_sub .., nullary_bufs_sub .., binary_bufs_sub .., nullary_bufs_sub .., binary_bufs_sub .., nullary_bufs_sub .., binary_bufs_sub ..⟩

set_option maxHeartbeats 4000000 in
/-- Operations 134 to 191. -/
abbrev ops04 : List (HloOp τ sig (Elt F)) :=
  [ unary main_v6 main_v71 ((extractStridedSlice S8192x1 ![0, 0] · slices_S8192x4_S8192x1_0_0) : (⟨S8192x4, .f32⟩ : BufTy).Contents (Elt F) → (⟨S8192x1, .f32⟩ : BufTy).Contents (Elt F)),
    reshape main_v71 main_v72 rfl shapeCasts_S8192x1_S8192,
    nullary main_cst_20 (constant S_ .f32 0x42A00000#32),
    unary main_cst_20 main_v73 (broadcastInDim S8192 ![] bcast_S_S8192 : (⟨S_, .f32⟩ : BufTy).Contents (Elt F) → (⟨S8192, .f32⟩ : BufTy).Contents (Elt F)),
    binary main_v73 main_v72 main_v74 (mulf : (⟨S8192, .f32⟩ : BufTy).Contents (Elt F) → (⟨S8192, .f32⟩ : BufTy).Contents (Elt F) → (⟨S8192, .f32⟩ : BufTy).Contents (Elt F)),
    unary main_v74 main_v75 (Host.floor : (⟨S8192, .f32⟩ : BufTy).Contents (Elt F) → (⟨S8192, .f32⟩ : BufTy).Contents (Elt F)),
    unary main_v75 main_v76 (fptosi 32 : (⟨S8192, .f32⟩ : BufTy).Contents (Elt F) → (⟨S8192, .i32⟩ : BufTy).Contents (Elt F)),
    nullary main_c_21 (constantI S_ 32 0#32),
    nullary main_c_22 (constantI S_ 32 79#32),
    TRef.unary (TRef.of (T := ⟨S_, .i32⟩) main_c_21) (TRef.of (T := ⟨S_, .i32⟩) main_call5_v0) id,
    TRef.unary (TRef.of (T := ⟨S_, .i32⟩) main_call5_v0) (TRef.of (T := ⟨S8192, .i32⟩) main_call5_v1) (broadcastInDim S8192 ![] bcast_S_S8192),
    TRef.binary (TRef.of (T := ⟨S8192, .i32⟩) main_call5_v1) (TRef.of (T := ⟨S8192, .i32⟩) main_v76) (TRef.of (T := ⟨S8192, .i32⟩) main_call5_v2) maxsi,
    TRef.unary (TRef.of (T := ⟨S_, .i32⟩) main_c_22) (TRef.of (T := ⟨S_, .i32⟩) main_call5_v3) id,
    TRef.unary (TRef.of (T := ⟨S_, .i32⟩) main_call5_v3) (TRef.of (T := ⟨S8192, .i32⟩) main_call5_v4) (broadcastInDim S8192 ![] bcast_S_S8192),
    TRef.binary (TRef.of (T := ⟨S8192, .i32⟩) main_call5_v4) (TRef.of (T := ⟨S8192, .i32⟩) main_call5_v2) (TRef.of (T := ⟨S8192, .i32⟩) main_v77) minsi,
    unary main_v6 main_v78 ((extractStridedSlice S8192x1 ![0, 1] · slices_S8192x4_S8192x1_0_1) : (⟨S8192x4, .f32⟩ : BufTy).Contents (Elt F) → (⟨S8192x1, .f32⟩ : BufTy).Contents (Elt F)),
    reshape main_v78 main_v79 rfl shapeCasts_S8192x1_S8192,
    nullary main_cst_23 (constant S_ .f32 0x42A00000#32),
    unary main_cst_23 main_v80 (broadcastInDim S8192 ![] bcast_S_S8192 : (⟨S_, .f32⟩ : BufTy).Contents (Elt F) → (⟨S8192, .f32⟩ : BufTy).Contents (Elt F)),
    binary main_v80 main_v79 main_v81 (mulf : (⟨S8192, .f32⟩ : BufTy).Contents (Elt F) → (⟨S8192, .f32⟩ : BufTy).Contents (Elt F) → (⟨S8192, .f32⟩ : BufTy).Contents (Elt F)),
    unary main_v81 main_v82 (Host.floor : (⟨S8192, .f32⟩ : BufTy).Contents (Elt F) → (⟨S8192, .f32⟩ : BufTy).Contents (Elt F)),
    unary main_v82 main_v83 (fptosi 32 : (⟨S8192, .f32⟩ : BufTy).Contents (Elt F) → (⟨S8192, .i32⟩ : BufTy).Contents (Elt F)),
    nullary main_c_24 (constantI S_ 32 0#32),
    nullary main_c_25 (constantI S_ 32 79#32),
    TRef.unary (TRef.of (T := ⟨S_, .i32⟩) main_c_24) (TRef.of (T := ⟨S_, .i32⟩) main_call6_v0) id,
    TRef.unary (TRef.of (T := ⟨S_, .i32⟩) main_call6_v0) (TRef.of (T := ⟨S8192, .i32⟩) main_call6_v1) (broadcastInDim S8192 ![] bcast_S_S8192),
    TRef.binary (TRef.of (T := ⟨S8192, .i32⟩) main_call6_v1) (TRef.of (T := ⟨S8192, .i32⟩) main_v83) (TRef.of (T := ⟨S8192, .i32⟩) main_call6_v2) maxsi,
    TRef.unary (TRef.of (T := ⟨S_, .i32⟩) main_c_25) (TRef.of (T := ⟨S_, .i32⟩) main_call6_v3) id,
    TRef.unary (TRef.of (T := ⟨S_, .i32⟩) main_call6_v3) (TRef.of (T := ⟨S8192, .i32⟩) main_call6_v4) (broadcastInDim S8192 ![] bcast_S_S8192),
    TRef.binary (TRef.of (T := ⟨S8192, .i32⟩) main_call6_v4) (TRef.of (T := ⟨S8192, .i32⟩) main_call6_v2) (TRef.of (T := ⟨S8192, .i32⟩) main_v84) minsi,
    nullary main_c_26 (constantI S_ 32 0#32),
    unary main_c_26 main_v85 (broadcastInDim S8192 ![] bcast_S_S8192 : (⟨S_, .i32⟩ : BufTy).Contents (Elt F) → (⟨S8192, .i32⟩ : BufTy).Contents (Elt F)),
    binary main_v2 main_v85 main_v86 (cmpi .slt : (⟨S8192, .i32⟩ : BufTy).Contents (Elt F) → (⟨S8192, .i32⟩ : BufTy).Contents (Elt F) → (⟨S8192, .i1⟩ : BufTy).Contents (Elt F)),
    nullary main_c_27 (constantI S_ 32 32#32),
    unary main_c_27 main_v87 (broadcastInDim S8192 ![] bcast_S_S8192 : (⟨S_, .i32⟩ : BufTy).Contents (Elt F) → (⟨S8192, .i32⟩ : BufTy).Contents (Elt F)),
    binary main_v2 main_v87 main_v88 (addi : (⟨S8192, .i32⟩ : BufTy).Contents (Elt F) → (⟨S8192, .i32⟩ : BufTy).Contents (Elt F) → (⟨S8192, .i32⟩ : BufTy).Contents (Elt F)),
    ternary main_v86 main_v88 main_v2 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_28 (constantI S_ 32 0#32),
    unary main_c_28 main_v90 (broadcastInDim S8192 ![] bcast_S_S8192 : (⟨S_, .i32⟩ : BufTy).Contents (Elt F) → (⟨S8192, .i32⟩ : BufTy).Contents (Elt F)),
    binary main_v84 main_v90 main_v91 (cmpi .slt : (⟨S8192, .i32⟩ : BufTy).Contents (Elt F) → (⟨S8192, .i32⟩ : BufTy).Contents (Elt F) → (⟨S8192, .i1⟩ : BufTy).Contents (Elt F)),
    nullary main_c_29 (constantI S_ 32 80#32),
    unary main_c_29 main_v92 (broadcastInDim S8192 ![] bcast_S_S8192 : (⟨S_, .i32⟩ : BufTy).Contents (Elt F) → (⟨S8192, .i32⟩ : BufTy).Contents (Elt F)),
    binary main_v84 main_v92 main_v93 (addi : (⟨S8192, .i32⟩ : BufTy).Contents (Elt F) → (⟨S8192, .i32⟩ : BufTy).Contents (Elt F) → (⟨S8192, .i32⟩ : BufTy).Contents (Elt F)),
    ternary main_v91 main_v93 main_v84 main_v94 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_30 (constantI S_ 32 0#32),
    unary main_c_30 main_v95 (broadcastInDim S8192 ![] bcast_S_S8192 : (⟨S_, .i32⟩ : BufTy).Contents (Elt F) → (⟨S8192, .i32⟩ : BufTy).Contents (Elt F)),
    binary main_v77 main_v95 main_v96 (cmpi .slt : (⟨S8192, .i32⟩ : BufTy).Contents (Elt F) → (⟨S8192, .i32⟩ : BufTy).Contents (Elt F) → (⟨S8192, .i1⟩ : BufTy).Contents (Elt F)),
    nullary main_c_31 (constantI S_ 32 80#32),
    unary main_c_31 main_v97 (broadcastInDim S8192 ![] bcast_S_S8192 : (⟨S_, .i32⟩ : BufTy).Contents (Elt F) → (⟨S8192, .i32⟩ : BufTy).Contents (Elt F)),
    binary main_v77 main_v97 main_v98 (addi : (⟨S8192, .i32⟩ : BufTy).Contents (Elt F) → (⟨S8192, .i32⟩ : BufTy).Contents (Elt F) → (⟨S8192, .i32⟩ : BufTy).Contents (Elt F)),
    ternary main_v96 main_v98 main_v77 main_v99 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_32 (constantI S_ 32 0#32),
    unary main_c_32 main_v100 (broadcastInDim S8192 ![] bcast_S_S8192 : (⟨S_, .i32⟩ : BufTy).Contents (Elt F) → (⟨S8192, .i32⟩ : BufTy).Contents (Elt F)),
    unary main_v100 main_v101 (id : (⟨S8192, .i32⟩ : BufTy).Contents (Elt F) → (⟨S8192, .i32⟩ : BufTy).Contents (Elt F)),
    unary main_v89 main_v102 (broadcastInDim S8192x1 ![0] bcast_S8192_S8192x1_0 : (⟨S8192, .i32⟩ : BufTy).Contents (Elt F) → (⟨S8192x1, .i32⟩ : BufTy).Contents (Elt F)),
    unary main_v101 main_v103 (broadcastInDim S8192x1 ![0] bcast_S8192_S8192x1_0 : (⟨S8192, .i32⟩ : BufTy).Contents (Elt F) → (⟨S8192x1, .i32⟩ : BufTy).Contents (Elt F)),
    unary main_v94 main_v104 (broadcastInDim S8192x1 ![0] bcast_S8192_S8192x1_0 : (⟨S8192, .i32⟩ : BufTy).Contents (Elt F) → (⟨S8192x1, .i32⟩ : BufTy).Contents (Elt F)),
    unary main_v99 main_v105 (broadcastInDim S8192x1 ![0] bcast_S8192_S8192x1_0 : (⟨S8192, .i32⟩ : BufTy).Contents (Elt F) → (⟨S8192x1, .i32⟩ : BufTy).Contents (Elt F)) ]
set_option maxRecDepth 8192 in
theorem ops04_sub : (ops04 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., unary_bufs_sub .., unary_bufs_sub ..⟩

set_option maxHeartbeats 4000000 in
/-- Operations 192 to 217. -/
abbrev ops05 : List (HloOp τ sig (Elt F)) :=
  [ nary ![main_v102, main_v103, main_v104, main_v105] main_v106 (fun u => concatenate S8192x4 1 [⟨S8192x1, u 0⟩, ⟨S8192x1, u 1⟩, ⟨S8192x1, u 2⟩, ⟨S8192x1, u 3⟩] concatenates_S8192x1_S8192x1_S8192x1_S8192x1_S8192x4_d1),
    binary main_arg1 main_v106 main_v107 ((fun x i => Host.gather gather_S32x3x80x80x11_S8192x4_S8192x11_1_0123_n_n_0123_1_111111 x i) : (⟨S32x3x80x80x11, .f32⟩ : BufTy).Contents (Elt F) → (⟨S8192x4, .i32⟩ : BufTy).Contents (Elt F) → (⟨S8192x11, .f32⟩ : BufTy).Contents (Elt F)),
    unary main_v107 main_v108 ((extractStridedSlice S8192x4 ![0, 0] · slices_S8192x11_S8192x4_0_0) : (⟨S8192x11, .f32⟩ : BufTy).Contents (Elt F) → (⟨S8192x4, .f32⟩ : BufTy).Contents (Elt F)),
    binary main_v108 main_v6 main_v109 (subf : (⟨S8192x4, .f32⟩ : BufTy).Contents (Elt F) → (⟨S8192x4, .f32⟩ : BufTy).Contents (Elt F) → (⟨S8192x4, .f32⟩ : BufTy).Contents (Elt F)),
    unary main_v109 main_v110 (Host.absf : (⟨S8192x4, .f32⟩ : BufTy).Contents (Elt F) → (⟨S8192x4, .f32⟩ : BufTy).Contents (Elt F)),
    nullary main_cst_33 (constant S_ .f32 0x00000000#32),
    binary main_v110 main_cst_33 main_v111 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    unary main_v107 main_v112 ((extractStridedSlice S8192x1 ![0, 4] · slices_S8192x11_S8192x1_0_4) : (⟨S8192x11, .f32⟩ : BufTy).Contents (Elt F) → (⟨S8192x1, .f32⟩ : BufTy).Contents (Elt F)),
    reshape main_v112 main_v113 rfl shapeCasts_S8192x1_S8192,
    unary main_v113 main_v114 (Host.negf : (⟨S8192, .f32⟩ : BufTy).Contents (Elt F) → (⟨S8192, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192, .f32⟩) main_call7_v0) (broadcastInDim S8192 ![] bcast_S_S8192),
    TRef.binary (TRef.of (T := ⟨S8192, .f32⟩) main_v114) (TRef.of (T := ⟨S8192, .f32⟩) main_call7_v0) (TRef.of (T := ⟨S8192, .f32⟩) main_call7_v1) maximumf,
    TRef.unary (TRef.of (T := ⟨S_, .f32⟩) main_call7_cst) (TRef.of (T := ⟨S8192, .f32⟩) main_call7_v2) (broadcastInDim S8192 ![] bcast_S_S8192),
    TRef.binary (TRef.of (T := ⟨S8192, .f32⟩) main_v114) (TRef.of (T := ⟨S8192, .f32⟩) main_call7_v2) (TRef.of (T := ⟨S8192, .f32⟩) main_call7_v3) subf,
    TRef.binary (TRef.of (T := ⟨S8192, .f32⟩) main_call7_v3) (TRef.of (T := ⟨S8192, .f32⟩) main_call7_v3) (TRef.of (T := ⟨S8192, .i1⟩) main_call7_v4) (cmpf .une),
    TRef.unary (TRef.of (T := ⟨S_, .f32⟩) main_call7_cst) (TRef.of (T := ⟨S8192, .f32⟩) main_call7_v5) (broadcastInDim S8192 ![] bcast_S_S8192),
    TRef.binary (TRef.of (T := ⟨S8192, .f32⟩) main_v114) (TRef.of (T := ⟨S8192, .f32⟩) main_call7_v5) (TRef.of (T := ⟨S8192, .f32⟩) main_call7_v6) addf,
    TRef.unary (TRef.of (T := ⟨S8192, .f32⟩) main_call7_v3) (TRef.of (T := ⟨S8192, .f32⟩) main_call7_v7) Host.absf,
    TRef.unary (TRef.of (T := ⟨S8192, .f32⟩) main_call7_v7) (TRef.of (T := ⟨S8192, .f32⟩) main_call7_v8) Host.negf,
    TRef.unary (TRef.of (T := ⟨S8192, .f32⟩) main_call7_v8) (TRef.of (T := ⟨S8192, .f32⟩) main_call7_v9) Host.exp,
    TRef.unary (TRef.of (T := ⟨S8192, .f32⟩) main_call7_v9) (TRef.of (T := ⟨S8192, .f32⟩) main_call7_v10) Host.log1p,
    TRef.binary (TRef.of (T := ⟨S8192, .f32⟩) main_call7_v1) (TRef.of (T := ⟨S8192, .f32⟩) main_call7_v10) (TRef.of (T := ⟨S8192, .f32⟩) main_call7_v11) addf,
    TRef.ternary (TRef.of (T := ⟨S8192, .i1⟩) main_call7_v4) (TRef.of (T := ⟨S8192, .f32⟩) main_call7_v6) (TRef.of (T := ⟨S8192, .f32⟩) main_call7_v11) (TRef.of (T := ⟨S8192, .f32⟩) main_v115) select,
    nullary main_cst_34 (constant S_ .f32 0x00000000#32),
    binary main_v115 main_cst_34 main_v116 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]
set_option maxRecDepth 8192 in
theorem ops05_sub : (ops05 : List (HloOp τ sig (Elt F))).Forall fun op => op.bufs ⊆ tcRefs τ sig :=
  ⟨nary_bufs_sub .., binary_bufs_sub .., unary_bufs_sub .., binary_bufs_sub .., unary_bufs_sub .., nullary_bufs_sub .., binary_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub ..⟩

set_option maxHeartbeats 4000000 in
/-- Operations 218 to 257. -/
abbrev ops06 : List (HloOp τ sig (Elt F)) :=
  [ unary main_v107 main_v117 ((extractStridedSlice S8192x6 ![0, 5] · slices_S8192x11_S8192x6_0_5) : (⟨S8192x11, .f32⟩ : BufTy).Contents (Elt F) → (⟨S8192x6, .f32⟩ : BufTy).Contents (Elt F)),
    TRef.unary (TRef.of (T := ⟨S8192, .i32⟩) main_v5) (TRef.of (T := ⟨S8192x1, .i32⟩) main_call8_v0) (broadcastInDim S8192x1 ![0] bcast_S8192_S8192x1_0),
    TRef.nullary (TRef.of (T := ⟨S1x6, .i32⟩) main_call8_v1) (iotaInDim S1x6 32 1),
    TRef.unary (TRef.of (T := ⟨S8192x1, .i32⟩) main_call8_v0) (TRef.of (T := ⟨S8192x6, .i32⟩) main_call8_v2) (broadcastInDim S8192x6 ![0, 1] bcast_S8192x1_S8192x6_0_1),
    TRef.unary (TRef.of (T := ⟨S1x6, .i32⟩) main_call8_v1) (TRef.of (T := ⟨S8192x6, .i32⟩) main_call8_v3) (broadcastInDim S8192x6 ![0, 1] bcast_S1x6_S8192x6_0_1),
    TRef.binary (TRef.of (T := ⟨S8192x6, .i32⟩) main_call8_v2) (TRef.of (T := ⟨S8192x6, .i32⟩) main_call8_v3) (TRef.of (T := ⟨S8192x6, .i1⟩) main_call8_v4) (cmpi .eq),
    TRef.unary (TRef.of (T := ⟨S8192x6, .i1⟩) main_call8_v4) (TRef.of (T := ⟨S8192x6, .f32⟩) main_v118) (uitofp .f32),
    TRef.nullary (TRef.of (T := ⟨S_, .f32⟩) main_call9_cst) (constant S_ .f32 0x00000000#32),
    TRef.unary (TRef.of (T := ⟨S_, .f32⟩) main_call9_cst) (TRef.of (T := ⟨S8192x6, .f32⟩) main_call9_v0) (broadcastInDim S8192x6 ![] bcast_S_S8192x6),
    TRef.binary (TRef.of (T := ⟨S8192x6, .f32⟩) main_v117) (TRef.of (T := ⟨S8192x6, .f32⟩) main_call9_v0) (TRef.of (T := ⟨S8192x6, .f32⟩) main_call9_v1) maximumf,
    TRef.unary (TRef.of (T := ⟨S_, .f32⟩) main_call9_cst) (TRef.of (T := ⟨S8192x6, .f32⟩) main_call9_v2) (broadcastInDim S8192x6 ![] bcast_S_S8192x6),
    TRef.binary (TRef.of (T := ⟨S8192x6, .f32⟩) main_v117) (TRef.of (T := ⟨S8192x6, .f32⟩) main_call9_v2) (TRef.of (T := ⟨S8192x6, .f32⟩) main_call9_v3) subf,
    TRef.binary (TRef.of (T := ⟨S8192x6, .f32⟩) main_call9_v3) (TRef.of (T := ⟨S8192x6, .f32⟩) main_call9_v3) (TRef.of (T := ⟨S8192x6, .i1⟩) main_call9_v4) (cmpf .une),
    TRef.unary (TRef.of (T := ⟨S_, .f32⟩) main_call9_cst) (TRef.of (T := ⟨S8192x6, .f32⟩) main_call9_v5) (broadcastInDim S8192x6 ![] bcast_S_S8192x6),
    TRef.binary (TRef.of (T := ⟨S8192x6, .f32⟩) main_v117) (TRef.of (T := ⟨S8192x6, .f32⟩) main_call9_v5) (TRef.of (T := ⟨S8192x6, .f32⟩) main_call9_v6) addf,
    TRef.unary (TRef.of (T := ⟨S8192x6, .f32⟩) main_call9_v3) (TRef.of (T := ⟨S8192x6, .f32⟩) main_call9_v7) Host.absf,
    TRef.unary (TRef.of (T := ⟨S8192x6, .f32⟩) main_call9_v7) (TRef.of (T := ⟨S8192x6, .f32⟩) main_call9_v8) Host.negf,
    TRef.unary (TRef.of (T := ⟨S8192x6, .f32⟩) main_call9_v8) (TRef.of (T := ⟨S8192x6, .f32⟩) main_call9_v9) Host.exp,
    TRef.unary (TRef.of (T := ⟨S8192x6, .f32⟩) main_call9_v9) (TRef.of (T := ⟨S8192x6, .f32⟩) main_call9_v10) Host.log1p,
    TRef.binary (TRef.of (T := ⟨S8192x6, .f32⟩) main_call9_v1) (TRef.of (T := ⟨S8192x6, .f32⟩) main_call9_v10) (TRef.of (T := ⟨S8192x6, .f32⟩) main_call9_v11) addf,
    TRef.ternary (TRef.of (T := ⟨S8192x6, .i1⟩) main_call9_v4) (TRef.of (T := ⟨S8192x6, .f32⟩) main_call9_v6) (TRef.of (T := ⟨S8192x6, .f32⟩) main_call9_v11) (TRef.of (T := ⟨S8192x6, .f32⟩) main_v119) select,
    binary main_v117 main_v118 main_v120 (mulf : (⟨S8192x6, .f32⟩ : BufTy).Contents (Elt F) → (⟨S8192x6, .f32⟩ : BufTy).Contents (Elt F) → (⟨S8192x6, .f32⟩ : BufTy).Contents (Elt F)),
    binary main_v119 main_v120 main_v121 (subf : (⟨S8192x6, .f32⟩ : BufTy).Contents (Elt F) → (⟨S8192x6, .f32⟩ : BufTy).Contents (Elt F) → (⟨S8192x6, .f32⟩ : BufTy).Contents (Elt F)),
    nullary main_cst_35 (constant S_ .f32 0x00000000#32),
    binary main_v121 main_cst_35 main_v122 ((fun x v => Host.reduceAdd x v reducesTo_S8192x6_S_d0_1 h_S_) : (⟨S8192x6, .f32⟩ : BufTy).Contents (Elt F) → (⟨S_, .f32⟩ : BufTy).Contents (Elt F) → (⟨S_, .f32⟩ : BufTy).Contents (Elt F)),
    nullary main_c_36 (constantI S_ 32 1#32),
    nullary main_c_37 (constantI S_ 32 8192#32),
    binary main_c_36 main_c_37 main_v123 (maxsi : (⟨S_, .i32⟩ : BufTy).Contents (Elt F) → (⟨S_, .i32⟩ : BufTy).Contents (Elt F) → (⟨S_, .i32⟩ : BufTy).Contents (Elt F)),
    unary main_v123 main_v124 (sitofp .f32 : (⟨S_, .i32⟩ : BufTy).Contents (Elt F) → (⟨S_, .f32⟩ : BufTy).Contents (Elt F)),
    nullary main_cst_38 (constant S_ .f32 0x3F800000#32),
    binary main_cst_38 main_v124 main_v125 (Host.divf : (⟨S_, .f32⟩ : BufTy).Contents (Elt F) → (⟨S_, .f32⟩ : BufTy).Contents (Elt F) → (⟨S_, .f32⟩ : BufTy).Contents (Elt F)),
    unary main_v125 main_v126 (id : (⟨S_, .f32⟩ : BufTy).Contents (Elt F) → (⟨S_, .f32⟩ : BufTy).Contents (Elt F)),
    binary main_v111 main_v126 main_v127 (mulf : (⟨S_, .f32⟩ : BufTy).Contents (Elt F) → (⟨S_, .f32⟩ : BufTy).Contents (Elt F) → (⟨S_, .f32⟩ : BufTy).Contents (Elt F)),
    unary main_v125 main_v128 (id : (⟨S_, .f32⟩ : BufTy).Contents (Elt F) → (⟨S_, .f32⟩ : BufTy).Contents (Elt F)),
    binary main_v116 main_v128 main_v129 (mulf : (⟨S_, .f32⟩ : BufTy).Contents (Elt F) → (⟨S_, .f32⟩ : BufTy).Contents (Elt F) → (⟨S_, .f32⟩ : BufTy).Contents (Elt F)),
    unary main_v125 main_v130 (id : (⟨S_, .f32⟩ : BufTy).Contents (Elt F) → (⟨S_, .f32⟩ : BufTy).Contents (Elt F)),
    binary main_v122 main_v130 main_v131 (mulf : (⟨S_, .f32⟩ : BufTy).Contents (Elt F) → (⟨S_, .f32⟩ : BufTy).Contents (Elt F) → (⟨S_, .f32⟩ : BufTy).Contents (Elt F)),
    binary main_v68 main_v127 main_v132 (addf : (⟨S_, .f32⟩ : BufTy).Contents (Elt F) → (⟨S_, .f32⟩ : BufTy).Contents (Elt F) → (⟨S_, .f32⟩ : BufTy).Contents (Elt F)),
    binary main_v69 main_v129 main_v133 (addf : (⟨S_, .f32⟩ : BufTy).Contents (Elt F) → (⟨S_, .f32⟩ : BufTy).Contents (Elt F) → (⟨S_, .f32⟩ : BufTy).Contents (Elt F)),
    binary main_v70 main_v131 main_v134 (addf : (⟨S_, .f32⟩ : BufTy).Contents (Elt F) → (⟨S_, .f32⟩ : BufTy).Contents (Elt F) → (⟨S_, .f32⟩ : BufTy).Contents (Elt F)) ]
set_option maxRecDepth 8192 in
theorem ops06_sub : (ops06 : List (HloOp τ sig (Elt F))).Forall fun op => op.bufs ⊆ tcRefs τ sig :=
  ⟨unary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., nullary_bufs_sub .., binary_bufs_sub .., unary_bufs_sub .., nullary_bufs_sub .., binary_bufs_sub .., unary_bufs_sub .., binary_bufs_sub .., unary_bufs_sub .., binary_bufs_sub .., unary_bufs_sub .., binary_bufs_sub .., binary_bufs_sub .., binary_bufs_sub .., binary_bufs_sub ..⟩

set_option maxHeartbeats 4000000 in
/-- Operations 258 to 315. -/
abbrev ops07 : List (HloOp τ sig (Elt F)) :=
  [ unary main_v6 main_v135 ((extractStridedSlice S8192x1 ![0, 0] · slices_S8192x4_S8192x1_0_0) : (⟨S8192x4, .f32⟩ : BufTy).Contents (Elt F) → (⟨S8192x1, .f32⟩ : BufTy).Contents (Elt F)),
    reshape main_v135 main_v136 rfl shapeCasts_S8192x1_S8192,
    nullary main_cst_39 (constant S_ .f32 0x42200000#32),
    unary main_cst_39 main_v137 (broadcastInDim S8192 ![] bcast_S_S8192 : (⟨S_, .f32⟩ : BufTy).Contents (Elt F) → (⟨S8192, .f32⟩ : BufTy).Contents (Elt F)),
    binary main_v137 main_v136 main_v138 (mulf : (⟨S8192, .f32⟩ : BufTy).Contents (Elt F) → (⟨S8192, .f32⟩ : BufTy).Contents (Elt F) → (⟨S8192, .f32⟩ : BufTy).Contents (Elt F)),
    unary main_v138 main_v139 (Host.floor : (⟨S8192, .f32⟩ : BufTy).Contents (Elt F) → (⟨S8192, .f32⟩ : BufTy).Contents (Elt F)),
    unary main_v139 main_v140 (fptosi 32 : (⟨S8192, .f32⟩ : BufTy).Contents (Elt F) → (⟨S8192, .i32⟩ : BufTy).Contents (Elt F)),
    nullary main_c_40 (constantI S_ 32 0#32),
    nullary main_c_41 (constantI S_ 32 39#32),
    TRef.unary (TRef.of (T := ⟨S_, .i32⟩) main_c_40) (TRef.of (T := ⟨S_, .i32⟩) main_call10_v0) id,
    TRef.unary (TRef.of (T := ⟨S_, .i32⟩) main_call10_v0) (TRef.of (T := ⟨S8192, .i32⟩) main_call10_v1) (broadcastInDim S8192 ![] bcast_S_S8192),
    TRef.binary (TRef.of (T := ⟨S8192, .i32⟩) main_call10_v1) (TRef.of (T := ⟨S8192, .i32⟩) main_v140) (TRef.of (T := ⟨S8192, .i32⟩) main_call10_v2) maxsi,
    TRef.unary (TRef.of (T := ⟨S_, .i32⟩) main_c_41) (TRef.of (T := ⟨S_, .i32⟩) main_call10_v3) id,
    TRef.unary (TRef.of (T := ⟨S_, .i32⟩) main_call10_v3) (TRef.of (T := ⟨S8192, .i32⟩) main_call10_v4) (broadcastInDim S8192 ![] bcast_S_S8192),
    TRef.binary (TRef.of (T := ⟨S8192, .i32⟩) main_call10_v4) (TRef.of (T := ⟨S8192, .i32⟩) main_call10_v2) (TRef.of (T := ⟨S8192, .i32⟩) main_v141) minsi,
    unary main_v6 main_v142 ((extractStridedSlice S8192x1 ![0, 1] · slices_S8192x4_S8192x1_0_1) : (⟨S8192x4, .f32⟩ : BufTy).Contents (Elt F) → (⟨S8192x1, .f32⟩ : BufTy).Contents (Elt F)),
    reshape main_v142 main_v143 rfl shapeCasts_S8192x1_S8192,
    nullary main_cst_42 (constant S_ .f32 0x42200000#32),
    unary main_cst_42 main_v144 (broadcastInDim S8192 ![] bcast_S_S8192 : (⟨S_, .f32⟩ : BufTy).Contents (Elt F) → (⟨S8192, .f32⟩ : BufTy).Contents (Elt F)),
    binary main_v144 main_v143 main_v145 (mulf : (⟨S8192, .f32⟩ : BufTy).Contents (Elt F) → (⟨S8192, .f32⟩ : BufTy).Contents (Elt F) → (⟨S8192, .f32⟩ : BufTy).Contents (Elt F)),
    unary main_v145 main_v146 (Host.floor : (⟨S8192, .f32⟩ : BufTy).Contents (Elt F) → (⟨S8192, .f32⟩ : BufTy).Contents (Elt F)),
    unary main_v146 main_v147 (fptosi 32 : (⟨S8192, .f32⟩ : BufTy).Contents (Elt F) → (⟨S8192, .i32⟩ : BufTy).Contents (Elt F)),
    nullary main_c_43 (constantI S_ 32 0#32),
    nullary main_c_44 (constantI S_ 32 39#32),
    TRef.unary (TRef.of (T := ⟨S_, .i32⟩) main_c_43) (TRef.of (T := ⟨S_, .i32⟩) main_call11_v0) id,
    TRef.unary (TRef.of (T := ⟨S_, .i32⟩) main_call11_v0) (TRef.of (T := ⟨S8192, .i32⟩) main_call11_v1) (broadcastInDim S8192 ![] bcast_S_S8192),
    TRef.binary (TRef.of (T := ⟨S8192, .i32⟩) main_call11_v1) (TRef.of (T := ⟨S8192, .i32⟩) main_v147) (TRef.of (T := ⟨S8192, .i32⟩) main_call11_v2) maxsi,
    TRef.unary (TRef.of (T := ⟨S_, .i32⟩) main_c_44) (TRef.of (T := ⟨S_, .i32⟩) main_call11_v3) id,
    TRef.unary (TRef.of (T := ⟨S_, .i32⟩) main_call11_v3) (TRef.of (T := ⟨S8192, .i32⟩) main_call11_v4) (broadcastInDim S8192 ![] bcast_S_S8192),
    TRef.binary (TRef.of (T := ⟨S8192, .i32⟩) main_call11_v4) (TRef.of (T := ⟨S8192, .i32⟩) main_call11_v2) (TRef.of (T := ⟨S8192, .i32⟩) main_v148) minsi,
    nullary main_c_45 (constantI S_ 32 0#32),
    unary main_c_45 main_v149 (broadcastInDim S8192 ![] bcast_S_S8192 : (⟨S_, .i32⟩ : BufTy).Contents (Elt F) → (⟨S8192, .i32⟩ : BufTy).Contents (Elt F)),
    binary main_v2 main_v149 main_v150 (cmpi .slt : (⟨S8192, .i32⟩ : BufTy).Contents (Elt F) → (⟨S8192, .i32⟩ : BufTy).Contents (Elt F) → (⟨S8192, .i1⟩ : BufTy).Contents (Elt F)),
    nullary main_c_46 (constantI S_ 32 32#32),
    unary main_c_46 main_v151 (broadcastInDim S8192 ![] bcast_S_S8192 : (⟨S_, .i32⟩ : BufTy).Contents (Elt F) → (⟨S8192, .i32⟩ : BufTy).Contents (Elt F)),
    binary main_v2 main_v151 main_v152 (addi : (⟨S8192, .i32⟩ : BufTy).Contents (Elt F) → (⟨S8192, .i32⟩ : BufTy).Contents (Elt F) → (⟨S8192, .i32⟩ : BufTy).Contents (Elt F)),
    ternary main_v150 main_v152 main_v2 main_v153 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_47 (constantI S_ 32 0#32),
    unary main_c_47 main_v154 (broadcastInDim S8192 ![] bcast_S_S8192 : (⟨S_, .i32⟩ : BufTy).Contents (Elt F) → (⟨S8192, .i32⟩ : BufTy).Contents (Elt F)),
    binary main_v148 main_v154 main_v155 (cmpi .slt : (⟨S8192, .i32⟩ : BufTy).Contents (Elt F) → (⟨S8192, .i32⟩ : BufTy).Contents (Elt F) → (⟨S8192, .i1⟩ : BufTy).Contents (Elt F)),
    nullary main_c_48 (constantI S_ 32 40#32),
    unary main_c_48 main_v156 (broadcastInDim S8192 ![] bcast_S_S8192 : (⟨S_, .i32⟩ : BufTy).Contents (Elt F) → (⟨S8192, .i32⟩ : BufTy).Contents (Elt F)),
    binary main_v148 main_v156 main_v157 (addi : (⟨S8192, .i32⟩ : BufTy).Contents (Elt F) → (⟨S8192, .i32⟩ : BufTy).Contents (Elt F) → (⟨S8192, .i32⟩ : BufTy).Contents (Elt F)),
    ternary main_v155 main_v157 main_v148 main_v158 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_49 (constantI S_ 32 0#32),
    unary main_c_49 main_v159 (broadcastInDim S8192 ![] bcast_S_S8192 : (⟨S_, .i32⟩ : BufTy).Contents (Elt F) → (⟨S8192, .i32⟩ : BufTy).Contents (Elt F)),
    binary main_v141 main_v159 main_v160 (cmpi .slt : (⟨S8192, .i32⟩ : BufTy).Contents (Elt F) → (⟨S8192, .i32⟩ : BufTy).Contents (Elt F) → (⟨S8192, .i1⟩ : BufTy).Contents (Elt F)),
    nullary main_c_50 (constantI S_ 32 40#32),
    unary main_c_50 main_v161 (broadcastInDim S8192 ![] bcast_S_S8192 : (⟨S_, .i32⟩ : BufTy).Contents (Elt F) → (⟨S8192, .i32⟩ : BufTy).Contents (Elt F)),
    binary main_v141 main_v161 main_v162 (addi : (⟨S8192, .i32⟩ : BufTy).Contents (Elt F) → (⟨S8192, .i32⟩ : BufTy).Contents (Elt F) → (⟨S8192, .i32⟩ : BufTy).Contents (Elt F)),
    ternary main_v160 main_v162 main_v141 main_v163 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_51 (constantI S_ 32 0#32),
    unary main_c_51 main_v164 (broadcastInDim S8192 ![] bcast_S_S8192 : (⟨S_, .i32⟩ : BufTy).Contents (Elt F) → (⟨S8192, .i32⟩ : BufTy).Contents (Elt F)),
    unary main_v164 main_v165 (id : (⟨S8192, .i32⟩ : BufTy).Contents (Elt F) → (⟨S8192, .i32⟩ : BufTy).Contents (Elt F)),
    unary main_v153 main_v166 (broadcastInDim S8192x1 ![0] bcast_S8192_S8192x1_0 : (⟨S8192, .i32⟩ : BufTy).Contents (Elt F) → (⟨S8192x1, .i32⟩ : BufTy).Contents (Elt F)),
    unary main_v165 main_v167 (broadcastInDim S8192x1 ![0] bcast_S8192_S8192x1_0 : (⟨S8192, .i32⟩ : BufTy).Contents (Elt F) → (⟨S8192x1, .i32⟩ : BufTy).Contents (Elt F)),
    unary main_v158 main_v168 (broadcastInDim S8192x1 ![0] bcast_S8192_S8192x1_0 : (⟨S8192, .i32⟩ : BufTy).Contents (Elt F) → (⟨S8192x1, .i32⟩ : BufTy).Contents (Elt F)),
    unary main_v163 main_v169 (broadcastInDim S8192x1 ![0] bcast_S8192_S8192x1_0 : (⟨S8192, .i32⟩ : BufTy).Contents (Elt F) → (⟨S8192x1, .i32⟩ : BufTy).Contents (Elt F)) ]
set_option maxRecDepth 8192 in
theorem ops07_sub : (ops07 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., unary_bufs_sub .., unary_bufs_sub ..⟩

set_option maxHeartbeats 4000000 in
/-- Operations 316 to 341. -/
abbrev ops08 : List (HloOp τ sig (Elt F)) :=
  [ nary ![main_v166, main_v167, main_v168, main_v169] main_v170 (fun u => concatenate S8192x4 1 [⟨S8192x1, u 0⟩, ⟨S8192x1, u 1⟩, ⟨S8192x1, u 2⟩, ⟨S8192x1, u 3⟩] concatenates_S8192x1_S8192x1_S8192x1_S8192x1_S8192x4_d1),
    binary main_arg2 main_v170 main_v171 ((fun x i => Host.gather gather_S32x3x40x40x11_S8192x4_S8192x11_1_0123_n_n_0123_1_111111 x i) : (⟨S32x3x40x40x11, .f32⟩ : BufTy).Contents (Elt F) → (⟨S8192x4, .i32⟩ : BufTy).Contents (Elt F) → (⟨S8192x11, .f32⟩ : BufTy).Contents (Elt F)),
    unary main_v171 main_v172 ((extractStridedSlice S8192x4 ![0, 0] · slices_S8192x11_S8192x4_0_0) : (⟨S8192x11, .f32⟩ : BufTy).Contents (Elt F) → (⟨S8192x4, .f32⟩ : BufTy).Contents (Elt F)),
    binary main_v172 main_v6 main_v173 (subf : (⟨S8192x4, .f32⟩ : BufTy).Contents (Elt F) → (⟨S8192x4, .f32⟩ : BufTy).Contents (Elt F) → (⟨S8192x4, .f32⟩ : BufTy).Contents (Elt F)),
    unary main_v173 main_v174 (Host.absf : (⟨S8192x4, .f32⟩ : BufTy).Contents (Elt F) → (⟨S8192x4, .f32⟩ : BufTy).Contents (Elt F)),
    nullary main_cst_52 (constant S_ .f32 0x00000000#32),
    binary main_v174 main_cst_52 main_v175 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    unary main_v171 main_v176 ((extractStridedSlice S8192x1 ![0, 4] · slices_S8192x11_S8192x1_0_4) : (⟨S8192x11, .f32⟩ : BufTy).Contents (Elt F) → (⟨S8192x1, .f32⟩ : BufTy).Contents (Elt F)),
    reshape main_v176 main_v177 rfl shapeCasts_S8192x1_S8192,
    unary main_v177 main_v178 (Host.negf : (⟨S8192, .f32⟩ : BufTy).Contents (Elt F) → (⟨S8192, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8192, .f32⟩) main_call12_v0) (broadcastInDim S8192 ![] bcast_S_S8192),
    TRef.binary (TRef.of (T := ⟨S8192, .f32⟩) main_v178) (TRef.of (T := ⟨S8192, .f32⟩) main_call12_v0) (TRef.of (T := ⟨S8192, .f32⟩) main_call12_v1) maximumf,
    TRef.unary (TRef.of (T := ⟨S_, .f32⟩) main_call12_cst) (TRef.of (T := ⟨S8192, .f32⟩) main_call12_v2) (broadcastInDim S8192 ![] bcast_S_S8192),
    TRef.binary (TRef.of (T := ⟨S8192, .f32⟩) main_v178) (TRef.of (T := ⟨S8192, .f32⟩) main_call12_v2) (TRef.of (T := ⟨S8192, .f32⟩) main_call12_v3) subf,
    TRef.binary (TRef.of (T := ⟨S8192, .f32⟩) main_call12_v3) (TRef.of (T := ⟨S8192, .f32⟩) main_call12_v3) (TRef.of (T := ⟨S8192, .i1⟩) main_call12_v4) (cmpf .une),
    TRef.unary (TRef.of (T := ⟨S_, .f32⟩) main_call12_cst) (TRef.of (T := ⟨S8192, .f32⟩) main_call12_v5) (broadcastInDim S8192 ![] bcast_S_S8192),
    TRef.binary (TRef.of (T := ⟨S8192, .f32⟩) main_v178) (TRef.of (T := ⟨S8192, .f32⟩) main_call12_v5) (TRef.of (T := ⟨S8192, .f32⟩) main_call12_v6) addf,
    TRef.unary (TRef.of (T := ⟨S8192, .f32⟩) main_call12_v3) (TRef.of (T := ⟨S8192, .f32⟩) main_call12_v7) Host.absf,
    TRef.unary (TRef.of (T := ⟨S8192, .f32⟩) main_call12_v7) (TRef.of (T := ⟨S8192, .f32⟩) main_call12_v8) Host.negf,
    TRef.unary (TRef.of (T := ⟨S8192, .f32⟩) main_call12_v8) (TRef.of (T := ⟨S8192, .f32⟩) main_call12_v9) Host.exp,
    TRef.unary (TRef.of (T := ⟨S8192, .f32⟩) main_call12_v9) (TRef.of (T := ⟨S8192, .f32⟩) main_call12_v10) Host.log1p,
    TRef.binary (TRef.of (T := ⟨S8192, .f32⟩) main_call12_v1) (TRef.of (T := ⟨S8192, .f32⟩) main_call12_v10) (TRef.of (T := ⟨S8192, .f32⟩) main_call12_v11) addf,
    TRef.ternary (TRef.of (T := ⟨S8192, .i1⟩) main_call12_v4) (TRef.of (T := ⟨S8192, .f32⟩) main_call12_v6) (TRef.of (T := ⟨S8192, .f32⟩) main_call12_v11) (TRef.of (T := ⟨S8192, .f32⟩) main_v179) select,
    nullary main_cst_53 (constant S_ .f32 0x00000000#32),
    binary main_v179 main_cst_53 main_v180 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]
set_option maxRecDepth 8192 in
theorem ops08_sub : (ops08 : List (HloOp τ sig (Elt F))).Forall fun op => op.bufs ⊆ tcRefs τ sig :=
  ⟨nary_bufs_sub .., binary_bufs_sub .., unary_bufs_sub .., binary_bufs_sub .., unary_bufs_sub .., nullary_bufs_sub .., binary_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub ..⟩

set_option maxHeartbeats 4000000 in
/-- Operations 342 to 381. -/
abbrev ops09 : List (HloOp τ sig (Elt F)) :=
  [ unary main_v171 main_v181 ((extractStridedSlice S8192x6 ![0, 5] · slices_S8192x11_S8192x6_0_5) : (⟨S8192x11, .f32⟩ : BufTy).Contents (Elt F) → (⟨S8192x6, .f32⟩ : BufTy).Contents (Elt F)),
    TRef.unary (TRef.of (T := ⟨S8192, .i32⟩) main_v5) (TRef.of (T := ⟨S8192x1, .i32⟩) main_call13_v0) (broadcastInDim S8192x1 ![0] bcast_S8192_S8192x1_0),
    TRef.nullary (TRef.of (T := ⟨S1x6, .i32⟩) main_call13_v1) (iotaInDim S1x6 32 1),
    TRef.unary (TRef.of (T := ⟨S8192x1, .i32⟩) main_call13_v0) (TRef.of (T := ⟨S8192x6, .i32⟩) main_call13_v2) (broadcastInDim S8192x6 ![0, 1] bcast_S8192x1_S8192x6_0_1),
    TRef.unary (TRef.of (T := ⟨S1x6, .i32⟩) main_call13_v1) (TRef.of (T := ⟨S8192x6, .i32⟩) main_call13_v3) (broadcastInDim S8192x6 ![0, 1] bcast_S1x6_S8192x6_0_1),
    TRef.binary (TRef.of (T := ⟨S8192x6, .i32⟩) main_call13_v2) (TRef.of (T := ⟨S8192x6, .i32⟩) main_call13_v3) (TRef.of (T := ⟨S8192x6, .i1⟩) main_call13_v4) (cmpi .eq),
    TRef.unary (TRef.of (T := ⟨S8192x6, .i1⟩) main_call13_v4) (TRef.of (T := ⟨S8192x6, .f32⟩) main_v182) (uitofp .f32),
    TRef.nullary (TRef.of (T := ⟨S_, .f32⟩) main_call14_cst) (constant S_ .f32 0x00000000#32),
    TRef.unary (TRef.of (T := ⟨S_, .f32⟩) main_call14_cst) (TRef.of (T := ⟨S8192x6, .f32⟩) main_call14_v0) (broadcastInDim S8192x6 ![] bcast_S_S8192x6),
    TRef.binary (TRef.of (T := ⟨S8192x6, .f32⟩) main_v181) (TRef.of (T := ⟨S8192x6, .f32⟩) main_call14_v0) (TRef.of (T := ⟨S8192x6, .f32⟩) main_call14_v1) maximumf,
    TRef.unary (TRef.of (T := ⟨S_, .f32⟩) main_call14_cst) (TRef.of (T := ⟨S8192x6, .f32⟩) main_call14_v2) (broadcastInDim S8192x6 ![] bcast_S_S8192x6),
    TRef.binary (TRef.of (T := ⟨S8192x6, .f32⟩) main_v181) (TRef.of (T := ⟨S8192x6, .f32⟩) main_call14_v2) (TRef.of (T := ⟨S8192x6, .f32⟩) main_call14_v3) subf,
    TRef.binary (TRef.of (T := ⟨S8192x6, .f32⟩) main_call14_v3) (TRef.of (T := ⟨S8192x6, .f32⟩) main_call14_v3) (TRef.of (T := ⟨S8192x6, .i1⟩) main_call14_v4) (cmpf .une),
    TRef.unary (TRef.of (T := ⟨S_, .f32⟩) main_call14_cst) (TRef.of (T := ⟨S8192x6, .f32⟩) main_call14_v5) (broadcastInDim S8192x6 ![] bcast_S_S8192x6),
    TRef.binary (TRef.of (T := ⟨S8192x6, .f32⟩) main_v181) (TRef.of (T := ⟨S8192x6, .f32⟩) main_call14_v5) (TRef.of (T := ⟨S8192x6, .f32⟩) main_call14_v6) addf,
    TRef.unary (TRef.of (T := ⟨S8192x6, .f32⟩) main_call14_v3) (TRef.of (T := ⟨S8192x6, .f32⟩) main_call14_v7) Host.absf,
    TRef.unary (TRef.of (T := ⟨S8192x6, .f32⟩) main_call14_v7) (TRef.of (T := ⟨S8192x6, .f32⟩) main_call14_v8) Host.negf,
    TRef.unary (TRef.of (T := ⟨S8192x6, .f32⟩) main_call14_v8) (TRef.of (T := ⟨S8192x6, .f32⟩) main_call14_v9) Host.exp,
    TRef.unary (TRef.of (T := ⟨S8192x6, .f32⟩) main_call14_v9) (TRef.of (T := ⟨S8192x6, .f32⟩) main_call14_v10) Host.log1p,
    TRef.binary (TRef.of (T := ⟨S8192x6, .f32⟩) main_call14_v1) (TRef.of (T := ⟨S8192x6, .f32⟩) main_call14_v10) (TRef.of (T := ⟨S8192x6, .f32⟩) main_call14_v11) addf,
    TRef.ternary (TRef.of (T := ⟨S8192x6, .i1⟩) main_call14_v4) (TRef.of (T := ⟨S8192x6, .f32⟩) main_call14_v6) (TRef.of (T := ⟨S8192x6, .f32⟩) main_call14_v11) (TRef.of (T := ⟨S8192x6, .f32⟩) main_v183) select,
    binary main_v181 main_v182 main_v184 (mulf : (⟨S8192x6, .f32⟩ : BufTy).Contents (Elt F) → (⟨S8192x6, .f32⟩ : BufTy).Contents (Elt F) → (⟨S8192x6, .f32⟩ : BufTy).Contents (Elt F)),
    binary main_v183 main_v184 main_v185 (subf : (⟨S8192x6, .f32⟩ : BufTy).Contents (Elt F) → (⟨S8192x6, .f32⟩ : BufTy).Contents (Elt F) → (⟨S8192x6, .f32⟩ : BufTy).Contents (Elt F)),
    nullary main_cst_54 (constant S_ .f32 0x00000000#32),
    binary main_v185 main_cst_54 main_v186 ((fun x v => Host.reduceAdd x v reducesTo_S8192x6_S_d0_1 h_S_) : (⟨S8192x6, .f32⟩ : BufTy).Contents (Elt F) → (⟨S_, .f32⟩ : BufTy).Contents (Elt F) → (⟨S_, .f32⟩ : BufTy).Contents (Elt F)),
    nullary main_c_55 (constantI S_ 32 1#32),
    nullary main_c_56 (constantI S_ 32 8192#32),
    binary main_c_55 main_c_56 main_v187 (maxsi : (⟨S_, .i32⟩ : BufTy).Contents (Elt F) → (⟨S_, .i32⟩ : BufTy).Contents (Elt F) → (⟨S_, .i32⟩ : BufTy).Contents (Elt F)),
    unary main_v187 main_v188 (sitofp .f32 : (⟨S_, .i32⟩ : BufTy).Contents (Elt F) → (⟨S_, .f32⟩ : BufTy).Contents (Elt F)),
    nullary main_cst_57 (constant S_ .f32 0x3F800000#32),
    binary main_cst_57 main_v188 main_v189 (Host.divf : (⟨S_, .f32⟩ : BufTy).Contents (Elt F) → (⟨S_, .f32⟩ : BufTy).Contents (Elt F) → (⟨S_, .f32⟩ : BufTy).Contents (Elt F)),
    unary main_v189 main_v190 (id : (⟨S_, .f32⟩ : BufTy).Contents (Elt F) → (⟨S_, .f32⟩ : BufTy).Contents (Elt F)),
    binary main_v175 main_v190 main_v191 (mulf : (⟨S_, .f32⟩ : BufTy).Contents (Elt F) → (⟨S_, .f32⟩ : BufTy).Contents (Elt F) → (⟨S_, .f32⟩ : BufTy).Contents (Elt F)),
    unary main_v189 main_v192 (id : (⟨S_, .f32⟩ : BufTy).Contents (Elt F) → (⟨S_, .f32⟩ : BufTy).Contents (Elt F)),
    binary main_v180 main_v192 main_v193 (mulf : (⟨S_, .f32⟩ : BufTy).Contents (Elt F) → (⟨S_, .f32⟩ : BufTy).Contents (Elt F) → (⟨S_, .f32⟩ : BufTy).Contents (Elt F)),
    unary main_v189 main_v194 (id : (⟨S_, .f32⟩ : BufTy).Contents (Elt F) → (⟨S_, .f32⟩ : BufTy).Contents (Elt F)),
    binary main_v186 main_v194 main_v195 (mulf : (⟨S_, .f32⟩ : BufTy).Contents (Elt F) → (⟨S_, .f32⟩ : BufTy).Contents (Elt F) → (⟨S_, .f32⟩ : BufTy).Contents (Elt F)),
    binary main_v132 main_v191 main_v196 (addf : (⟨S_, .f32⟩ : BufTy).Contents (Elt F) → (⟨S_, .f32⟩ : BufTy).Contents (Elt F) → (⟨S_, .f32⟩ : BufTy).Contents (Elt F)),
    binary main_v133 main_v193 main_v197 (addf : (⟨S_, .f32⟩ : BufTy).Contents (Elt F) → (⟨S_, .f32⟩ : BufTy).Contents (Elt F) → (⟨S_, .f32⟩ : BufTy).Contents (Elt F)),
    binary main_v134 main_v195 main_v198 (addf : (⟨S_, .f32⟩ : BufTy).Contents (Elt F) → (⟨S_, .f32⟩ : BufTy).Contents (Elt F) → (⟨S_, .f32⟩ : BufTy).Contents (Elt F)) ]
set_option maxRecDepth 8192 in
theorem ops09_sub : (ops09 : List (HloOp τ sig (Elt F))).Forall fun op => op.bufs ⊆ tcRefs τ sig :=
  ⟨unary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., nullary_bufs_sub .., binary_bufs_sub .., unary_bufs_sub .., nullary_bufs_sub .., binary_bufs_sub .., unary_bufs_sub .., binary_bufs_sub .., unary_bufs_sub .., binary_bufs_sub .., unary_bufs_sub .., binary_bufs_sub .., binary_bufs_sub .., binary_bufs_sub .., binary_bufs_sub ..⟩

set_option maxHeartbeats 4000000 in
/-- Operations 382 to 389. -/
abbrev ops10 : List (HloOp τ sig (Elt F)) :=
  [ nullary main_cst_58 (constant S_ .f32 0x40F00000#32),
    binary main_v196 main_cst_58 main_v199 (mulf : (⟨S_, .f32⟩ : BufTy).Contents (Elt F) → (⟨S_, .f32⟩ : BufTy).Contents (Elt F) → (⟨S_, .f32⟩ : BufTy).Contents (Elt F)),
    nullary main_cst_59 (constant S_ .f32 0x3FC00000#32),
    binary main_v197 main_cst_59 main_v200 (mulf : (⟨S_, .f32⟩ : BufTy).Contents (Elt F) → (⟨S_, .f32⟩ : BufTy).Contents (Elt F) → (⟨S_, .f32⟩ : BufTy).Contents (Elt F)),
    nullary main_cst_60 (constant S_ .f32 0x3F000000#32),
    binary main_v198 main_cst_60 main_v201 (mulf : (⟨S_, .f32⟩ : BufTy).Contents (Elt F) → (⟨S_, .f32⟩ : BufTy).Contents (Elt F) → (⟨S_, .f32⟩ : BufTy).Contents (Elt F)),
    binary main_v199 main_v200 main_v202 (addf : (⟨S_, .f32⟩ : BufTy).Contents (Elt F) → (⟨S_, .f32⟩ : BufTy).Contents (Elt F) → (⟨S_, .f32⟩ : BufTy).Contents (Elt F)),
    binary main_v202 main_v201 main_v203 (addf : (⟨S_, .f32⟩ : BufTy).Contents (Elt F) → (⟨S_, .f32⟩ : BufTy).Contents (Elt F) → (⟨S_, .f32⟩ : BufTy).Contents (Elt F)) ]
set_option maxRecDepth 8192 in
theorem ops10_sub : (ops10 : List (HloOp τ sig (Elt F))).Forall fun op => op.bufs ⊆ tcRefs τ sig :=
  ⟨nullary_bufs_sub .., binary_bufs_sub .., nullary_bufs_sub .., binary_bufs_sub .., nullary_bufs_sub .., binary_bufs_sub .., binary_bufs_sub .., binary_bufs_sub ..⟩

end Cert.ReferenceIdeal.Hand

end
-- ==== Proof.Ref.Run.lean ====
/- The reference program's run over its operations cut into eleven consecutive lists: the program equals the
   line of the joined list, the side conditions of the run hold for the joined list because they hold list by
   list, the fold over the joined list is the eleven folds composed, every weakly fair execution ends with each
   buffer at that fold of the launch contents, and the four arguments keep their contents. -/
import proofs.«404462_j67929202753868_3_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference program's 390 host operations, in program order: the eleven consecutive lists joined. -/
abbrev opsAll : List (HloOp τ sig (Elt F)) := ops00 ++ (ops01 ++ (ops02 ++ (ops03 ++ (ops04 ++ (ops05 ++ (ops06 ++ (ops07 ++ (ops08 ++ (ops09 ++ ops10)))))))))

/-! ## The program is the line of its operations

`main` runs its five windows in order; each window, and each called function's body in it, is a sequence of
single-operation steps. Grafting continuations onto the leaves of a free-monad tree computes, so both sides
reduce to the same tree of 390 begin/end requests. -/

set_option maxHeartbeats 4000000 in
set_option maxRecDepth 16384 in
theorem main_eq (c : Dev nD) : main (F := F) c = seq opsAll := rfl

/-! ## Side conditions of the run, joined over the eleven lists -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsAll_sub : (opsAll : List (HloOp τ sig (Elt F))).Forall fun op => op.bufs ⊆ tcRefs τ sig :=
  List.forall_append.2 ⟨ops00_sub, List.forall_append.2 ⟨ops01_sub, List.forall_append.2 ⟨ops02_sub, List.forall_append.2 ⟨ops03_sub, List.forall_append.2 ⟨ops04_sub, List.forall_append.2 ⟨ops05_sub, List.forall_append.2 ⟨ops06_sub, List.forall_append.2 ⟨ops07_sub, List.forall_append.2 ⟨ops08_sub, List.forall_append.2 ⟨ops09_sub, ops10_sub⟩⟩⟩⟩⟩⟩⟩⟩⟩⟩

/-! Every operation determines all it writes (none leaves a buffer's new contents open): each builder's set of
    undetermined buffers is empty by definition. -/

theorem ops00_fresh : (ops00 : List (HloOp τ sig (Elt F))).Forall fun op => op.fresh = ∅ := by
  repeat (refine ⟨rfl, ?_⟩)
  exact rfl

theorem ops01_fresh : (ops01 : List (HloOp τ sig (Elt F))).Forall fun op => op.fresh = ∅ := by
  repeat (refine ⟨rfl, ?_⟩)
  exact rfl

theorem ops02_fresh : (ops02 : List (HloOp τ sig (Elt F))).Forall fun op => op.fresh = ∅ := by
  repeat (refine ⟨rfl, ?_⟩)
  exact rfl

theorem ops03_fresh : (ops03 : List (HloOp τ sig (Elt F))).Forall fun op => op.fresh = ∅ := by
  repeat (refine ⟨rfl, ?_⟩)
  exact rfl

theorem ops04_fresh : (ops04 : List (HloOp τ sig (Elt F))).Forall fun op => op.fresh = ∅ := by
  repeat (refine ⟨rfl, ?_⟩)
  exact rfl

theorem ops05_fresh : (ops05 : List (HloOp τ sig (Elt F))).Forall fun op => op.fresh = ∅ := by
  repeat (refine ⟨rfl, ?_⟩)
  exact rfl

theorem ops06_fresh : (ops06 : List (HloOp τ sig (Elt F))).Forall fun op => op.fresh = ∅ := by
  repeat (refine ⟨rfl, ?_⟩)
  exact rfl

theorem ops07_fresh : (ops07 : List (HloOp τ sig (Elt F))).Forall fun op => op.fresh = ∅ := by
  repeat (refine ⟨rfl, ?_⟩)
  exact rfl

theorem ops08_fresh : (ops08 : List (HloOp τ sig (Elt F))).Forall fun op => op.fresh = ∅ := by
  repeat (refine ⟨rfl, ?_⟩)
  exact rfl

theorem ops09_fresh : (ops09 : List (HloOp τ sig (Elt F))).Forall fun op => op.fresh = ∅ := by
  repeat (refine ⟨rfl, ?_⟩)
  exact rfl

theorem ops10_fresh : (ops10 : List (HloOp τ sig (Elt F))).Forall fun op => op.fresh = ∅ := by
  repeat (refine ⟨rfl, ?_⟩)
  exact rfl

theorem opsAll_fresh : (opsAll : List (HloOp τ sig (Elt F))).Forall fun op => op.fresh = ∅ :=
  List.forall_append.2 ⟨ops00_fresh, List.forall_append.2 ⟨ops01_fresh, List.forall_append.2 ⟨ops02_fresh, List.forall_append.2 ⟨ops03_fresh, List.forall_append.2 ⟨ops04_fresh, List.forall_append.2 ⟨ops05_fresh, List.forall_append.2 ⟨ops06_fresh, List.forall_append.2 ⟨ops07_fresh, List.forall_append.2 ⟨ops08_fresh, List.forall_append.2 ⟨ops09_fresh, ops10_fresh⟩⟩⟩⟩⟩⟩⟩⟩⟩⟩

/-! ## The fold over the joined list is the fold of the folds -/

/-- Running two lines one after the other folds the second over the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_split (V : Valuation τ sig (Elt F)) : after opsAll V = after ops10 (after ops09 (after ops08 (after ops07 (after ops06 (after ops05 (after ops04 (after ops03 (after ops02 (after ops01 (after ops00 V)))))))))) := by
  simp only [after_app]

/-! ## The run -/

/-- On every device, from any memory with zero counters: every weakly fair execution of the reference program
    terminates, and each TensorCore buffer ends at the fold of the 390 operations over the launch contents. -/
theorem run_all (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = after opsAll (fun b => m (c, b)) (Proc.devRef .tc b)) :=
  run_seq scopedRefs_eq scopedSems_eq defs main (fun _ => opsAll) main_eq (fun _ => opsAll_sub) m ρ
    (fun _ => List.forall_iff_forall_mem.1 opsAll_fresh)

/-! ## The four arguments are written by no operation

Each operation writes exactly one buffer, its result, and no result buffer is an argument's: which reference is
which is decided on the references, and distinct references are distinct device buffers. -/

/-- The operation writes none of the program's four arguments. -/
def KeepsArgs (op : HloOp τ sig (Elt F)) : Prop :=
  ∀ r ∈ [main_arg0, main_arg1, main_arg2, main_arg3], Proc.devRef (τ := τ) .tc r ∉ op.writes

theorem keepsArgs_of_writes {op : HloOp τ sig (Elt F)} {y : Ref sig .tc} (h : op.writes = {Proc.devRef .tc y})
    (hy : y ∉ [main_arg0, main_arg1, main_arg2, main_arg3]) : KeepsArgs op := fun r hr hm => by
  rw [h, Finset.mem_singleton] at hm
  exact hy (Proc.devRef_injective _ hm ▸ hr)

set_option maxRecDepth 8192 in
theorem ops00_keeps : (ops00 : List (HloOp τ sig (Elt F))).Forall KeepsArgs := by
  repeat (refine ⟨keepsArgs_of_writes rfl (by decide), ?_⟩)
  exact keepsArgs_of_writes rfl (by decide)

set_option maxRecDepth 8192 in
theorem ops01_keeps : (ops01 : List (HloOp τ sig (Elt F))).Forall KeepsArgs := by
  repeat (refine ⟨keepsArgs_of_writes rfl (by decide), ?_⟩)
  exact keepsArgs_of_writes rfl (by decide)

set_option maxRecDepth 8192 in
theorem ops02_keeps : (ops02 : List (HloOp τ sig (Elt F))).Forall KeepsArgs := by
  repeat (refine ⟨keepsArgs_of_writes rfl (by decide), ?_⟩)
  exact keepsArgs_of_writes rfl (by decide)

set_option maxRecDepth 8192 in
theorem ops03_keeps : (ops03 : List (HloOp τ sig (Elt F))).Forall KeepsArgs := by
  repeat (refine ⟨keepsArgs_of_writes rfl (by decide), ?_⟩)
  exact keepsArgs_of_writes rfl (by decide)

set_option maxRecDepth 8192 in
theorem ops04_keeps : (ops04 : List (HloOp τ sig (Elt F))).Forall KeepsArgs := by
  repeat (refine ⟨keepsArgs_of_writes rfl (by decide), ?_⟩)
  exact keepsArgs_of_writes rfl (by decide)

set_option maxRecDepth 8192 in
theorem ops05_keeps : (ops05 : List (HloOp τ sig (Elt F))).Forall KeepsArgs := by
  repeat (refine ⟨keepsArgs_of_writes rfl (by decide), ?_⟩)
  exact keepsArgs_of_writes rfl (by decide)

set_option maxRecDepth 8192 in
theorem ops06_keeps : (ops06 : List (HloOp τ sig (Elt F))).Forall KeepsArgs := by
  repeat (refine ⟨keepsArgs_of_writes rfl (by decide), ?_⟩)
  exact keepsArgs_of_writes rfl (by decide)

set_option maxRecDepth 8192 in
theorem ops07_keeps : (ops07 : List (HloOp τ sig (Elt F))).Forall KeepsArgs := by
  repeat (refine ⟨keepsArgs_of_writes rfl (by decide), ?_⟩)
  exact keepsArgs_of_writes rfl (by decide)

set_option maxRecDepth 8192 in
theorem ops08_keeps : (ops08 : List (HloOp τ sig (Elt F))).Forall KeepsArgs := by
  repeat (refine ⟨keepsArgs_of_writes rfl (by decide), ?_⟩)
  exact keepsArgs_of_writes rfl (by decide)

set_option maxRecDepth 8192 in
theorem ops09_keeps : (ops09 : List (HloOp τ sig (Elt F))).Forall KeepsArgs := by
  repeat (refine ⟨keepsArgs_of_writes rfl (by decide), ?_⟩)
  exact keepsArgs_of_writes rfl (by decide)

set_option maxRecDepth 8192 in
theorem ops10_keeps : (ops10 : List (HloOp τ sig (Elt F))).Forall KeepsArgs := by
  repeat (refine ⟨keepsArgs_of_writes rfl (by decide), ?_⟩)
  exact keepsArgs_of_writes rfl (by decide)

theorem opsAll_keeps : (opsAll : List (HloOp τ sig (Elt F))).Forall KeepsArgs :=
  List.forall_append.2 ⟨ops00_keeps, List.forall_append.2 ⟨ops01_keeps, List.forall_append.2 ⟨ops02_keeps, List.forall_append.2 ⟨ops03_keeps, List.forall_append.2 ⟨ops04_keeps, List.forall_append.2 ⟨ops05_keeps, List.forall_append.2 ⟨ops06_keeps, List.forall_append.2 ⟨ops07_keeps, List.forall_append.2 ⟨ops08_keeps, List.forall_append.2 ⟨ops09_keeps, ops10_keeps⟩⟩⟩⟩⟩⟩⟩⟩⟩⟩

/-- An argument's buffer holds after the whole line what it held before. -/
theorem kept_of_mem (V : Valuation τ sig (Elt F)) {r : Ref sig .tc} (hr : r ∈ [main_arg0, main_arg1, main_arg2, main_arg3]) :
    after opsAll V (Proc.devRef .tc r) = V (Proc.devRef .tc r) :=
  after_of_forall_not_mem opsAll V fun op hop => List.forall_iff_forall_mem.1 opsAll_keeps op hop r hr

theorem kept_arg0 (V : Valuation τ sig (Elt F)) : after opsAll V (Proc.devRef .tc main_arg0) = V (Proc.devRef .tc main_arg0) :=
  kept_of_mem V (by decide)
theorem kept_arg1 (V : Valuation τ sig (Elt F)) : after opsAll V (Proc.devRef .tc main_arg1) = V (Proc.devRef .tc main_arg1) :=
  kept_of_mem V (by decide)
theorem kept_arg2 (V : Valuation τ sig (Elt F)) : after opsAll V (Proc.devRef .tc main_arg2) = V (Proc.devRef .tc main_arg2) :=
  kept_of_mem V (by decide)
theorem kept_arg3 (V : Valuation τ sig (Elt F)) : after opsAll V (Proc.devRef .tc main_arg3) = V (Proc.devRef .tc main_arg3) :=
  kept_of_mem V (by decide)

end Cert.ReferenceIdeal.Hand

end
-- ==== Proof.Ref.Keep.lean ====
/- For each of the reference's first ten operation lists: the buffers its lines write, that every line writes only
   a buffer of that list, and hence that any other buffer has after the list the contents it had before; then that
   fact at each buffer a later list reads. The lists are read off the operations; the step is the same for every line. -/
import proofs.«404462_j67929202753868_3_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that the prelude's lines write. -/
abbrev wl00 : List (Ref sig .tc) :=
  [main_v0, main_v1, main_v2, main_v3, main_v4, main_v5, main_v6]

set_option maxRecDepth 8192 in
set_option maxHeartbeats 4000000 in
theorem wl00_writes : (ops00 : List (HloOp τ sig (Elt F))).Forall fun op =>
    op.writes ⊆ (wl00.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the prelude's lines do not write keeps its contents through them. -/
theorem keep00 (W : Valuation τ sig (Elt F)) (r : Ref sig .tc) (h : r ∉ wl00) :
    after ops00 W (Proc.devRef .tc r) = W (Proc.devRef .tc r) :=
  after_of_writes_sub ops00 W wl00_writes h

/-- The buffers that the first map's index lines write. -/
abbrev wl01 : List (Ref sig .tc) :=
  [main_v7, main_v8, main_cst, main_v9, main_v10, main_v11, main_v12, main_c, main_c_0, main_call0_v0, main_call0_v1,
   main_call0_v2, main_call0_v3, main_call0_v4, main_v13, main_v14, main_v15, main_cst_1, main_v16, main_v17,
   main_v18, main_v19, main_c_2, main_c_3, main_call1_v0, main_call1_v1, main_call1_v2, main_call1_v3, main_call1_v4,
   main_v20, main_c_4, main_v21, main_v22, main_c_5, main_v23, main_v24, main_v25, main_c_6, main_v26, main_v27,
   main_c_7, main_v28, main_v29, main_v30, main_c_8, main_v31, main_v32, main_c_9, main_v33, main_v34, main_v35,
   main_c_10, main_v36, main_v37, main_v38, main_v39, main_v40, main_v41]

set_option maxRecDepth 8192 in
set_option maxHeartbeats 4000000 in
theorem wl01_writes : (ops01 : List (HloOp τ sig (Elt F))).Forall fun op =>
    op.writes ⊆ (wl01.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the first map's index lines do not write keeps its contents through them. -/
theorem keep01 (W : Valuation τ sig (Elt F)) (r : Ref sig .tc) (h : r ∉ wl01) :
    after ops01 W (Proc.devRef .tc r) = W (Proc.devRef .tc r) :=
  after_of_writes_sub ops01 W wl01_writes h

/-- The buffers that the first map's gather lines write. -/
abbrev wl02 : List (Ref sig .tc) :=
  [main_v42, main_v43, main_v44, main_v45, main_v46, main_cst_11, main_v47, main_v48, main_v49, main_v50,
   main_call2_cst, main_call2_v0, main_call2_v1, main_call2_v2, main_call2_v3, main_call2_v4, main_call2_v5,
   main_call2_v6, main_call2_v7, main_call2_v8, main_call2_v9, main_call2_v10, main_call2_v11, main_v51, main_cst_12,
   main_v52]

set_option maxRecDepth 8192 in
set_option maxHeartbeats 4000000 in
theorem wl02_writes : (ops02 : List (HloOp τ sig (Elt F))).Forall fun op =>
    op.writes ⊆ (wl02.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the first map's gather lines do not write keeps its contents through them. -/
theorem keep02 (W : Valuation τ sig (Elt F)) (r : Ref sig .tc) (h : r ∉ wl02) :
    after ops02 W (Proc.devRef .tc r) = W (Proc.devRef .tc r) :=
  after_of_writes_sub ops02 W wl02_writes h

/-- The buffers that the first map's class lines write. -/
abbrev wl03 : List (Ref sig .tc) :=
  [main_v53, main_call3_v0, main_call3_v1, main_call3_v2, main_call3_v3, main_call3_v4, main_v54, main_call4_cst,
   main_call4_v0, main_call4_v1, main_call4_v2, main_call4_v3, main_call4_v4, main_call4_v5, main_call4_v6,
   main_call4_v7, main_call4_v8, main_call4_v9, main_call4_v10, main_call4_v11, main_v55, main_v56, main_v57,
   main_cst_13, main_v58, main_c_14, main_c_15, main_v59, main_v60, main_cst_16, main_v61, main_v62, main_v63,
   main_v64, main_v65, main_v66, main_v67, main_cst_17, main_v68, main_cst_18, main_v69, main_cst_19, main_v70]

set_option maxRecDepth 8192 in
set_option maxHeartbeats 4000000 in
theorem wl03_writes : (ops03 : List (HloOp τ sig (Elt F))).Forall fun op =>
    op.writes ⊆ (wl03.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the first map's class lines do not write keeps its contents through them. -/
theorem keep03 (W : Valuation τ sig (Elt F)) (r : Ref sig .tc) (h : r ∉ wl03) :
    after ops03 W (Proc.devRef .tc r) = W (Proc.devRef .tc r) :=
  after_of_writes_sub ops03 W wl03_writes h

/-- The buffers that the second map's index lines write. -/
abbrev wl04 : List (Ref sig .tc) :=
  [main_v71, main_v72, main_cst_20, main_v73, main_v74, main_v75, main_v76, main_c_21, main_c_22, main_call5_v0,
   main_call5_v1, main_call5_v2, main_call5_v3, main_call5_v4, main_v77, main_v78, main_v79, main_cst_23, main_v80,
   main_v81, main_v82, main_v83, main_c_24, main_c_25, main_call6_v0, main_call6_v1, main_call6_v2, main_call6_v3,
   main_call6_v4, main_v84, main_c_26, main_v85, main_v86, main_c_27, main_v87, main_v88, main_v89, main_c_28,
   main_v90, main_v91, main_c_29, main_v92, main_v93, main_v94, main_c_30, main_v95, main_v96, main_c_31, main_v97,
   main_v98, main_v99, main_c_32, main_v100, main_v101, main_v102, main_v103, main_v104, main_v105]

set_option maxRecDepth 8192 in
set_option maxHeartbeats 4000000 in
theorem wl04_writes : (ops04 : List (HloOp τ sig (Elt F))).Forall fun op =>
    op.writes ⊆ (wl04.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the second map's index lines do not write keeps its contents through them. -/
theorem keep04 (W : Valuation τ sig (Elt F)) (r : Ref sig .tc) (h : r ∉ wl04) :
    after ops04 W (Proc.devRef .tc r) = W (Proc.devRef .tc r) :=
  after_of_writes_sub ops04 W wl04_writes h

/-- The buffers that the second map's gather lines write. -/
abbrev wl05 : List (Ref sig .tc) :=
  [main_v106, main_v107, main_v108, main_v109, main_v110, main_cst_33, main_v111, main_v112, main_v113, main_v114,
   main_call7_cst, main_call7_v0, main_call7_v1, main_call7_v2, main_call7_v3, main_call7_v4, main_call7_v5,
   main_call7_v6, main_call7_v7, main_call7_v8, main_call7_v9, main_call7_v10, main_call7_v11, main_v115,
   main_cst_34, main_v116]

set_option maxRecDepth 8192 in
set_option maxHeartbeats 4000000 in
theorem wl05_writes : (ops05 : List (HloOp τ sig (Elt F))).Forall fun op =>
    op.writes ⊆ (wl05.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the second map's gather lines do not write keeps its contents through them. -/
theorem keep05 (W : Valuation τ sig (Elt F)) (r : Ref sig .tc) (h : r ∉ wl05) :
    after ops05 W (Proc.devRef .tc r) = W (Proc.devRef .tc r) :=
  after_of_writes_sub ops05 W wl05_writes h

/-- The buffers that the second map's class lines write. -/
abbrev wl06 : List (Ref sig .tc) :=
  [main_v117, main_call8_v0, main_call8_v1, main_call8_v2, main_call8_v3, main_call8_v4, main_v118, main_call9_cst,
   main_call9_v0, main_call9_v1, main_call9_v2, main_call9_v3, main_call9_v4, main_call9_v5, main_call9_v6,
   main_call9_v7, main_call9_v8, main_call9_v9, main_call9_v10, main_call9_v11, main_v119, main_v120, main_v121,
   main_cst_35, main_v122, main_c_36, main_c_37, main_v123, main_v124, main_cst_38, main_v125, main_v126, main_v127,
   main_v128, main_v129, main_v130, main_v131, main_v132, main_v133, main_v134]

set_option maxRecDepth 8192 in
set_option maxHeartbeats 4000000 in
theorem wl06_writes : (ops06 : List (HloOp τ sig (Elt F))).Forall fun op =>
    op.writes ⊆ (wl06.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the second map's class lines do not write keeps its contents through them. -/
theorem keep06 (W : Valuation τ sig (Elt F)) (r : Ref sig .tc) (h : r ∉ wl06) :
    after ops06 W (Proc.devRef .tc r) = W (Proc.devRef .tc r) :=
  after_of_writes_sub ops06 W wl06_writes h

/-- The buffers that the third map's index lines write. -/
abbrev wl07 : List (Ref sig .tc) :=
  [main_v135, main_v136, main_cst_39, main_v137, main_v138, main_v139, main_v140, main_c_40, main_c_41,
   main_call10_v0, main_call10_v1, main_call10_v2, main_call10_v3, main_call10_v4, main_v141, main_v142, main_v143,
   main_cst_42, main_v144, main_v145, main_v146, main_v147, main_c_43, main_c_44, main_call11_v0, main_call11_v1,
   main_call11_v2, main_call11_v3, main_call11_v4, main_v148, main_c_45, main_v149, main_v150, main_c_46, main_v151,
   main_v152, main_v153, main_c_47, main_v154, main_v155, main_c_48, main_v156, main_v157, main_v158, main_c_49,
   main_v159, main_v160, main_c_50, main_v161, main_v162, main_v163, main_c_51, main_v164, main_v165, main_v166,
   main_v167, main_v168, main_v169]

set_option maxRecDepth 8192 in
set_option maxHeartbeats 4000000 in
theorem wl07_writes : (ops07 : List (HloOp τ sig (Elt F))).Forall fun op =>
    op.writes ⊆ (wl07.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the third map's index lines do not write keeps its contents through them. -/
theorem keep07 (W : Valuation τ sig (Elt F)) (r : Ref sig .tc) (h : r ∉ wl07) :
    after ops07 W (Proc.devRef .tc r) = W (Proc.devRef .tc r) :=
  after_of_writes_sub ops07 W wl07_writes h

/-- The buffers that the third map's gather lines write. -/
abbrev wl08 : List (Ref sig .tc) :=
  [main_v170, main_v171, main_v172, main_v173, main_v174, main_cst_52, main_v175, main_v176, main_v177, main_v178,
   main_call12_cst, main_call12_v0, main_call12_v1, main_call12_v2, main_call12_v3, main_call12_v4, main_call12_v5,
   main_call12_v6, main_call12_v7, main_call12_v8, main_call12_v9, main_call12_v10, main_call12_v11, main_v179,
   main_cst_53, main_v180]

set_option maxRecDepth 8192 in
set_option maxHeartbeats 4000000 in
theorem wl08_writes : (ops08 : List (HloOp τ sig (Elt F))).Forall fun op =>
    op.writes ⊆ (wl08.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the third map's gather lines do not write keeps its contents through them. -/
theorem keep08 (W : Valuation τ sig (Elt F)) (r : Ref sig .tc) (h : r ∉ wl08) :
    after ops08 W (Proc.devRef .tc r) = W (Proc.devRef .tc r) :=
  after_of_writes_sub ops08 W wl08_writes h

/-- The buffers that the third map's class lines write. -/
abbrev wl09 : List (Ref sig .tc) :=
  [main_v181, main_call13_v0, main_call13_v1, main_call13_v2, main_call13_v3, main_call13_v4, main_v182,
   main_call14_cst, main_call14_v0, main_call14_v1, main_call14_v2, main_call14_v3, main_call14_v4, main_call14_v5,
   main_call14_v6, main_call14_v7, main_call14_v8, main_call14_v9, main_call14_v10, main_call14_v11, main_v183,
   main_v184, main_v185, main_cst_54, main_v186, main_c_55, main_c_56, main_v187, main_v188, main_cst_57, main_v189,
   main_v190, main_v191, main_v192, main_v193, main_v194, main_v195, main_v196, main_v197, main_v198]

set_option maxRecDepth 8192 in
set_option maxHeartbeats 4000000 in
theorem wl09_writes : (ops09 : List (HloOp τ sig (Elt F))).Forall fun op =>
    op.writes ⊆ (wl09.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]
     exact List.mem_map_of_mem (by decide))

/-- A buffer that the third map's class lines do not write keeps its contents through them. -/
theorem keep09 (W : Valuation τ sig (Elt F)) (r : Ref sig .tc) (h : r ∉ wl09) :
    after ops09 W (Proc.devRef .tc r) = W (Proc.devRef .tc r) :=
  after_of_writes_sub ops09 W wl09_writes h

/-! ### The kept buffers the later lists read -/

theorem keep00_arg0 (W : Valuation τ sig (Elt F)) :
    after ops00 W (Proc.devRef .tc main_arg0) = W (Proc.devRef .tc main_arg0) := keep00 W main_arg0 (by decide)
theorem keep00_arg1 (W : Valuation τ sig (Elt F)) :
    after ops00 W (Proc.devRef .tc main_arg1) = W (Proc.devRef .tc main_arg1) := keep00 W main_arg1 (by decide)
theorem keep00_arg2 (W : Valuation τ sig (Elt F)) :
    after ops00 W (Proc.devRef .tc main_arg2) = W (Proc.devRef .tc main_arg2) := keep00 W main_arg2 (by decide)
theorem keep01_arg0 (W : Valuation τ sig (Elt F)) :
    after ops01 W (Proc.devRef .tc main_arg0) = W (Proc.devRef .tc main_arg0) := keep01 W main_arg0 (by decide)
theorem keep01_arg1 (W : Valuation τ sig (Elt F)) :
    after ops01 W (Proc.devRef .tc main_arg1) = W (Proc.devRef .tc main_arg1) := keep01 W main_arg1 (by decide)
theorem keep01_arg2 (W : Valuation τ sig (Elt F)) :
    after ops01 W (Proc.devRef .tc main_arg2) = W (Proc.devRef .tc main_arg2) := keep01 W main_arg2 (by decide)
theorem keep01_v2 (W : Valuation τ sig (Elt F)) :
    after ops01 W (Proc.devRef .tc main_v2) = W (Proc.devRef .tc main_v2) := keep01 W main_v2 (by decide)
theorem keep01_v5 (W : Valuation τ sig (Elt F)) :
    after ops01 W (Proc.devRef .tc main_v5) = W (Proc.devRef .tc main_v5) := keep01 W main_v5 (by decide)
theorem keep01_v6 (W : Valuation τ sig (Elt F)) :
    after ops01 W (Proc.devRef .tc main_v6) = W (Proc.devRef .tc main_v6) := keep01 W main_v6 (by decide)
theorem keep02_arg1 (W : Valuation τ sig (Elt F)) :
    after ops02 W (Proc.devRef .tc main_arg1) = W (Proc.devRef .tc main_arg1) := keep02 W main_arg1 (by decide)
theorem keep02_arg2 (W : Valuation τ sig (Elt F)) :
    after ops02 W (Proc.devRef .tc main_arg2) = W (Proc.devRef .tc main_arg2) := keep02 W main_arg2 (by decide)
theorem keep02_v2 (W : Valuation τ sig (Elt F)) :
    after ops02 W (Proc.devRef .tc main_v2) = W (Proc.devRef .tc main_v2) := keep02 W main_v2 (by decide)
theorem keep02_v5 (W : Valuation τ sig (Elt F)) :
    after ops02 W (Proc.devRef .tc main_v5) = W (Proc.devRef .tc main_v5) := keep02 W main_v5 (by decide)
theorem keep02_v6 (W : Valuation τ sig (Elt F)) :
    after ops02 W (Proc.devRef .tc main_v6) = W (Proc.devRef .tc main_v6) := keep02 W main_v6 (by decide)
theorem keep03_arg1 (W : Valuation τ sig (Elt F)) :
    after ops03 W (Proc.devRef .tc main_arg1) = W (Proc.devRef .tc main_arg1) := keep03 W main_arg1 (by decide)
theorem keep03_arg2 (W : Valuation τ sig (Elt F)) :
    after ops03 W (Proc.devRef .tc main_arg2) = W (Proc.devRef .tc main_arg2) := keep03 W main_arg2 (by decide)
theorem keep03_v2 (W : Valuation τ sig (Elt F)) :
    after ops03 W (Proc.devRef .tc main_v2) = W (Proc.devRef .tc main_v2) := keep03 W main_v2 (by decide)
theorem keep03_v5 (W : Valuation τ sig (Elt F)) :
    after ops03 W (Proc.devRef .tc main_v5) = W (Proc.devRef .tc main_v5) := keep03 W main_v5 (by decide)
theorem keep03_v6 (W : Valuation τ sig (Elt F)) :
    after ops03 W (Proc.devRef .tc main_v6) = W (Proc.devRef .tc main_v6) := keep03 W main_v6 (by decide)
theorem keep04_arg1 (W : Valuation τ sig (Elt F)) :
    after ops04 W (Proc.devRef .tc main_arg1) = W (Proc.devRef .tc main_arg1) := keep04 W main_arg1 (by decide)
theorem keep04_arg2 (W : Valuation τ sig (Elt F)) :
    after ops04 W (Proc.devRef .tc main_arg2) = W (Proc.devRef .tc main_arg2) := keep04 W main_arg2 (by decide)
theorem keep04_v2 (W : Valuation τ sig (Elt F)) :
    after ops04 W (Proc.devRef .tc main_v2) = W (Proc.devRef .tc main_v2) := keep04 W main_v2 (by decide)
theorem keep04_v5 (W : Valuation τ sig (Elt F)) :
    after ops04 W (Proc.devRef .tc main_v5) = W (Proc.devRef .tc main_v5) := keep04 W main_v5 (by decide)
theorem keep04_v6 (W : Valuation τ sig (Elt F)) :
    after ops04 W (Proc.devRef .tc main_v6) = W (Proc.devRef .tc main_v6) := keep04 W main_v6 (by decide)
theorem keep04_v68 (W : Valuation τ sig (Elt F)) :
    after ops04 W (Proc.devRef .tc main_v68) = W (Proc.devRef .tc main_v68) := keep04 W main_v68 (by decide)
theorem keep04_v69 (W : Valuation τ sig (Elt F)) :
    after ops04 W (Proc.devRef .tc main_v69) = W (Proc.devRef .tc main_v69) := keep04 W main_v69 (by decide)
theorem keep04_v70 (W : Valuation τ sig (Elt F)) :
    after ops04 W (Proc.devRef .tc main_v70) = W (Proc.devRef .tc main_v70) := keep04 W main_v70 (by decide)
theorem keep05_arg2 (W : Valuation τ sig (Elt F)) :
    after ops05 W (Proc.devRef .tc main_arg2) = W (Proc.devRef .tc main_arg2) := keep05 W main_arg2 (by decide)
theorem keep05_v2 (W : Valuation τ sig (Elt F)) :
    after ops05 W (Proc.devRef .tc main_v2) = W (Proc.devRef .tc main_v2) := keep05 W main_v2 (by decide)
theorem keep05_v5 (W : Valuation τ sig (Elt F)) :
    after ops05 W (Proc.devRef .tc main_v5) = W (Proc.devRef .tc main_v5) := keep05 W main_v5 (by decide)
theorem keep05_v6 (W : Valuation τ sig (Elt F)) :
    after ops05 W (Proc.devRef .tc main_v6) = W (Proc.devRef .tc main_v6) := keep05 W main_v6 (by decide)
theorem keep05_v68 (W : Valuation τ sig (Elt F)) :
    after ops05 W (Proc.devRef .tc main_v68) = W (Proc.devRef .tc main_v68) := keep05 W main_v68 (by decide)
theorem keep05_v69 (W : Valuation τ sig (Elt F)) :
    after ops05 W (Proc.devRef .tc main_v69) = W (Proc.devRef .tc main_v69) := keep05 W main_v69 (by decide)
theorem keep05_v70 (W : Valuation τ sig (Elt F)) :
    after ops05 W (Proc.devRef .tc main_v70) = W (Proc.devRef .tc main_v70) := keep05 W main_v70 (by decide)
theorem keep06_arg2 (W : Valuation τ sig (Elt F)) :
    after ops06 W (Proc.devRef .tc main_arg2) = W (Proc.devRef .tc main_arg2) := keep06 W main_arg2 (by decide)
theorem keep06_v2 (W : Valuation τ sig (Elt F)) :
    after ops06 W (Proc.devRef .tc main_v2) = W (Proc.devRef .tc main_v2) := keep06 W main_v2 (by decide)
theorem keep06_v5 (W : Valuation τ sig (Elt F)) :
    after ops06 W (Proc.devRef .tc main_v5) = W (Proc.devRef .tc main_v5) := keep06 W main_v5 (by decide)
theorem keep06_v6 (W : Valuation τ sig (Elt F)) :
    after ops06 W (Proc.devRef .tc main_v6) = W (Proc.devRef .tc main_v6) := keep06 W main_v6 (by decide)
theorem keep07_arg2 (W : Valuation τ sig (Elt F)) :
    after ops07 W (Proc.devRef .tc main_arg2) = W (Proc.devRef .tc main_arg2) := keep07 W main_arg2 (by decide)
theorem keep07_v5 (W : Valuation τ sig (Elt F)) :
    after ops07 W (Proc.devRef .tc main_v5) = W (Proc.devRef .tc main_v5) := keep07 W main_v5 (by decide)
theorem keep07_v6 (W : Valuation τ sig (Elt F)) :
    after ops07 W (Proc.devRef .tc main_v6) = W (Proc.devRef .tc main_v6) := keep07 W main_v6 (by decide)
theorem keep07_v132 (W : Valuation τ sig (Elt F)) :
    after ops07 W (Proc.devRef .tc main_v132) = W (Proc.devRef .tc main_v132) := keep07 W main_v132 (by decide)
theorem keep07_v133 (W : Valuation τ sig (Elt F)) :
    after ops07 W (Proc.devRef .tc main_v133) = W (Proc.devRef .tc main_v133) := keep07 W main_v133 (by decide)
theorem keep07_v134 (W : Valuation τ sig (Elt F)) :
    after ops07 W (Proc.devRef .tc main_v134) = W (Proc.devRef .tc main_v134) := keep07 W main_v134 (by decide)
theorem keep08_v5 (W : Valuation τ sig (Elt F)) :
    after ops08 W (Proc.devRef .tc main_v5) = W (Proc.devRef .tc main_v5) := keep08 W main_v5 (by decide)
theorem keep08_v132 (W : Valuation τ sig (Elt F)) :
    after ops08 W (Proc.devRef .tc main_v132) = W (Proc.devRef .tc main_v132) := keep08 W main_v132 (by decide)
theorem keep08_v133 (W : Valuation τ sig (Elt F)) :
    after ops08 W (Proc.devRef .tc main_v133) = W (Proc.devRef .tc main_v133) := keep08 W main_v133 (by decide)
theorem keep08_v134 (W : Valuation τ sig (Elt F)) :
    after ops08 W (Proc.devRef .tc main_v134) = W (Proc.devRef .tc main_v134) := keep08 W main_v134 (by decide)

end Cert.ReferenceIdeal.Hand

end
-- ==== Proof.Ref.Stages12.lean ====
/-
  What the reference's host lines compute for the second prediction map (side 80), stretch by stretch, at any float
  instance and from ANY contents of the buffers before the stretch.

  The map is handled by three consecutive stretches of lines. The first builds the four one-column index tables
  (batch; zeros; cell of y; cell of x) from the integer batch column and the box columns. The second stacks the four
  columns, gathers one 11-entry row per target from the map, and forms the box sum and the objectness sum of the
  gathered rows. The third forms the class sum against the one-hot class rows, scales the three sums by one over the
  number of targets, and adds each onto the sum carried from the maps before.

  Every statement is an equation for one result buffer after one stretch, whose right-hand side is written with the
  named stages shared by the two programs and the reference's layer functions, over the contents the stretch found
  in the buffers it reads. The stretch's lines are unfolded one at a time; what remains is the same term on both
  sides.
-/
import proofs.«404462_j67929202753868_3_alg».proof.Proof.Ref.Ops
import proofs.«404462_j67929202753868_3_alg».proof.Proof.Ref.Layer
import proofs.«404462_j67929202753868_3_alg».proof.Proof.Shared

set_option maxRecDepth 16384

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-! ## The second prediction map (side 80) -/

/-! ### Its index columns

The four one-column index tables of a map of side 80: the batch index, shifted by 32 when negative; a column of
zeros; the cell of the y coordinate and the cell of the x coordinate (the floor of 80 times the coordinate, clamped to
`[0, 79]`), each shifted by 80 when negative. They read only the integer batch column and the box columns. -/

set_option maxHeartbeats 4000000 in
/-- Column 0 of the index table: the batch index, shifted by 32 when negative. -/
theorem ops04_main_v102 (W : Valuation τ sig (Elt F)) :
    StableHlo.after ops04 W (Proc.devRef .tc main_v102)
      = broadcastInDim S8192x1 ![0] bcast_S8192_S8192x1_0 (Cert.KernelIdeal.Sh.wrapNeg 32#32 (W (Proc.devRef .tc main_v2))) := by
  after_results
  rfl

set_option maxHeartbeats 4000000 in
/-- Column 1 of the index table: zeros. -/
theorem ops04_main_v103 (W : Valuation τ sig (Elt F)) :
    StableHlo.after ops04 W (Proc.devRef .tc main_v103)
      = broadcastInDim S8192x1 ![0] bcast_S8192_S8192x1_0 (id (broadcastInDim S8192 ![] bcast_S_S8192 (constantI S_ 32 0#32))) := by
  after_results

set_option maxHeartbeats 4000000 in
/-- Column 2 of the index table: the cell of the y coordinate (box column 1). -/
theorem ops04_main_v104 (W : Valuation τ sig (Elt F)) :
    StableHlo.after ops04 W (Proc.devRef .tc main_v104)
      = broadcastInDim S8192x1 ![0] bcast_S8192_S8192x1_0
          (Cert.KernelIdeal.Sh.wrapNeg 80#32 (Cert.KernelIdeal.Sh.cellOf 0x42A00000#32 79#32
            (extractStridedSlice S8192x1 ![0, 1] (W (Proc.devRef .tc main_v6)) slices_S8192x4_S8192x1_0_1))) := by
  after_results
  simp only [StableHlo.TRef.ofBuf, StableHlo.TRef.toBuf, cast_eq]
  rfl

set_option maxHeartbeats 4000000 in
/-- Column 3 of the index table: the cell of the x coordinate (box column 0). -/
theorem ops04_main_v105 (W : Valuation τ sig (Elt F)) :
    StableHlo.after ops04 W (Proc.devRef .tc main_v105)
      = broadcastInDim S8192x1 ![0] bcast_S8192_S8192x1_0
          (Cert.KernelIdeal.Sh.wrapNeg 80#32 (Cert.KernelIdeal.Sh.cellOf 0x42A00000#32 79#32
            (extractStridedSlice S8192x1 ![0, 0] (W (Proc.devRef .tc main_v6)) slices_S8192x4_S8192x1_0_0))) := by
  after_results
  simp only [StableHlo.TRef.ofBuf, StableHlo.TRef.toBuf, cast_eq]
  rfl

/-! ### Its gather, box sum and objectness sum -/

/-- The gathered rows of the second map, over the contents of its four index columns: for each target the 11 entries of
    the map at (batch, 0, cell of y, cell of x). -/
def gath1 (W : Valuation τ sig (Elt F)) : FVec F S8192x11 .f32 :=
  Host.gather gather_S32x3x80x80x11_S8192x4_S8192x11_1_0123_n_n_0123_1_111111 (W (Proc.devRef .tc main_arg1))
    (concatenate S8192x4 1 [⟨S8192x1, W (Proc.devRef .tc main_v102)⟩, ⟨S8192x1, W (Proc.devRef .tc main_v103)⟩, ⟨S8192x1, W (Proc.devRef .tc main_v104)⟩, ⟨S8192x1, W (Proc.devRef .tc main_v105)⟩]
      concatenates_S8192x1_S8192x1_S8192x1_S8192x1_S8192x4_d1)

set_option maxHeartbeats 4000000 in
/-- The gathered rows. -/
theorem ops05_main_v107 (W : Valuation τ sig (Elt F)) :
    StableHlo.after ops05 W (Proc.devRef .tc main_v107) = gath1 W := by
  after_results
  rfl

set_option maxHeartbeats 4000000 in
/-- The box sum of the gathered rows against the box columns. -/
theorem ops05_main_v111 (W : Valuation τ sig (Elt F)) :
    StableHlo.after ops05 W (Proc.devRef .tc main_v111) = boxSum (gath1 W) (W (Proc.devRef .tc main_v6)) := by
  after_results
  rfl

set_option maxHeartbeats 4000000 in
/-- The objectness sum of the gathered rows. -/
theorem ops05_main_v116 (W : Valuation τ sig (Elt F)) :
    StableHlo.after ops05 W (Proc.devRef .tc main_v116) = objSum (gath1 W) := by
  after_results
  simp only [StableHlo.TRef.ofBuf, StableHlo.TRef.toBuf, cast_eq]
  rfl

/-! ### Its class sum, and the three scaled sums added onto the running ones

The class sum is taken over the gathered rows against the one-hot rows of the integer class column; each of the
map's three sums is multiplied by one over the number of targets and added to the sum carried from the maps before. -/

set_option maxHeartbeats 4000000 in
/-- The running box sum after this map. -/
theorem ops06_main_v132 (W : Valuation τ sig (Elt F)) :
    StableHlo.after ops06 W (Proc.devRef .tc main_v132) = addf (W (Proc.devRef .tc main_v68)) (mulf (W (Proc.devRef .tc main_v111)) invN) := by
  after_results
  rfl

set_option maxHeartbeats 4000000 in
/-- The running objectness sum after this map. -/
theorem ops06_main_v133 (W : Valuation τ sig (Elt F)) :
    StableHlo.after ops06 W (Proc.devRef .tc main_v133) = addf (W (Proc.devRef .tc main_v69)) (mulf (W (Proc.devRef .tc main_v116)) invN) := by
  after_results
  rfl

set_option maxHeartbeats 4000000 in
/-- The running class sum after this map. -/
theorem ops06_main_v134 (W : Valuation τ sig (Elt F)) :
    StableHlo.after ops06 W (Proc.devRef .tc main_v134)
      = addf (W (Proc.devRef .tc main_v70))
          (mulf (clsSum (W (Proc.devRef .tc main_v107))
            (uitofp .f32 (cmpi .eq
              (broadcastInDim S8192x6 ![0, 1] bcast_S8192x1_S8192x6_0_1 (broadcastInDim S8192x1 ![0] bcast_S8192_S8192x1_0 (W (Proc.devRef .tc main_v5))))
              (broadcastInDim S8192x6 ![0, 1] bcast_S1x6_S8192x6_0_1 (iotaInDim S1x6 32 1))))) invN) := by
  after_results
  simp only [StableHlo.TRef.ofBuf, StableHlo.TRef.toBuf, cast_eq]
  rfl

end Cert.ReferenceIdeal.Hand

end
-- ==== Proof.Ref.Stages2.lean ====
/-
  What the reference's host lines compute for the third prediction map (side 40), stretch by stretch, at any float
  instance and from ANY contents of the buffers before the stretch.

  The map is handled by three consecutive stretches of lines. The first builds the four one-column index tables
  (batch; zeros; cell of y; cell of x) from the integer batch column and the box columns. The second stacks the four
  columns, gathers one 11-entry row per target from the map, and forms the box sum and the objectness sum of the
  gathered rows. The third forms the class sum against the one-hot class rows, scales the three sums by one over the
  number of targets, and adds each onto the sum carried from the maps before.

  Every statement is an equation for one result buffer after one stretch, whose right-hand side is written with the
  named stages shared by the two programs and the reference's layer functions, over the contents the stretch found
  in the buffers it reads. The stretch's lines are unfolded one at a time; what remains is the same term on both
  sides.
-/
import proofs.«404462_j67929202753868_3_alg».proof.Proof.Ref.Ops
import proofs.«404462_j67929202753868_3_alg».proof.Proof.Ref.Layer
import proofs.«404462_j67929202753868_3_alg».proof.Proof.Shared

set_option maxRecDepth 16384

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-! ## The third prediction map (side 40) -/

/-! ### Its index columns

The four one-column index tables of a map of side 40: the batch index, shifted by 32 when negative; a column of
zeros; the cell of the y coordinate and the cell of the x coordinate (the floor of 40 times the coordinate, clamped to
`[0, 39]`), each shifted by 40 when negative. They read only the integer batch column and the box columns. -/

set_option maxHeartbeats 4000000 in
/-- Column 0 of the index table: the batch index, shifted by 32 when negative. -/
theorem ops07_main_v166 (W : Valuation τ sig (Elt F)) :
    StableHlo.after ops07 W (Proc.devRef .tc main_v166)
      = broadcastInDim S8192x1 ![0] bcast_S8192_S8192x1_0 (Cert.KernelIdeal.Sh.wrapNeg 32#32 (W (Proc.devRef .tc main_v2))) := by
  after_results
  rfl

set_option maxHeartbeats 4000000 in
/-- Column 1 of the index table: zeros. -/
theorem ops07_main_v167 (W : Valuation τ sig (Elt F)) :
    StableHlo.after ops07 W (Proc.devRef .tc main_v167)
      = broadcastInDim S8192x1 ![0] bcast_S8192_S8192x1_0 (id (broadcastInDim S8192 ![] bcast_S_S8192 (constantI S_ 32 0#32))) := by
  after_results

set_option maxHeartbeats 4000000 in
/-- Column 2 of the index table: the cell of the y coordinate (box column 1). -/
theorem ops07_main_v168 (W : Valuation τ sig (Elt F)) :
    StableHlo.after ops07 W (Proc.devRef .tc main_v168)
      = broadcastInDim S8192x1 ![0] bcast_S8192_S8192x1_0
          (Cert.KernelIdeal.Sh.wrapNeg 40#32 (Cert.KernelIdeal.Sh.cellOf 0x42200000#32 39#32
            (extractStridedSlice S8192x1 ![0, 1] (W (Proc.devRef .tc main_v6)) slices_S8192x4_S8192x1_0_1))) := by
  after_results
  simp only [StableHlo.TRef.ofBuf, StableHlo.TRef.toBuf, cast_eq]
  rfl

set_option maxHeartbeats 4000000 in
/-- Column 3 of the index table: the cell of the x coordinate (box column 0). -/
theorem ops07_main_v169 (W : Valuation τ sig (Elt F)) :
    StableHlo.after ops07 W (Proc.devRef .tc main_v169)
      = broadcastInDim S8192x1 ![0] bcast_S8192_S8192x1_0
          (Cert.KernelIdeal.Sh.wrapNeg 40#32 (Cert.KernelIdeal.Sh.cellOf 0x42200000#32 39#32
            (extractStridedSlice S8192x1 ![0, 0] (W (Proc.devRef .tc main_v6)) slices_S8192x4_S8192x1_0_0))) := by
  after_results
  simp only [StableHlo.TRef.ofBuf, StableHlo.TRef.toBuf, cast_eq]
  rfl

/-! ### Its gather, box sum and objectness sum -/

/-- The gathered rows of the third map, over the contents of its four index columns: for each target the 11 entries of
    the map at (batch, 0, cell of y, cell of x). -/
def gath2 (W : Valuation τ sig (Elt F)) : FVec F S8192x11 .f32 :=
  Host.gather gather_S32x3x40x40x11_S8192x4_S8192x11_1_0123_n_n_0123_1_111111 (W (Proc.devRef .tc main_arg2))
    (concatenate S8192x4 1 [⟨S8192x1, W (Proc.devRef .tc main_v166)⟩, ⟨S8192x1, W (Proc.devRef .tc main_v167)⟩, ⟨S8192x1, W (Proc.devRef .tc main_v168)⟩, ⟨S8192x1, W (Proc.devRef .tc main_v169)⟩]
      concatenates_S8192x1_S8192x1_S8192x1_S8192x1_S8192x4_d1)

set_option maxHeartbeats 4000000 in
/-- The gathered rows. -/
theorem ops08_main_v171 (W : Valuation τ sig (Elt F)) :
    StableHlo.after ops08 W (Proc.devRef .tc main_v171) = gath2 W := by
  after_results
  rfl

set_option maxHeartbeats 4000000 in
/-- The box sum of the gathered rows against the box columns. -/
theorem ops08_main_v175 (W : Valuation τ sig (Elt F)) :
    StableHlo.after ops08 W (Proc.devRef .tc main_v175) = boxSum (gath2 W) (W (Proc.devRef .tc main_v6)) := by
  after_results
  rfl

set_option maxHeartbeats 4000000 in
/-- The objectness sum of the gathered rows. -/
theorem ops08_main_v180 (W : Valuation τ sig (Elt F)) :
    StableHlo.after ops08 W (Proc.devRef .tc main_v180) = objSum (gath2 W) := by
  after_results
  simp only [StableHlo.TRef.ofBuf, StableHlo.TRef.toBuf, cast_eq]
  rfl

/-! ### Its class sum, and the three scaled sums added onto the running ones

The class sum is taken over the gathered rows against the one-hot rows of the integer class column; each of the
map's three sums is multiplied by one over the number of targets and added to the sum carried from the maps before. -/

set_option maxHeartbeats 4000000 in
/-- The running box sum after this map. -/
theorem ops09_main_v196 (W : Valuation τ sig (Elt F)) :
    StableHlo.after ops09 W (Proc.devRef .tc main_v196) = addf (W (Proc.devRef .tc main_v132)) (mulf (W (Proc.devRef .tc main_v175)) invN) := by
  after_results
  rfl

set_option maxHeartbeats 4000000 in
/-- The running objectness sum after this map. -/
theorem ops09_main_v197 (W : Valuation τ sig (Elt F)) :
    StableHlo.after ops09 W (Proc.devRef .tc main_v197) = addf (W (Proc.devRef .tc main_v133)) (mulf (W (Proc.devRef .tc main_v180)) invN) := by
  after_results
  rfl

set_option maxHeartbeats 4000000 in
/-- The running class sum after this map. -/
theorem ops09_main_v198 (W : Valuation τ sig (Elt F)) :
    StableHlo.after ops09 W (Proc.devRef .tc main_v198)
      = addf (W (Proc.devRef .tc main_v134))
          (mulf (clsSum (W (Proc.devRef .tc main_v171))
            (uitofp .f32 (cmpi .eq
              (broadcastInDim S8192x6 ![0, 1] bcast_S8192x1_S8192x6_0_1 (broadcastInDim S8192x1 ![0] bcast_S8192_S8192x1_0 (W (Proc.devRef .tc main_v5))))
              (broadcastInDim S8192x6 ![0, 1] bcast_S1x6_S8192x6_0_1 (iotaInDim S1x6 32 1))))) invN) := by
  after_results
  simp only [StableHlo.TRef.ofBuf, StableHlo.TRef.toBuf, cast_eq]
  rfl

end Cert.ReferenceIdeal.Hand

end
-- ==== Proof.Ref.Stages.lean ====
/-
  What the reference's host lines compute, chunk by chunk, at any float instance.

  The reference's 390 host operations are cut into eleven consecutive lists. For each list, and for ANY contents
  `W` of the buffers before it, the contents of each buffer a later list reads is a named function of the
  contents of the buffers the list itself reads: the prelude reads the target table and leaves the batch indices,
  the classes and the box columns; a prediction map's first list turns batch indices and box columns into the four
  one-column index tables (batch, zero, cell of y, cell of x, each shifted by its axis length when negative); its
  second list concatenates them, gathers the map's rows there and forms the box sum and the objectness sum; its
  third list forms the class sum against the one-hot class rows and adds each sum, scaled by one over the number
  of targets, onto the running totals; the closing lines multiply the totals by the gains and add them.
  A buffer a list does not write keeps its contents. Composing the eleven statements from the inside out gives the
  four results as the layer functions of the three gathered tables, the box columns and the one-hot rows.
-/
import proofs.«404462_j67929202753868_3_alg».proof.Proof.Ref.Ops
import proofs.«404462_j67929202753868_3_alg».proof.Proof.Ref.Keep
import proofs.«404462_j67929202753868_3_alg».proof.Proof.Ref.Layer
import proofs.«404462_j67929202753868_3_alg».proof.Proof.Ref.Stages12
import proofs.«404462_j67929202753868_3_alg».proof.Proof.Ref.Stages2
import proofs.«404462_j67929202753868_3_alg».proof.Proof.Shared

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Two shared spellings

The index table as a function of the batch indices and the box columns (the target table's stages are
`Sh.batchIdx` and `Sh.boxCols`; with those put in, it is `Sh.rowIdx`), and the one-hot rows as a function of the
classes (with `Sh.classIdx` put in, `Sh.oneHot`). -/

/-- Row `r` is (batch, 0, cell of y, cell of x), each index shifted by its axis length when negative. -/
def idxTab (sw hi n : BitVec 32) (b : IVec S8192 32) (T : FVec F S8192x4 .f32) : IVec S8192x4 32 :=
  concatenate S8192x4 1
    [⟨S8192x1, broadcastInDim S8192x1 ![0] bcast_S8192_S8192x1_0 (Cert.KernelIdeal.Sh.wrapNeg 32#32 b)⟩,
     ⟨S8192x1, broadcastInDim S8192x1 ![0] bcast_S8192_S8192x1_0 (id (broadcastInDim S8192 ![] bcast_S_S8192 (constantI S_ 32 0#32)))⟩,
     ⟨S8192x1, broadcastInDim S8192x1 ![0] bcast_S8192_S8192x1_0
        (Cert.KernelIdeal.Sh.wrapNeg n (Cert.KernelIdeal.Sh.cellOf sw hi (extractStridedSlice S8192x1 ![0, 1] T slices_S8192x4_S8192x1_0_1)))⟩,
     ⟨S8192x1, broadcastInDim S8192x1 ![0] bcast_S8192_S8192x1_0
        (Cert.KernelIdeal.Sh.wrapNeg n (Cert.KernelIdeal.Sh.cellOf sw hi (extractStridedSlice S8192x1 ![0, 0] T slices_S8192x4_S8192x1_0_0)))⟩]
    concatenates_S8192x1_S8192x1_S8192x1_S8192x1_S8192x4_d1

theorem idxTab_rowIdx (sw hi n : BitVec 32) (t : FVec F S8192x6 .f32) :
    idxTab sw hi n (Cert.KernelIdeal.Sh.batchIdx t) (Cert.KernelIdeal.Sh.boxCols t) = Cert.KernelIdeal.Sh.rowIdx sw hi n t := rfl

/-- Entry `(r, k)` is 1 when class `r` is `k`, else 0. -/
def oneHotOf (c : IVec S8192 32) : FVec F S8192x6 .f32 :=
  uitofp .f32 (cmpi .eq
    (broadcastInDim S8192x6 ![0, 1] bcast_S8192x1_S8192x6_0_1 (broadcastInDim S8192x1 ![0] bcast_S8192_S8192x1_0 c))
    (broadcastInDim S8192x6 ![0, 1] bcast_S1x6_S8192x6_0_1 (iotaInDim S1x6 32 1)))

theorem oneHotOf_classIdx (t : FVec F S8192x6 .f32) :
    (oneHotOf (Cert.KernelIdeal.Sh.classIdx t) : FVec F S8192x6 .f32) = Cert.KernelIdeal.Sh.oneHot t := rfl

/-! ## The prelude: the seven lines that read the target table -/

theorem ops00_v2 (W : Valuation τ sig (Elt F)) :
    after ops00 W (Proc.devRef .tc main_v2) = Cert.KernelIdeal.Sh.batchIdx (W (Proc.devRef .tc main_arg3)) := by
  after_results
  rfl

theorem ops00_v5 (W : Valuation τ sig (Elt F)) :
    after ops00 W (Proc.devRef .tc main_v5) = Cert.KernelIdeal.Sh.classIdx (W (Proc.devRef .tc main_arg3)) := by
  after_results
  rfl

theorem ops00_v6 (W : Valuation τ sig (Elt F)) :
    after ops00 W (Proc.devRef .tc main_v6) = Cert.KernelIdeal.Sh.boxCols (W (Proc.devRef .tc main_arg3)) := by
  after_results
  rfl

/-! ## A prediction map's index columns (first map: side 160)

Stated over the contents `W` holds for the batch indices and the box columns, whatever they are. -/

set_option maxHeartbeats 2000000 in
theorem ops01_v38 (W : Valuation τ sig (Elt F)) :
    after ops01 W (Proc.devRef .tc main_v38)
      = broadcastInDim S8192x1 ![0] bcast_S8192_S8192x1_0 (Cert.KernelIdeal.Sh.wrapNeg 32#32 (W (Proc.devRef .tc main_v2))) := by
  after_results_simp
  rfl

theorem ops01_v39 (W : Valuation τ sig (Elt F)) :
    after ops01 W (Proc.devRef .tc main_v39)
      = broadcastInDim S8192x1 ![0] bcast_S8192_S8192x1_0
          (id (broadcastInDim S8192 ![] bcast_S_S8192 (constantI S_ 32 0#32))) := by
  after_results

set_option maxHeartbeats 2000000 in
theorem ops01_v40 (W : Valuation τ sig (Elt F)) :
    after ops01 W (Proc.devRef .tc main_v40)
      = broadcastInDim S8192x1 ![0] bcast_S8192_S8192x1_0
          (Cert.KernelIdeal.Sh.wrapNeg 160#32 (Cert.KernelIdeal.Sh.cellOf 0x43200000#32 159#32
            (extractStridedSlice S8192x1 ![0, 1] (W (Proc.devRef .tc main_v6)) slices_S8192x4_S8192x1_0_1))) := by
  after_results_simp
  rfl

set_option maxHeartbeats 2000000 in
theorem ops01_v41 (W : Valuation τ sig (Elt F)) :
    after ops01 W (Proc.devRef .tc main_v41)
      = broadcastInDim S8192x1 ![0] bcast_S8192_S8192x1_0
          (Cert.KernelIdeal.Sh.wrapNeg 160#32 (Cert.KernelIdeal.Sh.cellOf 0x43200000#32 159#32
            (extractStridedSlice S8192x1 ![0, 0] (W (Proc.devRef .tc main_v6)) slices_S8192x4_S8192x1_0_0))) := by
  after_results_simp
  rfl

/-! ## A prediction map's gather, box sum and objectness sum (first map) -/

/-- The first map's rows at the index table whose four columns `W` holds. -/
def gathered0 (W : Valuation τ sig (Elt F)) : FVec F S8192x11 .f32 :=
  Host.gather gather_S32x3x160x160x11_S8192x4_S8192x11_1_0123_n_n_0123_1_111111 (W (Proc.devRef .tc main_arg0))
    (concatenate S8192x4 1 [⟨S8192x1, W (Proc.devRef .tc main_v38)⟩, ⟨S8192x1, W (Proc.devRef .tc main_v39)⟩,
        ⟨S8192x1, W (Proc.devRef .tc main_v40)⟩, ⟨S8192x1, W (Proc.devRef .tc main_v41)⟩]
      concatenates_S8192x1_S8192x1_S8192x1_S8192x1_S8192x4_d1)

theorem ops02_v43 (W : Valuation τ sig (Elt F)) :
    after ops02 W (Proc.devRef .tc main_v43) = gathered0 W := by
  after_results
  rfl

set_option maxHeartbeats 2000000 in
theorem ops02_v47 (W : Valuation τ sig (Elt F)) :
    after ops02 W (Proc.devRef .tc main_v47) = boxSum (gathered0 W) (W (Proc.devRef .tc main_v6)) := by
  after_results
  rfl

set_option maxHeartbeats 2000000 in
theorem ops02_v52 (W : Valuation τ sig (Elt F)) :
    after ops02 W (Proc.devRef .tc main_v52) = objSum (gathered0 W) := by
  after_results
  simp only [StableHlo.TRef.ofBuf, StableHlo.TRef.toBuf, cast_eq]
  rfl

/-! ## A prediction map's class sum and the scaling onto the totals (first map: onto zero) -/

set_option maxHeartbeats 2000000 in
theorem ops03_v68 (W : Valuation τ sig (Elt F)) :
    after ops03 W (Proc.devRef .tc main_v68)
      = addf (constant S_ .f32 0x00000000#32) (mulf (W (Proc.devRef .tc main_v47)) invN) := by
  after_results_simp
  rfl

set_option maxHeartbeats 2000000 in
theorem ops03_v69 (W : Valuation τ sig (Elt F)) :
    after ops03 W (Proc.devRef .tc main_v69)
      = addf (constant S_ .f32 0x00000000#32) (mulf (W (Proc.devRef .tc main_v52)) invN) := by
  after_results_simp
  rfl

set_option maxHeartbeats 4000000 in
theorem ops03_v70 (W : Valuation τ sig (Elt F)) :
    after ops03 W (Proc.devRef .tc main_v70)
      = addf (constant S_ .f32 0x00000000#32)
          (mulf (clsSum (W (Proc.devRef .tc main_v43)) (oneHotOf (W (Proc.devRef .tc main_v5)))) invN) := by
  after_results_simp
  simp only [StableHlo.TRef.ofBuf, StableHlo.TRef.toBuf, cast_eq]
  rfl

/-! ## The closing lines -/

theorem ops10_v199 (W : Valuation τ sig (Elt F)) :
    after ops10 W (Proc.devRef .tc main_v199)
      = mulf (W (Proc.devRef .tc main_v196)) (constant S_ .f32 0x40F00000#32) := by
  after_results

theorem ops10_v200 (W : Valuation τ sig (Elt F)) :
    after ops10 W (Proc.devRef .tc main_v200)
      = mulf (W (Proc.devRef .tc main_v197)) (constant S_ .f32 0x3FC00000#32) := by
  after_results

theorem ops10_v201 (W : Valuation τ sig (Elt F)) :
    after ops10 W (Proc.devRef .tc main_v201)
      = mulf (W (Proc.devRef .tc main_v198)) (constant S_ .f32 0x3F000000#32) := by
  after_results

theorem ops10_v203 (W : Valuation τ sig (Elt F)) :
    after ops10 W (Proc.devRef .tc main_v203)
      = addf (addf (mulf (W (Proc.devRef .tc main_v196)) (constant S_ .f32 0x40F00000#32))
                   (mulf (W (Proc.devRef .tc main_v197)) (constant S_ .f32 0x3FC00000#32)))
             (mulf (W (Proc.devRef .tc main_v198)) (constant S_ .f32 0x3F000000#32)) := by
  after_results

/-! ## One prediction map at a time

A map's three lists in a row, from any contents `W`: the running totals after them, as functions of what `W` holds
for the map, the batch indices, the classes, the box columns and the totals before; and the buffers they leave
alone. The four index columns fold into `idxTab` and the class comparison into `oneHotOf`. -/

theorem map0_v68 (W : Valuation τ sig (Elt F)) :
    after ops03 (after ops02 (after ops01 W)) (Proc.devRef .tc main_v68)
      = addf (constant S_ .f32 0x00000000#32)
          (mulf (boxSum (Host.gather gather_S32x3x160x160x11_S8192x4_S8192x11_1_0123_n_n_0123_1_111111 (W (Proc.devRef .tc main_arg0))
              (idxTab 0x43200000#32 159#32 160#32 (W (Proc.devRef .tc main_v2)) (W (Proc.devRef .tc main_v6))))
            (W (Proc.devRef .tc main_v6))) invN) := by
  rw [ops03_v68, ops02_v47, gathered0, ops01_v38, ops01_v39, ops01_v40, ops01_v41, keep01_arg0, keep01_v6]
  rfl

theorem map0_v69 (W : Valuation τ sig (Elt F)) :
    after ops03 (after ops02 (after ops01 W)) (Proc.devRef .tc main_v69)
      = addf (constant S_ .f32 0x00000000#32)
          (mulf (objSum (Host.gather gather_S32x3x160x160x11_S8192x4_S8192x11_1_0123_n_n_0123_1_111111 (W (Proc.devRef .tc main_arg0))
              (idxTab 0x43200000#32 159#32 160#32 (W (Proc.devRef .tc main_v2)) (W (Proc.devRef .tc main_v6))))) invN) := by
  rw [ops03_v69, ops02_v52, gathered0, ops01_v38, ops01_v39, ops01_v40, ops01_v41, keep01_arg0]
  rfl

theorem map0_v70 (W : Valuation τ sig (Elt F)) :
    after ops03 (after ops02 (after ops01 W)) (Proc.devRef .tc main_v70)
      = addf (constant S_ .f32 0x00000000#32)
          (mulf (clsSum (Host.gather gather_S32x3x160x160x11_S8192x4_S8192x11_1_0123_n_n_0123_1_111111 (W (Proc.devRef .tc main_arg0))
              (idxTab 0x43200000#32 159#32 160#32 (W (Proc.devRef .tc main_v2)) (W (Proc.devRef .tc main_v6))))
            (oneHotOf (W (Proc.devRef .tc main_v5)))) invN) := by
  rw [ops03_v70, ops02_v43, keep02_v5, keep01_v5, gathered0, ops01_v38, ops01_v39, ops01_v40, ops01_v41, keep01_arg0]
  rfl

theorem map0_arg1 (W : Valuation τ sig (Elt F)) :
    after ops03 (after ops02 (after ops01 W)) (Proc.devRef .tc main_arg1) = W (Proc.devRef .tc main_arg1) := by
  rw [keep03_arg1, keep02_arg1, keep01_arg1]
theorem map0_arg2 (W : Valuation τ sig (Elt F)) :
    after ops03 (after ops02 (after ops01 W)) (Proc.devRef .tc main_arg2) = W (Proc.devRef .tc main_arg2) := by
  rw [keep03_arg2, keep02_arg2, keep01_arg2]
theorem map0_v2 (W : Valuation τ sig (Elt F)) :
    after ops03 (after ops02 (after ops01 W)) (Proc.devRef .tc main_v2) = W (Proc.devRef .tc main_v2) := by
  rw [keep03_v2, keep02_v2, keep01_v2]
theorem map0_v5 (W : Valuation τ sig (Elt F)) :
    after ops03 (after ops02 (after ops01 W)) (Proc.devRef .tc main_v5) = W (Proc.devRef .tc main_v5) := by
  rw [keep03_v5, keep02_v5, keep01_v5]
theorem map0_v6 (W : Valuation τ sig (Elt F)) :
    after ops03 (after ops02 (after ops01 W)) (Proc.devRef .tc main_v6) = W (Proc.devRef .tc main_v6) := by
  rw [keep03_v6, keep02_v6, keep01_v6]

theorem map1_v132 (W : Valuation τ sig (Elt F)) :
    after ops06 (after ops05 (after ops04 W)) (Proc.devRef .tc main_v132)
      = addf (W (Proc.devRef .tc main_v68))
          (mulf (boxSum (Host.gather gather_S32x3x80x80x11_S8192x4_S8192x11_1_0123_n_n_0123_1_111111 (W (Proc.devRef .tc main_arg1))
              (idxTab 0x42A00000#32 79#32 80#32 (W (Proc.devRef .tc main_v2)) (W (Proc.devRef .tc main_v6))))
            (W (Proc.devRef .tc main_v6))) invN) := by
  rw [ops06_main_v132, keep05_v68, keep04_v68, ops05_main_v111, gath1, ops04_main_v102, ops04_main_v103, ops04_main_v104, ops04_main_v105,
    keep04_arg1, keep04_v6]
  rfl

theorem map1_v133 (W : Valuation τ sig (Elt F)) :
    after ops06 (after ops05 (after ops04 W)) (Proc.devRef .tc main_v133)
      = addf (W (Proc.devRef .tc main_v69))
          (mulf (objSum (Host.gather gather_S32x3x80x80x11_S8192x4_S8192x11_1_0123_n_n_0123_1_111111 (W (Proc.devRef .tc main_arg1))
              (idxTab 0x42A00000#32 79#32 80#32 (W (Proc.devRef .tc main_v2)) (W (Proc.devRef .tc main_v6))))) invN) := by
  rw [ops06_main_v133, keep05_v69, keep04_v69, ops05_main_v116, gath1, ops04_main_v102, ops04_main_v103, ops04_main_v104, ops04_main_v105,
    keep04_arg1]
  rfl

theorem map1_v134 (W : Valuation τ sig (Elt F)) :
    after ops06 (after ops05 (after ops04 W)) (Proc.devRef .tc main_v134)
      = addf (W (Proc.devRef .tc main_v70))
          (mulf (clsSum (Host.gather gather_S32x3x80x80x11_S8192x4_S8192x11_1_0123_n_n_0123_1_111111 (W (Proc.devRef .tc main_arg1))
              (idxTab 0x42A00000#32 79#32 80#32 (W (Proc.devRef .tc main_v2)) (W (Proc.devRef .tc main_v6))))
            (oneHotOf (W (Proc.devRef .tc main_v5)))) invN) := by
  rw [ops06_main_v134, keep05_v70, keep04_v70, ops05_main_v107, gath1, keep05_v5, keep04_v5, ops04_main_v102, ops04_main_v103,
    ops04_main_v104, ops04_main_v105, keep04_arg1]
  rfl

theorem map1_arg2 (W : Valuation τ sig (Elt F)) :
    after ops06 (after ops05 (after ops04 W)) (Proc.devRef .tc main_arg2) = W (Proc.devRef .tc main_arg2) := by
  rw [keep06_arg2, keep05_arg2, keep04_arg2]
theorem map1_v2 (W : Valuation τ sig (Elt F)) :
    after ops06 (after ops05 (after ops04 W)) (Proc.devRef .tc main_v2) = W (Proc.devRef .tc main_v2) := by
  rw [keep06_v2, keep05_v2, keep04_v2]
theorem map1_v5 (W : Valuation τ sig (Elt F)) :
    after ops06 (after ops05 (after ops04 W)) (Proc.devRef .tc main_v5) = W (Proc.devRef .tc main_v5) := by
  rw [keep06_v5, keep05_v5, keep04_v5]
theorem map1_v6 (W : Valuation τ sig (Elt F)) :
    after ops06 (after ops05 (after ops04 W)) (Proc.devRef .tc main_v6) = W (Proc.devRef .tc main_v6) := by
  rw [keep06_v6, keep05_v6, keep04_v6]

theorem map2_v196 (W : Valuation τ sig (Elt F)) :
    after ops09 (after ops08 (after ops07 W)) (Proc.devRef .tc main_v196)
      = addf (W (Proc.devRef .tc main_v132))
          (mulf (boxSum (Host.gather gather_S32x3x40x40x11_S8192x4_S8192x11_1_0123_n_n_0123_1_111111 (W (Proc.devRef .tc main_arg2))
              (idxTab 0x42200000#32 39#32 40#32 (W (Proc.devRef .tc main_v2)) (W (Proc.devRef .tc main_v6))))
            (W (Proc.devRef .tc main_v6))) invN) := by
  rw [ops09_main_v196, keep08_v132, keep07_v132, ops08_main_v175, gath2, ops07_main_v166, ops07_main_v167, ops07_main_v168, ops07_main_v169,
    keep07_arg2, keep07_v6]
  rfl

theorem map2_v197 (W : Valuation τ sig (Elt F)) :
    after ops09 (after ops08 (after ops07 W)) (Proc.devRef .tc main_v197)
      = addf (W (Proc.devRef .tc main_v133))
          (mulf (objSum (Host.gather gather_S32x3x40x40x11_S8192x4_S8192x11_1_0123_n_n_0123_1_111111 (W (Proc.devRef .tc main_arg2))
              (idxTab 0x42200000#32 39#32 40#32 (W (Proc.devRef .tc main_v2)) (W (Proc.devRef .tc main_v6))))) invN) := by
  rw [ops09_main_v197, keep08_v133, keep07_v133, ops08_main_v180, gath2, ops07_main_v166, ops07_main_v167, ops07_main_v168, ops07_main_v169,
    keep07_arg2]
  rfl

theorem map2_v198 (W : Valuation τ sig (Elt F)) :
    after ops09 (after ops08 (after ops07 W)) (Proc.devRef .tc main_v198)
      = addf (W (Proc.devRef .tc main_v134))
          (mulf (clsSum (Host.gather gather_S32x3x40x40x11_S8192x4_S8192x11_1_0123_n_n_0123_1_111111 (W (Proc.devRef .tc main_arg2))
              (idxTab 0x42200000#32 39#32 40#32 (W (Proc.devRef .tc main_v2)) (W (Proc.devRef .tc main_v6))))
            (oneHotOf (W (Proc.devRef .tc main_v5)))) invN) := by
  rw [ops09_main_v198, keep08_v134, keep07_v134, ops08_main_v171, gath2, keep08_v5, keep07_v5, ops07_main_v166, ops07_main_v167,
    ops07_main_v168, ops07_main_v169, keep07_arg2]
  rfl

/-! ## The eleven lists in a row

From any launch contents `V`, with `a0, a1, a2` the three prediction maps and `a3` the target table: unfolding from
the closing lines inward, each map's totals are read through the map's three lists, the buffers between are kept, and
the prelude turns the target table into the batch indices, the classes and the box columns; what is left is the layer
functions applied to the shared stages. -/

theorem ref_box (V : Valuation τ sig (Elt F)) :
    after ops10 (after ops09 (after ops08 (after ops07 (after ops06 (after ops05 (after ops04 (after ops03 (after ops02
      (after ops01 (after ops00 V)))))))))) (Proc.devRef .tc main_v199)
      = lbox (Cert.KernelIdeal.Sh.rows0 (V (Proc.devRef .tc main_arg0)) (V (Proc.devRef .tc main_arg3)))
          (Cert.KernelIdeal.Sh.rows1 (V (Proc.devRef .tc main_arg1)) (V (Proc.devRef .tc main_arg3)))
          (Cert.KernelIdeal.Sh.rows2 (V (Proc.devRef .tc main_arg2)) (V (Proc.devRef .tc main_arg3)))
          (Cert.KernelIdeal.Sh.boxCols (V (Proc.devRef .tc main_arg3))) := by
  rw [ops10_v199, map2_v196, map1_v132, map1_arg2, map1_v2, map1_v6, map0_v68, map0_arg1, map0_arg2, map0_v2, map0_v6,
    ops00_v2, ops00_v6, keep00_arg0, keep00_arg1, keep00_arg2]
  rfl

theorem ref_obj (V : Valuation τ sig (Elt F)) :
    after ops10 (after ops09 (after ops08 (after ops07 (after ops06 (after ops05 (after ops04 (after ops03 (after ops02
      (after ops01 (after ops00 V)))))))))) (Proc.devRef .tc main_v200)
      = lobj (Cert.KernelIdeal.Sh.rows0 (V (Proc.devRef .tc main_arg0)) (V (Proc.devRef .tc main_arg3)))
          (Cert.KernelIdeal.Sh.rows1 (V (Proc.devRef .tc main_arg1)) (V (Proc.devRef .tc main_arg3)))
          (Cert.KernelIdeal.Sh.rows2 (V (Proc.devRef .tc main_arg2)) (V (Proc.devRef .tc main_arg3))) := by
  rw [ops10_v200, map2_v197, map1_v133, map1_arg2, map1_v2, map1_v6, map0_v69, map0_arg1, map0_arg2, map0_v2, map0_v6,
    ops00_v2, ops00_v6, keep00_arg0, keep00_arg1, keep00_arg2]
  rfl

theorem ref_cls (V : Valuation τ sig (Elt F)) :
    after ops10 (after ops09 (after ops08 (after ops07 (after ops06 (after ops05 (after ops04 (after ops03 (after ops02
      (after ops01 (after ops00 V)))))))))) (Proc.devRef .tc main_v201)
      = lcls (Cert.KernelIdeal.Sh.rows0 (V (Proc.devRef .tc main_arg0)) (V (Proc.devRef .tc main_arg3)))
          (Cert.KernelIdeal.Sh.rows1 (V (Proc.devRef .tc main_arg1)) (V (Proc.devRef .tc main_arg3)))
          (Cert.KernelIdeal.Sh.rows2 (V (Proc.devRef .tc main_arg2)) (V (Proc.devRef .tc main_arg3)))
          (Cert.KernelIdeal.Sh.oneHot (V (Proc.devRef .tc main_arg3))) := by
  rw [ops10_v201, map2_v198, map1_v134, map1_arg2, map1_v2, map1_v5, map1_v6, map0_v70, map0_arg1, map0_arg2, map0_v2,
    map0_v5, map0_v6, ops00_v2, ops00_v5, ops00_v6, keep00_arg0, keep00_arg1, keep00_arg2]
  rfl

theorem ref_total (V : Valuation τ sig (Elt F)) :
    after ops10 (after ops09 (after ops08 (after ops07 (after ops06 (after ops05 (after ops04 (after ops03 (after ops02
      (after ops01 (after ops00 V)))))))))) (Proc.devRef .tc main_v203)
      = total (Cert.KernelIdeal.Sh.rows0 (V (Proc.devRef .tc main_arg0)) (V (Proc.devRef .tc main_arg3)))
          (Cert.KernelIdeal.Sh.rows1 (V (Proc.devRef .tc main_arg1)) (V (Proc.devRef .tc main_arg3)))
          (Cert.KernelIdeal.Sh.rows2 (V (Proc.devRef .tc main_arg2)) (V (Proc.devRef .tc main_arg3)))
          (Cert.KernelIdeal.Sh.boxCols (V (Proc.devRef .tc main_arg3)))
          (Cert.KernelIdeal.Sh.oneHot (V (Proc.devRef .tc main_arg3))) := by
  rw [ops10_v203, map2_v196, map2_v197, map2_v198, map1_v132, map1_v133, map1_v134, map1_arg2, map1_v2, map1_v5, map1_v6,
    map0_v68, map0_v69, map0_v70, map0_arg1, map0_arg2, map0_v2, map0_v5, map0_v6,
    ops00_v2, ops00_v5, ops00_v6, keep00_arg0, keep00_arg1, keep00_arg2]
  rfl

end Cert.ReferenceIdeal.Hand

end
-- ==== Proof.lean ====
/-
  Equivalence over the extended reals of a detection-loss kernel and its reference.

  Both programs gather, for each of 8192 targets and each of three prediction maps, the 11-entry row of the target's
  cell, and sum over all targets three terms: the L1 distance of the first four entries to the target's box, the
  softplus of minus the fifth entry, and over six class entries the softplus of the entry minus the entry times its
  one-hot weight. The reference sums each map separately, scales each sum by 1/8192 and adds the three; the kernel
  stacks the three gathered tables, walks them in six blocks of 4096 rows accumulating the three sums in lanes 0, 1, 2
  of one output row, and scales once. The two agree because a positive finite factor distributes over any sum of
  extended reals, because sums may be regrouped, and because every other step is the same operation on both sides.

  The frames: the kernel's program (at both instances) is host lines, one region, host lines; the region's body is run
  in its two cases (first point, later points) and the library's launch theorem gives termination and the untouched
  arguments. The reference has no kernel: its 390 host lines are run as one line of operations, cut into eleven lists.
-/
import proofs.«404462_j67929202753868_3_alg».proof.Defs
import proofs.«404462_j67929202753868_3_alg».proof.Proof.Kernel.Frame
import proofs.«404462_j67929202753868_3_alg».proof.Proof.Bridge
import proofs.«404462_j67929202753868_3_alg».proof.Proof.Ref.Run
import proofs.«404462_j67929202753868_3_alg».proof.Proof.Ref.Stages
import proofs.«404462_j67929202753868_3_alg».proof.Proof.Gen.Pre_finite_inputs
import proofs.«404462_j67929202753868_3_alg».proof.Proof.Gen.ReferenceIdeal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Acc.frame (F := Bits) m ρ
theorem frame_ki : Cert.frame_KernelIdeal := fun m ρ _ => Cert.KernelIdeal.Acc.frame (F := Ideal) m ρ

/-- The reference runs, and no operation of it writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept_arg0 _),
     (h c Cert.ReferenceIdeal.main_arg1).trans (Cert.ReferenceIdeal.Hand.kept_arg1 _),
     (h c Cert.ReferenceIdeal.main_arg2).trans (Cert.ReferenceIdeal.Hand.kept_arg2 _),
     (h c Cert.ReferenceIdeal.main_arg3).trans (Cert.ReferenceIdeal.Hand.kept_arg3 _)⟩)
    (Cert.ReferenceIdeal.Hand.run_all (F := Ideal) m ρ)

/-- From memories agreeing on the arguments both programs end with the same four results: the kernel's are the
    reference's layer functions of the shared stages of the arguments, and so are the reference's. -/
theorem algebraic : Cert.algebraic_KernelIdeal_ReferenceIdeal := by
  intro m ρ m' ρ' _ hagree
  refine ⟨_, _, _, _, Cert.KernelIdeal.Acc.run_values (F := Ideal) m ρ, ?_⟩
  refine (θ_run Cert.ReferenceIdeal.defs _ _).mono (fun r h c => ?_) (Cert.ReferenceIdeal.Hand.run_all (F := Ideal) m' ρ')
  obtain ⟨e0, e1, e2, e3⟩ := hagree c
  have kt := Cert.Join.tot_join m c
  have kb := Cert.Join.box_join m c
  have ko := Cert.Join.obj_join m c
  have kc := Cert.Join.cls_join m c
  rw [← e0, ← e1, ← e2, ← e3] at kt kb ko kc
  exact ⟨(h c Cert.ReferenceIdeal.main_v203).trans ((congrFun (Cert.ReferenceIdeal.Hand.after_split _) _).trans ((Cert.ReferenceIdeal.Hand.ref_total _).trans kt.symm)),
    (h c Cert.ReferenceIdeal.main_v199).trans ((congrFun (Cert.ReferenceIdeal.Hand.after_split _) _).trans ((Cert.ReferenceIdeal.Hand.ref_box _).trans kb.symm)),
    (h c Cert.ReferenceIdeal.main_v200).trans ((congrFun (Cert.ReferenceIdeal.Hand.after_split _) _).trans ((Cert.ReferenceIdeal.Hand.ref_obj _).trans ko.symm)),
    (h c Cert.ReferenceIdeal.main_v201).trans ((congrFun (Cert.ReferenceIdeal.Hand.after_split _) _).trans ((Cert.ReferenceIdeal.Hand.ref_cls _).trans kc.symm)),
    (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
